-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048 : Shape := ⟨2, ![2, 2048]⟩
abbrev S2x2048x1024 : Shape := ⟨3, ![2, 2048, 1024]⟩
abbrev S50257x1024 : Shape := ⟨2, ![50257, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S2x2048 : S_.BroadcastsInDim S2x2048 (![] : Fin 0 → Fin S2x2048.rank)
  reducesTo_S2x2048_S_d0_1 : S2x2048.ReducesTo [0, 1] S_

variable [Facts]

def fn {F : FTy → Type} [FloatOps F] (main_arg0 : IVec S2x2048 32) (main_arg1 : IVec S2x2048 1) (main_arg2 : FVec F S2x2048x1024 .f32) (main_arg3 : FVec F S50257x1024 .f32) : IVec S_ 1 :=
  let main_v0 : FVec F S2x2048x1024 .f32 := Host.absf main_arg2
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S50257x1024 .f32 := Host.absf main_arg3
  let main_cst_0 : FVec F S_ .f32 := constant S_ .f32 0x7F800000#32
  let main_v5 : FVec F S50257x1024 .f32 := broadcastInDim S50257x1024 ![] bcast_S_S50257x1024 main_cst_0
  let main_v6 : IVec S50257x1024 1 := cmpf .olt main_v4 main_v5
  let main_c_1 : IVec S_ 1 := constantI S_ 1 1#1
  let main_v7 : IVec S_ 1 := (fun x v => Host.reduce IntOp.andi x v reducesTo_S50257x1024_S_d0_1 h_S_) main_v6 main_c_1
  let main_v8 : IVec S_ 1 := andi main_v3 main_v7
  let main_c_2 : IVec S_ 32 := constantI S_ 32 0#32
  let main_v9 : IVec S2x2048 32 := broadcastInDim S2x2048 ![] bcast_S_S2x2048 main_c_2
  let main_v10 : IVec S2x2048 1 := cmpi .sge main_arg0 main_v9
  let main_c_3 : IVec S_ 32 := constantI S_ 32 50257#32
  let main_v11 : IVec S2x2048 32 := broadcastInDim S2x2048 ![] bcast_S_S2x2048 main_c_3
  let main_v12 : IVec S2x2048 1 := cmpi .slt main_arg0 main_v11
  let main_v13 : IVec S2x2048 1 := andi main_v10 main_v12
  let main_c_4 : IVec S_ 1 := constantI S_ 1 1#1
  let main_v14 : IVec S_ 1 := (fun x v => Host.reduce IntOp.andi x v reducesTo_S2x2048_S_d0_1 h_S_) main_v13 main_c_4
  let main_v15 : IVec S_ 1 := andi main_v8 main_v14
  main_v15
-- ==== Kernel.lean ====
abbrev S2x2048 : Shape := ⟨2, ![2, 2048]⟩
abbrev S2x2048x1024 : Shape := ⟨3, ![2, 2048, 1024]⟩
abbrev S50257x1024 : Shape := ⟨2, ![50257, 1024]⟩
abbrev S4096x1024 : Shape := ⟨2, ![4096, 1024]⟩
abbrev S_ : Shape := ⟨0, ![]⟩
abbrev S50688x1024 : Shape := ⟨2, ![50688, 1024]⟩
abbrev S1x4096 : Shape := ⟨2, ![1, 4096]⟩
abbrev S2048x1024 : Shape := ⟨2, ![2048, 1024]⟩
abbrev S512x1024 : Shape := ⟨2, ![512, 1024]⟩
abbrev S1x2048 : Shape := ⟨2, ![1, 2048]⟩
abbrev S512x2048 : Shape := ⟨2, ![512, 2048]⟩
abbrev S2048 : Shape := ⟨1, ![2048]⟩
abbrev S4096 : Shape := ⟨1, ![4096]⟩

abbrev nBuf : Space → Nat
  | .hbm => 35
  | .vmem => 14
  | .smem => 0
  | _ => 0

abbrev bufTy : (tb : Table) → Fin (tcTables nBuf tb) → BufTy
  | .hbm, ⟨0, _⟩ => ⟨S2x2048, .i32⟩
  | .hbm, ⟨1, _⟩ => ⟨S2x2048, .i1⟩
  | .hbm, ⟨2, _⟩ => ⟨S2x2048x1024, .f32⟩
  | .hbm, ⟨3, _⟩ => ⟨S50257x1024, .f32⟩
  | .hbm, ⟨4, _⟩ => ⟨S4096x1024, .f32⟩
  | .hbm, ⟨5, _⟩ => ⟨S4096x1024, .bf16⟩
  | .hbm, ⟨6, _⟩ => ⟨S50257x1024, .bf16⟩
  | .hbm, ⟨7, _⟩ => ⟨S_, .i32⟩
  | .hbm, ⟨8, _⟩ => ⟨S_, .bf16⟩
  | .hbm, ⟨9, _⟩ => ⟨S50688x1024, .bf16⟩
  | .hbm, ⟨10, _⟩ => ⟨S1x4096, .i32⟩
  | .hbm, ⟨11, _⟩ => ⟨S1x4096, .f32⟩
  | .hbm, ⟨12, _⟩ => ⟨S1x4096, .f32⟩
  | .hbm, ⟨13, _⟩ => ⟨S2x2048, .f32⟩
  | .hbm, ⟨14, _⟩ => ⟨S4096, .f32⟩
  | .hbm, ⟨15, _⟩ => ⟨S_, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048, .i32⟩
  | .local _ .vmem, ⟨5, _⟩ => ⟨S1x2048, .i32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S2x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 99], ![false, false]⟩

def k0_cond2 (i : grid0.Coords) : BitVec 1 :=
  let arg1 : BitVec 32 := BitVec.ofNat 32 (i 1).val
  let c98_i32 : BitVec 32 := 98#32
  let v58 : BitVec 1 := Scalar.cmpi .eq arg1 c98_i32
  let v59 : BitVec 32 := Scalar.extui v58
  let c0_i32_29 : BitVec 32 := 0#32
  let v60 : BitVec 1 := Scalar.cmpi .ne v59 c0_i32_29
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x2048x1024_S4096x1024 : S2x2048x1024.ShapeCasts S4096x1024
  bitsLt_bf16_f32 : FTy.bits .bf16 < FTy.bits .f32
  pads_S50257x1024_S50688x1024_04310_000 : S50257x1024.Pads (![0, 0] : Fin 2 → Nat) ![431, 0] ![0, 0] S50688x1024
  h_S_ : 0 < S_.numel
  shapeCasts_S2x2048_S1x4096 : S2x2048.ShapeCasts S1x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  iota_S512x2048_d0_w32 : S512x2048.Iotas .tc 32 [0]
  reduces_S512x2048_S2048 : S512x2048.Reduces [0] S2048
  shapeCasts_S2048_S1x2048 : S2048.ShapeCasts S1x2048
  broadcasts_S1x2048_S512x2048 : S1x2048.Broadcasts S512x2048
  shapeCasts_S2x2048_S4096 : S2x2048.ShapeCasts S4096
  reducesTo_S4096_S_d0 : S4096.ReducesTo [0] S_
  shapeCasts_S1x4096_S4096 : S1x4096.ShapeCasts S4096
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .bf16 = 32 ∨ (Rect.block (s := S4096x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S50688x1024.size a
  hwx0_1 : ∀ i : grid0.Coords, EltTy.bits .bf16 = 32 ∨ (Rect.block (s := S50688x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .i32 = 32 ∨ (Rect.block (s := S1x4096) S1x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x4096.size a
  hwx0_4 : ∀ i : grid0.Coords, EltTy.bits .f32 = 32 ∨ (Rect.block (s := S1x4096) S1x2048.size (cc0_transform_4 i) (hinb0_4 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x2048 : Shape := ⟨2, ![2, 2048]⟩
abbrev S2x2048x1024 : Shape := ⟨3, ![2, 2048, 1024]⟩
abbrev S50257x1024 : Shape := ⟨2, ![50257, 1024]⟩
abbrev S2x2048x50257 : Shape := ⟨3, ![2, 2048, 50257]⟩
abbrev S_ : Shape := ⟨0, ![]⟩
abbrev S2x2048x1 : Shape := ⟨3, ![2, 2048, 1]⟩
abbrev S2x2048x1x1 : Shape := ⟨4, ![2, 2048, 1, 1]⟩
abbrev S1 : Shape := ⟨1, ![1]⟩
abbrev S1x1x1x1 : Shape := ⟨4, ![1, 1, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S2x2048, .i32⟩
  | .hbm, ⟨1, _⟩ => ⟨S2x2048, .i1⟩
  | .hbm, ⟨2, _⟩ => ⟨S2x2048x1024, .f32⟩
  | .hbm, ⟨3, _⟩ => ⟨S50257x1024, .f32⟩
  | .hbm, ⟨4, _⟩ => ⟨S2x2048x50257, .f32⟩
  | .hbm, ⟨5, _⟩ => ⟨S_, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048x1, .f32⟩
  | .hbm, ⟨11, _⟩ => ⟨S2x2048x50257, .f32⟩
  | .hbm, ⟨12, _⟩ => ⟨S2x2048x50257, .f32⟩
  | .hbm, ⟨13, _⟩ => ⟨S2x2048x50257, .f32⟩
  | .hbm, ⟨14, _⟩ => ⟨S_, .f32⟩
  | .hbm, ⟨15, _⟩ => ⟨S2x2048, .f32⟩
  | .hbm, ⟨16, _⟩ => ⟨S2x2048x1, .f32⟩
  | .hbm, ⟨17, _⟩ => ⟨S2x2048x1, .f32⟩
  | .hbm, ⟨18, _⟩ => ⟨S2x2048x50257, .f32⟩
  | .hbm, ⟨19, _⟩ => ⟨S2x2048x50257, .f32⟩
  | .hbm, ⟨20, _⟩ => ⟨S2x2048, .f32⟩
  | .hbm, ⟨21, _⟩ => ⟨S_, .f32⟩
  | .hbm, ⟨22, _⟩ => ⟨S_, .f32⟩
  | .hbm, ⟨23, _⟩ => ⟨S2x2048x1, .i32⟩
  | .hbm, ⟨24, _⟩ => ⟨S_, .i32⟩
  | .hbm, ⟨25, _⟩ => ⟨S2x2048x1, .i32⟩
  | .hbm, ⟨26, _⟩ => ⟨S2x2048x1, .i1⟩
  | .hbm, ⟨27, _⟩ => ⟨S_, .i32⟩
  | .hbm, ⟨28, _⟩ => ⟨S2x2048x1, .i32⟩
  | .hbm, ⟨29, _⟩ => ⟨S2x2048x1, .i32⟩
  | .hbm, ⟨30, _⟩ => ⟨S2x2048x1, .i32⟩
  | .hbm, ⟨31, _⟩ => ⟨S2x2048x1x1, .i32⟩
  | .hbm, ⟨32, _⟩ => ⟨S1, .i32⟩
  | .hbm, ⟨33, _⟩ => ⟨S_, .i32⟩
  | .hbm, ⟨34, _⟩ => ⟨S2x2048x1x1, .i32⟩
  | .hbm, ⟨35, _⟩ => ⟨S2x2048x1x1, .i1⟩
  | .hbm, ⟨36, _⟩ => ⟨S1x1x1x1, .i32⟩
  | .hbm, ⟨37, _⟩ => ⟨S2x2048x1x1, .i32⟩
  | .hbm, ⟨38, _⟩ => ⟨S2x2048x1x1, .i1⟩
  | .hbm, ⟨39, _⟩ => ⟨S2x2048x1x1, .i1⟩
  | .hbm, ⟨40, _⟩ => ⟨S_, .i1⟩
  | .hbm, ⟨41, _⟩ => ⟨S2x2048x1, .i1⟩
  | .hbm, ⟨42, _⟩ => ⟨S2x2048x1, .f32⟩
  | .hbm, ⟨43, _⟩ => ⟨S_, .f32⟩
  | .hbm, ⟨44, _⟩ => ⟨S2x2048x1, .f32⟩
  | .hbm, ⟨45, _⟩ => ⟨S2x2048x1, .f32⟩
  | .hbm, ⟨46, _⟩ => ⟨S2x2048, .f32⟩
  | .hbm, ⟨47, _⟩ => ⟨S2x2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S2x2048, .f32⟩
  | .hbm, ⟨54, _⟩ => ⟨S2x2048, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S2x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_cst_0 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_cst_1 : Ref sig .tc := ⟨.hbm, 52, rfl⟩
abbrev main_v11 : Ref sig .tc := ⟨.hbm, 53, rfl⟩
abbrev main_v12 : Ref sig .tc := ⟨.hbm, 54, rfl⟩
abbrev main_cst_2 : Ref sig .tc := ⟨.hbm, 55, rfl⟩
abbrev main_v13 : Ref sig .tc := ⟨.hbm, 56, rfl⟩
abbrev main_cst_3 : Ref sig .tc := ⟨.hbm, 57, rfl⟩
abbrev main_v14 : Ref sig .tc := ⟨.hbm, 58, rfl⟩
abbrev main_v15 : Ref sig .tc := ⟨.hbm, 59, rfl⟩
abbrev main_cst_4 : Ref sig .tc := ⟨.hbm, 60, rfl⟩
abbrev main_v16 : Ref sig .tc := ⟨.hbm, 61, rfl⟩
abbrev main_cst_5 : Ref sig .tc := ⟨.hbm, 62, rfl⟩
abbrev main_v17 : Ref sig .tc := ⟨.hbm, 63, rfl⟩
abbrev main_v18 : Ref sig .tc := ⟨.hbm, 64, rfl⟩

abbrev nD : Nat := 1
abbrev τ : Topo := Topo.v7x

variable {F : FTy → Type} [FloatOps F]

class Facts₀ : Prop where
  reducesTo_S2x2048x50257_S2x2048_d2 : S2x2048x50257.ReducesTo [2] S2x2048
  h_S_ : 0 < S_.numel
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S2x2048x1_S2x2048x50257_0_1_2 : S2x2048x1.BroadcastsInDim S2x2048x50257 (![0, 1, 2] : Fin 3 → Fin S2x2048x50257.rank)
  reducesTo_S2x2048_S_d0_1 : S2x2048.ReducesTo [0, 1] S_
  bcast_S_S2x2048x1 : S_.BroadcastsInDim S2x2048x1 (![] : Fin 0 → Fin S2x2048x1.rank)
  shapeCasts_S2x2048x1_S2x2048x1x1 : S2x2048x1.ShapeCasts S2x2048x1x1
  bcast_S_S2x2048x1x1 : S_.BroadcastsInDim S2x2048x1x1 (![] : Fin 0 → Fin S2x2048x1x1.rank)
  bcast_S1_S1x1x1x1_3 : S1.BroadcastsInDim S1x1x1x1 (![3] : Fin 1 → Fin S1x1x1x1.rank)
  bcast_S1x1x1x1_S2x2048x1x1_0_1_2_3 : S1x1x1x1.BroadcastsInDim S2x2048x1x1 (![0, 1, 2, 3] : Fin 4 → Fin S2x2048x1x1.rank)
  reducesTo_S2x2048x1x1_S2x2048x1_d3 : S2x2048x1x1.ReducesTo [3] S2x2048x1
  shapeCasts_S2x2048x1_S2x2048 : S2x2048x1.ShapeCasts S2x2048
  dot_S2x2048x1024_S50257x1024_S2x2048x50257_2_1_01_0_n_n_wf : DotDims.WF S2x2048x1024 S50257x1024 S2x2048x50257 [2] [1] [0, 1] [0] [] []
  gather_S2x2048x50257_S2x2048x1x1_S2x2048x1_n_2_01_01_2_3_111_wf : GatherDims.WF S2x2048x50257 S2x2048x1x1 S2x2048x1 [] [2] [0, 1] [2] [0, 1] 3 ![1, 1, 1]

variable [Facts₀]

def dot_S2x2048x1024_S50257x1024_S2x2048x50257_2_1_01_0_n_n : DotDims S2x2048x1024 S50257x1024 S2x2048x50257 where
  lhsContracting := [2]
  rhsContracting := [1]
  lhsNonContracting := [0, 1]
  rhsNonContracting := [0]
  lhsBatch := []
  rhsBatch := []
  wf := dot_S2x2048x1024_S50257x1024_S2x2048x50257_2_1_01_0_n_n_wf
def gather_S2x2048x50257_S2x2048x1x1_S2x2048x1_n_2_01_01_2_3_111 : GatherDims S2x2048x50257 S2x2048x1x1 S2x2048x1 where
  offsetDims := []
  collapsedSliceDims := [2]
  operandBatchingDims := [0, 1]
  startIndicesBatchingDims := [0, 1]
  startIndexMap := [2]
  indexVectorDim := 3
  sliceSizes := ![1, 1, 1]
  wf := gather_S2x2048x50257_S2x2048x1x1_S2x2048x1_n_2_01_01_2_3_111_wf

class Facts : Prop extends Facts₀ where

variable [Facts]
-- ==== Proof.Pieces.lean ====
/-
  What one grid point's body leaves in the four carried scratch rows and, at a token tile's last vocabulary tile,
  in the two output rows: each is ONE payload of the body, applied to the point's input blocks and to what the
  scratch rows held before (at a token tile's first vocabulary tile: to the reset values). The body stores each row
  whole, so reading a row back returns the stored payload.
-/
import proofs.«431461_j16569983828129_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

theorem hz : (![0, 0] : Fin 2 → Nat) = fun _ => 0 := funext fun a => by fin_cases a <;> rfl

variable (c : Dev nD) (i : grid0.Coords)
  (arg2 : Memref sig .tc .vmem S2048x1024 .bf16) (harg2 : arg2.IsWhole) (arg3 : Memref sig .tc .vmem S512x1024 .bf16) (harg3 : arg3.IsWhole)
  (arg4 : Memref sig .tc .vmem S1x2048 .i32) (harg4 : arg4.IsWhole) (arg5 : Memref sig .tc .vmem S1x2048 .f32) (harg5 : arg5.IsWhole)
  (arg6 : Memref sig .tc .vmem S1x2048 .f32) (harg6 : arg6.IsWhole) (arg7 : Memref sig .tc .vmem S1x2048 .f32) (harg7 : arg7.IsWhole)
  (arg8 : Memref sig .tc .vmem S1x2048 .f32) (harg8 : arg8.IsWhole) (arg9 : Memref sig .tc .vmem S1x2048 .f32) (harg9 : arg9.IsWhole)
  (arg10 : Memref sig .tc .vmem S1x2048 .f32) (harg10 : arg10.IsWhole)
  (x0 : Vec F S2048x1024 .bf16) (x1 : Vec F S512x1024 .bf16) (x2 : Vec F S1x2048 .i32)

/-! ## A token tile's first vocabulary tile: the rows are reset, then updated -/

/-- First vocabulary tile, the running maximum `arg7`: the update applied to the reset value. -/
theorem first_0 (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 = k0_pay3 (k0_pay16 i x0 x1 k0_pay7) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x2048) hz]
  simp only [View.readAt_eq_ld, harg2.read_unread, harg3.read_unread, harg4.read_unread, harg7.read_unread, harg8.read_unread,
    harg9.read_unread, harg10.read_unread, View.readCov_unit_zero (S := S1x2048) _ hz, View.ld_unit_zero (S := S1x2048) hz,
    View.ld_unit_zero (S := S2048x1024) hz, View.ld_unit_zero (S := S512x1024) hz]

/-- First vocabulary tile, the running exponential sum `arg8`: the update applied to the reset value. -/
theorem first_1 (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 = k0_pay17 i x0 x1 k0_pay7 k0_pay8 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x2048) hz]
  simp only [View.readAt_eq_ld, harg2.read_unread, harg3.read_unread, harg4.read_unread, harg7.read_unread, harg8.read_unread,
    harg9.read_unread, harg10.read_unread, View.readCov_unit_zero (S := S1x2048) _ hz, View.ld_unit_zero (S := S1x2048) hz,
    View.ld_unit_zero (S := S2048x1024) hz, View.ld_unit_zero (S := S512x1024) hz]

/-- First vocabulary tile, the running sum of logits `arg9`: the update applied to the reset value. -/
theorem first_2 (hc0 : cond0_0 i) (hc1 : ¬cond0_1 i) :
    sout0_A_2 c i arg2 harg2 arg3 harg3 arg4 harg4 arg5 harg5 arg6 harg6 arg7 harg7 arg8 harg8 arg9 harg9 arg10 harg10 hc0 hc1 x0 x1 x2 = k0_pay1 (k0_pay15 i x0 x1) k0_pay9 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x2048) hz]
  simp only [View.readAt_eq_ld, harg2.read_unread, harg3.read_unread, harg4.read_unread, harg7.read_unread, harg8.read_unread,
    harg9.read_unread, harg10.read_unread, View.readCov_unit_zero (S := S1x2048) _ hz, View.ld_unit_zero (S := S1x2048) hz,
    View.ld_unit_zero (S := S2048x1024) hz, View.ld_unit_zero (S := S512x1024) hz]

/-- First vocabulary tile, the running target logit `arg10`: the update applied to the reset value. -/
theorem first_3 (hc0 : cond0_0 i) (hc1 : ¬cond0_1 i) :
    sout0_A_3 c i arg2 harg2 arg3 harg3 arg4 harg4 arg5 harg5 arg6 harg6 arg7 harg7 arg8 harg8 arg9 harg9 arg10 harg10 hc0 hc1 x0 x1 x2 = k0_pay2 (k0_pay12 i) (k0_pay15 i x0 x1) x2 k0_pay10 := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x2048) hz]
  simp only [View.readAt_eq_ld, harg2.read_unread, harg3.read_unread, harg4.read_unread, harg7.read_unread, harg8.read_unread,
    harg9.read_unread, harg10.read_unread, View.readCov_unit_zero (S := S1x2048) _ hz, View.ld_unit_zero (S := S1x2048) hz,
    View.ld_unit_zero (S := S2048x1024) hz, View.ld_unit_zero (S := S512x1024) hz]

/-! ## A middle vocabulary tile: the rows are updated from what the tile before left -/

variable (xs0 xs1 xs2 xs3 : Vec F S1x2048 .f32)

/-- Middle vocabulary tile, the running maximum `arg7`. -/
theorem mid_0 (hc0 : ¬cond0_0 i) (hc1 : ¬cond0_1 i) :
    sout0_B_0 c i arg2 harg2 arg3 harg3 arg4 harg4 arg5 harg5 arg6 harg6 arg7 harg7 arg8 harg8 arg9 harg9 arg10 harg10 hc0 hc1 x0 x1 x2 xs0 xs1 xs2 xs3 = k0_pay3 (k0_pay16 i x0 x1 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz]
  simp only [View.readAt_eq_ld, harg2.read_unread, harg3.read_unread, harg4.read_unread, harg7.read_unread, harg8.read_unread,
    harg9.read_unread, harg10.read_unread, View.readCov_unit_zero (S := S1x2048) _ hz, View.ld_unit_zero (S := S1x2048) hz,
    View.ld_unit_zero (S := S2048x1024) hz, View.ld_unit_zero (S := S512x1024) hz]

/-- Middle vocabulary tile, the running exponential sum `arg8`. -/
theorem mid_1 (hc0 : ¬cond0_0 i) (hc1 : ¬cond0_1 i) :
    sout0_B_1 c i arg2 harg2 arg3 harg3 arg4 harg4 arg5 harg5 arg6 harg6 arg7 harg7 arg8 harg8 arg9 harg9 arg10 harg10 hc0 hc1 x0 x1 x2 xs0 xs1 xs2 xs3 = k0_pay17 i x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz]
  simp only [View.readAt_eq_ld, harg2.read_unread, harg3.read_unread, harg4.read_unread, harg7.read_unread, harg8.read_unread,
    harg9.read_unread, harg10.read_unread, View.readCov_unit_zero (S := S1x2048) _ hz, View.ld_unit_zero (S := S1x2048) hz,
    View.ld_unit_zero (S := S2048x1024) hz, View.ld_unit_zero (S := S512x1024) hz]

/-- Middle vocabulary tile, the running sum of logits `arg9`. -/
theorem mid_2 (hc0 : ¬cond0_0 i) (hc1 : ¬cond0_1 i) :
    sout0_B_2 c i arg2 harg2 arg3 harg3 arg4 harg4 arg5 harg5 arg6 harg6 arg7 harg7 arg8 harg8 arg9 harg9 arg10 harg10 hc0 hc1 x0 x1 x2 xs0 xs1 xs2 xs3 = k0_pay1 (k0_pay15 i x0 x1) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz]
  simp only [View.readAt_eq_ld, harg2.read_unread, harg3.read_unread, harg4.read_unread, harg7.read_unread, harg8.read_unread,
    harg9.read_unread, harg10.read_unread, View.readCov_unit_zero (S := S1x2048) _ hz, View.ld_unit_zero (S := S1x2048) hz,
    View.ld_unit_zero (S := S2048x1024) hz, View.ld_unit_zero (S := S512x1024) hz]

/-- Middle vocabulary tile, the running target logit `arg10`. -/
theorem mid_3 (hc0 : ¬cond0_0 i) (hc1 : ¬cond0_1 i) :
    sout0_B_3 c i arg2 harg2 arg3 harg3 arg4 harg4 arg5 harg5 arg6 harg6 arg7 harg7 arg8 harg8 arg9 harg9 arg10 harg10 hc0 hc1 x0 x1 x2 xs0 xs1 xs2 xs3 = k0_pay2 (k0_pay12 i) (k0_pay15 i x0 x1) x2 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz]
  simp only [View.readAt_eq_ld, harg2.read_unread, harg3.read_unread, harg4.read_unread, harg7.read_unread, harg8.read_unread,
    harg9.read_unread, harg10.read_unread, View.readCov_unit_zero (S := S1x2048) _ hz, View.ld_unit_zero (S := S1x2048) hz,
    View.ld_unit_zero (S := S2048x1024) hz, View.ld_unit_zero (S := S512x1024) hz]

/-! ## The last vocabulary tile: the same update, and the two output rows from the updated rows -/

/-- Last vocabulary tile, the running maximum `arg7`. -/
theorem last_0 (hc0 : ¬cond0_0 i) (hc1 : cond0_1 i) :
    sout0_C_0 c i arg2 harg2 arg3 harg3 arg4 harg4 arg5 harg5 arg6 harg6 arg7 harg7 arg8 harg8 arg9 harg9 arg10 harg10 hc0 hc1 x0 x1 x2 xs0 xs1 xs2 xs3 = k0_pay3 (k0_pay16 i x0 x1 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz]
  simp only [View.readAt_eq_ld, harg2.read_unread, harg3.read_unread, harg4.read_unread, harg7.read_unread, harg8.read_unread,
    harg9.read_unread, harg10.read_unread, View.readCov_unit_zero (S := S1x2048) _ hz, View.ld_unit_zero (S := S1x2048) hz,
    View.ld_unit_zero (S := S2048x1024) hz, View.ld_unit_zero (S := S512x1024) hz]

/-- Last vocabulary tile, the running exponential sum `arg8`. -/
theorem last_1 (hc0 : ¬cond0_0 i) (hc1 : cond0_1 i) :
    sout0_C_1 c i arg2 harg2 arg3 harg3 arg4 harg4 arg5 harg5 arg6 harg6 arg7 harg7 arg8 harg8 arg9 harg9 arg10 harg10 hc0 hc1 x0 x1 x2 xs0 xs1 xs2 xs3 = k0_pay17 i x0 x1 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz]
  simp only [View.readAt_eq_ld, harg2.read_unread, harg3.read_unread, harg4.read_unread, harg7.read_unread, harg8.read_unread,
    harg9.read_unread, harg10.read_unread, View.readCov_unit_zero (S := S1x2048) _ hz, View.ld_unit_zero (S := S1x2048) hz,
    View.ld_unit_zero (S := S2048x1024) hz, View.ld_unit_zero (S := S512x1024) hz]

/-- Last vocabulary tile, the running sum of logits `arg9`. -/
theorem last_2 (hc0 : ¬cond0_0 i) (hc1 : cond0_1 i) :
    sout0_C_2 c i arg2 harg2 arg3 harg3 arg4 harg4 arg5 harg5 arg6 harg6 arg7 harg7 arg8 harg8 arg9 harg9 arg10 harg10 hc0 hc1 x0 x1 x2 xs0 xs1 xs2 xs3 = k0_pay1 (k0_pay15 i x0 x1) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz]
  simp only [View.readAt_eq_ld, harg2.read_unread, harg3.read_unread, harg4.read_unread, harg7.read_unread, harg8.read_unread,
    harg9.read_unread, harg10.read_unread, View.readCov_unit_zero (S := S1x2048) _ hz, View.ld_unit_zero (S := S1x2048) hz,
    View.ld_unit_zero (S := S2048x1024) hz, View.ld_unit_zero (S := S512x1024) hz]

/-- Last vocabulary tile, the running target logit `arg10`. -/
theorem last_3 (hc0 : ¬cond0_0 i) (hc1 : cond0_1 i) :
    sout0_C_3 c i arg2 harg2 arg3 harg3 arg4 harg4 arg5 harg5 arg6 harg6 arg7 harg7 arg8 harg8 arg9 harg9 arg10 harg10 hc0 hc1 x0 x1 x2 xs0 xs1 xs2 xs3 = k0_pay2 (k0_pay12 i) (k0_pay15 i x0 x1) x2 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz]
  simp only [View.readAt_eq_ld, harg2.read_unread, harg3.read_unread, harg4.read_unread, harg7.read_unread, harg8.read_unread,
    harg9.read_unread, harg10.read_unread, View.readCov_unit_zero (S := S1x2048) _ hz, View.ld_unit_zero (S := S1x2048) hz,
    View.ld_unit_zero (S := S2048x1024) hz, View.ld_unit_zero (S := S512x1024) hz]

/-- Last vocabulary tile, the first output row: the target's logit minus `max + log (exponential sum)`, over the updated rows. -/
theorem last_tok (hc0 : ¬cond0_0 i) (hc1 : cond0_1 i) :
    out0_C_3 c i arg2 harg2 arg3 harg3 arg4 harg4 arg5 harg5 arg6 harg6 arg7 harg7 arg8 harg8 arg9 harg9 arg10 harg10 hc0 hc1 x0 x1 x2 xs0 xs1 xs2 xs3 = k0_pay5 (k0_pay3 (k0_pay16 i x0 x1 xs0)) (k0_pay17 i x0 x1 xs0 xs1) (k0_pay2 (k0_pay12 i) (k0_pay15 i x0 x1) x2 xs3) := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz]
  simp only [View.readAt_eq_ld, harg2.read_unread, harg3.read_unread, harg4.read_unread, harg7.read_unread, harg8.read_unread,
    harg9.read_unread, harg10.read_unread, View.readCov_unit_zero (S := S1x2048) _ hz, View.ld_unit_zero (S := S1x2048) hz,
    View.ld_unit_zero (S := S2048x1024) hz, View.ld_unit_zero (S := S512x1024) hz]

/-- Last vocabulary tile, the second output row: the sum of logits minus `50257 · (max + log (exponential sum))`, over the updated rows. -/
theorem last_sum (hc0 : ¬cond0_0 i) (hc1 : cond0_1 i) :
    out0_C_4 c i arg2 harg2 arg3 harg3 arg4 harg4 arg5 harg5 arg6 harg6 arg7 harg7 arg8 harg8 arg9 harg9 arg10 harg10 hc0 hc1 x0 x1 x2 xs0 xs1 xs2 xs3 = k0_pay6 (k0_pay3 (k0_pay16 i x0 x1 xs0)) (k0_pay17 i x0 x1 xs0 xs1) (k0_pay1 (k0_pay15 i x0 x1) xs2) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz]
  simp only [View.readAt_eq_ld, harg2.read_unread, harg3.read_unread, harg4.read_unread, harg7.read_unread, harg8.read_unread,
    harg9.read_unread, harg10.read_unread, View.readCov_unit_zero (S := S1x2048) _ hz, View.ld_unit_zero (S := S1x2048) hz,
    View.ld_unit_zero (S := S2048x1024) hz, View.ld_unit_zero (S := S512x1024) hz]

end Cert.KernelIdeal.Pieces

end
-- ==== Proof.FoldDefs.lean ====
/-
  The arithmetic core, free of any program. One token's logits over the vocabulary are a function `x` of the
  column `u`; the vocabulary has 50257 columns and is scanned in 99 tiles of 512, the last tile running 431
  columns past the end. Past the end a column counts as `⊥` for the maximum and the exponential sum and as `0`
  for the plain sums. A tile updates four running values: the maximum `M`, the sum `L` of `exp (x - M)`
  rescaled by `exp (M_old - M_new)`, the sum `S` of the logits, and the logit `T` at the target column.
  For real logits the fold ends at the row maximum and at `∑ exp (x - max)`, so `M + log L` is the row's
  log-sum-exp; the two per-token results are then `x_target - lse` and `∑ x - 50257 · lse`.
-/
import Idealize.ShloMosaic.PureOps.Ideal

noncomputable section

namespace Cert.SoftmaxFold

open Idealize.ShloMosaic

/-- A column's logit for the maximum and the exponential sum: `⊥` past the vocabulary's end. -/
def msk (x : ℕ → EReal) (u : ℕ) : EReal := if u < 50257 then x u else ⊥

/-- A column's logit for the plain sums: `0` past the vocabulary's end. -/
def raw (x : ℕ → EReal) (u : ℕ) : EReal := if u < 50257 then x u else 0

/-- The logit at the target column, `0` at every other column. -/
def hit (x : ℕ → EReal) (tg u : ℕ) : EReal := if u = tg then raw x u else 0

/-- The four running values `(M, L, S, T)`. -/
abbrev St := EReal × EReal × EReal × EReal

/-- Before the first tile: `M = ⊥`, the three sums `0`. -/
def init : St := (⊥, 0, 0, 0)

/-- The maximum of tile `j`'s 512 columns. -/
def tileMax (x : ℕ → EReal) (j : ℕ) : EReal :=
  (Finset.univ : Finset (Fin 512)).fold max ⊥ (fun p => msk x (512 * j + p.val))

/-- One tile's update. -/
def step (x : ℕ → EReal) (tg j : ℕ) (s : St) : St :=
  (max s.1 (tileMax x j),
   Ideal.exp (s.1 - max s.1 (tileMax x j)) * s.2.1
     + ∑ p : Fin 512, Ideal.exp (msk x (512 * j + p.val) - max s.1 (tileMax x j)),
   s.2.2.1 + ∑ p : Fin 512, raw x (512 * j + p.val),
   s.2.2.2 + ∑ p : Fin 512, hit x tg (512 * j + p.val))

/-- The running values after tile `j`. -/
def run (x : ℕ → EReal) (tg : ℕ) : ℕ → St
  | 0 => step x tg 0 init
  | j + 1 => step x tg (j + 1) (run x tg j)

/-- `M + log L`. -/
def lse (s : St) : EReal := s.1 + Ideal.log s.2.1

/-- The target's log-probability as the fold leaves it. -/
def tokOut (s : St) : EReal := s.2.2.2 - lse s

/-- The sum of the row's log-probabilities as the fold leaves it. -/
def sumOut (s : St) : EReal := s.2.2.1 - ((50257 : ℝ) : EReal) * lse s

/-! ## The same two numbers for real logits -/

/-- The row's maximum. -/
def rowMax (xr : ℕ → ℝ) : ℝ :=
  (Finset.univ : Finset (Fin 50257)).sup' ⟨0, Finset.mem_univ _⟩ (fun v => xr v.val)

/-- The row's sum of `exp (x - max)`. -/
def rowZ (xr : ℕ → ℝ) : ℝ := ∑ v : Fin 50257, Real.exp (xr v.val - rowMax xr)

/-- The row's log-sum-exp. -/
def rowLse (xr : ℕ → ℝ) : ℝ := rowMax xr + Real.log (rowZ xr)

def tokR (xr : ℕ → ℝ) (tg : ℕ) : ℝ := xr tg - rowLse xr

def sumR (xr : ℕ → ℝ) : ℝ := (∑ v : Fin 50257, xr v.val) - 50257 * rowLse xr

end Cert.SoftmaxFold

end
-- ==== Proof.Payload.lean ====
/-
  The body's arithmetic read at one token (one lane `q` of the 2048-token tile), over the extended reals: the
  512 x 2048 tile of logits is `w · oᵀ`; a column of the tile is live when its global index `512 j + p` is below
  50257; the four row updates at lane `q` are one step of the tiled fold on the lane's column of logits, and the
  two output rows are the fold's two results.
-/
import proofs.«431461_j16569983828129_2_alg».proof.Proof.Gen.KernelIdeal.Skeleton
import proofs.«431461_j16569983828129_2_alg».proof.Proof.FoldDefs
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open Idealize.ShloMosaic Idealize.ShloMosaic.TcCoe Idealize.SL.Sem

namespace Cert.KernelIdeal.Payload

open Cert.KernelIdeal Cert.KernelIdeal.Gen Cert.SoftmaxFold ValueIdx

/-- The fill of the columns past the vocabulary's end denotes `⊥`. -/
theorem fill_eq : Named.named (F := Ideal) Cert.KernelIdeal.κ "neg_big" (φ := .f32) 0xFF333332#32 = (⊥ : EReal) :=
  IdealRules.named_const.ideal_named_scalar _ _ _ _ rfl

/-- The word `0xFF800000` denotes `⊥`. -/
theorem ninf_eq : Ideal.ofBits .f32 0xFF800000#32 = (⊥ : EReal) := by
  simp [Ideal.ofBits, Ideal.ieee]

/-- The word `0x47445100` denotes the vocabulary's size, `50257 = 12865792 / 2 ^ 8`. -/
theorem vocab_eq : Ideal.ofBits .f32 0x47445100#32 = ((50257 : ℝ) : EReal) := by
  simp only [Ideal.ofBits, Ideal.ieee]
  simp
  rw [← EReal.coe_mul]
  norm_num

/-! ## The tile of logits -/

/-- The weight tile is read at the output's row … -/
theorem lhs_axis0 (j : S512x2048.Idx) (c : dot_S512x1024_S2048x1024_S512x2048_1_1_0_0_n_n.contr.Idx) :
    (dot_S512x1024_S2048x1024_S512x2048_1_1_0_0_n_n.lhsIdx j c 0).val = (j 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
/-- … and at the contraction coordinate. -/
theorem lhs_axis1 (j : S512x2048.Idx) (c : dot_S512x1024_S2048x1024_S512x2048_1_1_0_0_n_n.contr.Idx) :
    (dot_S512x1024_S2048x1024_S512x2048_1_1_0_0_n_n.lhsIdx j c 1).val = (c ⟨0, by decide⟩).val :=
  dot_S512x1024_S2048x1024_S512x2048_1_1_0_0_n_n.lhsIdx_val_of_single rfl j c
/-- The token tile is read at the output's column … -/
theorem rhs_axis0 (j : S512x2048.Idx) (c : dot_S512x1024_S2048x1024_S512x2048_1_1_0_0_n_n.contr.Idx) :
    (dot_S512x1024_S2048x1024_S512x2048_1_1_0_0_n_n.rhsIdx j c 0).val = (j 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
/-- … and at the contraction coordinate. -/
theorem rhs_axis1 (j : S512x2048.Idx) (c : dot_S512x1024_S2048x1024_S512x2048_1_1_0_0_n_n.contr.Idx) :
    (dot_S512x1024_S2048x1024_S512x2048_1_1_0_0_n_n.rhsIdx j c 1).val = (c ⟨0, by decide⟩).val :=
  dot_S512x1024_S2048x1024_S512x2048_1_1_0_0_n_n.rhsIdx_val_of_single rfl j c

/-- The tile's logit at column `p` and token `q` is the inner product of weight row `p` and token row `q`. -/
theorem logit_apply (x0 : Vec Ideal S2048x1024 .bf16) (x1 : Vec Ideal S512x1024 .bf16) (p : Fin 512) (q : Fin 2048) :
    k0_pay11 x0 x1 (ix2 p q) = ∑ k : Fin 1024, x1 (ix2 p k) * x0 (ix2 q k) := by
  unfold k0_pay11
  simp only [shapeCast_self, matmul]
  rw [Ideal.matmul_constant_zero_apply, ← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 p q) ((contrEquiv1 dot_S512x1024_S2048x1024_S512x2048_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S512x1024_S2048x1024_S512x2048_1_1_0_0_n_n.rhsIdx (ix2 p q) ((contrEquiv1 dot_S512x1024_S2048x1024_S512x2048_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-! ## The columns' global indices -/

/-- The global index of the tile's column `p` at grid point `i` is `512 j + p` with `j = i 1`; it does not wrap. -/
theorem col_toNat (i : grid0.Coords) (p : Fin 512) (q : Fin 2048) :
    (k0_pay12 i (ix2 p q)).toNat = 512 * (i 1).val + p.val := by
  have hj : (i 1).val < 99 := (i 1).isLt
  have hp : p.val < 512 := p.isLt
  unfold k0_pay12
  show (IntOp.addi (Scalar.muli (BitVec.ofNat 32 (i 1).val) 512#32) (iota .tc S512x2048 32 [0] iota_S512x2048_d0_w32 (ix2 p q))).toNat = _
  rw [iota_single_apply]
  show (BitVec.ofNat 32 (i 1).val * 512#32 + BitVec.ofNat 32 p.val).toNat = _
  simp only [BitVec.toNat_add, BitVec.toNat_mul, BitVec.toNat_ofNat]
  omega

/-- A column is live exactly when its global index is below the vocabulary's size. -/
theorem live_iff (i : grid0.Coords) (p : Fin 512) (q : Fin 2048) :
    k0_pay13 i (ix2 p q) = 1#1 ↔ 512 * (i 1).val + p.val < 50257 := by
  have hj : (i 1).val < 99 := (i 1).isLt
  have hp : p.val < 512 := p.isLt
  unfold k0_pay13
  show IntOp.cmpi .slt (k0_pay12 i (ix2 p q)) 50257#32 = 1#1 ↔ _
  rw [StableHlo.Predicate.slt_iff_toNat (by rw [col_toNat]; omega) (by decide), col_toNat]
  rfl

/-! ## The masked and the raw logits at a column -/

section Columns
variable (i : grid0.Coords) (x0 : Vec Ideal S2048x1024 .bf16) (x1 : Vec Ideal S512x1024 .bf16) (q : Fin 2048) (x : ℕ → EReal)
  (hx : ∀ p : Fin 512, x (512 * (i 1).val + p.val) = ∑ k : Fin 1024, x1 (ix2 p k) * x0 (ix2 q k))
include hx

/-- For the maximum and the exponential sum a column past the vocabulary's end counts as `⊥`. -/
theorem masked_apply (p : Fin 512) : k0_pay14 i x0 x1 (ix2 p q) = msk x (512 * (i 1).val + p.val) := by
  unfold k0_pay14 msk
  show Scalar.select (k0_pay13 i (ix2 p q)) (k0_pay11 x0 x1 (ix2 p q)) (Named.named (F := Ideal) κ "neg_big" (φ := .f32) 0xFF333332#32) = _
  by_cases h : 512 * (i 1).val + p.val < 50257
  · rw [(live_iff i p q).mpr h, select_one, if_pos h, logit_apply, hx]
  · rw [eq_zero_of_ne_one (mt (live_iff i p q).mp h), select_zero, if_neg h, fill_eq]

/-- For the plain sums a column past the vocabulary's end counts as `0`. -/
theorem raw_apply (p : Fin 512) : k0_pay15 i x0 x1 (ix2 p q) = raw x (512 * (i 1).val + p.val) := by
  unfold k0_pay15 raw
  show Scalar.select (k0_pay13 i (ix2 p q)) (k0_pay11 x0 x1 (ix2 p q)) (Ideal.ofBits .f32 0x00000000#32) = _
  by_cases h : 512 * (i 1).val + p.val < 50257
  · rw [(live_iff i p q).mpr h, select_one, if_pos h, logit_apply, hx]
  · rw [eq_zero_of_ne_one (mt (live_iff i p q).mp h), select_zero, if_neg h, Ideal.ofBits_zero_f32]

end Columns

/-! ## A lane's sum and maximum over the tile's 512 columns -/

/-- The sum over the tile's columns, at token `q`. -/
theorem laneSum_apply (v : FVec Ideal S512x2048 .f32) (q : Fin 2048) :
    multiReduction (F := Ideal) .add [0] S2048 v 0x00000000#32 reduces_S512x2048_S2048 (.inl rfl) rfl (ix1 q)
      = ∑ p : Fin 512, v (ix2 p q) := by
  refine (Ideal.multiReduction_add_single v 0x00000000#32 reduces_S512x2048_S2048 (.inl rfl) rfl (ix1 q)).trans ?_
  refine Finset.sum_congr rfl fun p _ => congrArg v ?_
  funext a
  match a with
  | ⟨0, _⟩ => rfl
  | ⟨1, _⟩ => rfl

/-- The maximum over the tile's columns, at token `q`, from `⊥`. -/
theorem laneMax_apply (v : FVec Ideal S512x2048 .f32) (q : Fin 2048) :
    multiReduction (F := Ideal) .maximumf [0] S2048 v 0xFF800000#32 reduces_S512x2048_S2048 (.inl rfl) rfl (ix1 q)
      = (Finset.univ : Finset (Fin 512)).fold max ⊥ (fun p => v (ix2 p q)) := by
  refine (Ideal.multiReduction_maximumf_single v 0xFF800000#32 reduces_S512x2048_S2048 (.inl rfl) rfl (ix1 q)).trans ?_
  rw [Ideal.ofBits_def, ninf_eq]
  refine congrArg (Finset.fold max ⊥ · Finset.univ) ?_
  funext p
  refine congrArg v ?_
  funext a
  match a with
  | ⟨0, _⟩ => rfl
  | ⟨1, _⟩ => rfl

/-! ## The four row updates at a lane -/

/-- The exponential of a tile, at an index. -/
theorem exp_apply {s : Shape} (a : FVec Ideal s .f32) (j : s.Idx) : exp a j = Ideal.exp (a j) := rfl

/-- A comparison of two tiles of words, at an index. -/
theorem cmpi_apply {s : Shape} (c : CmpIPredicate) (a b : IVec s 32) (j : s.Idx) : cmpi c a b j = IntOp.cmpi c (a j) (b j) := rfl

section Step
variable (i : grid0.Coords) (x0 : Vec Ideal S2048x1024 .bf16) (x1 : Vec Ideal S512x1024 .bf16) (x2 : IVec S1x2048 32)
  (s0 s1 s2 s3 : FVec Ideal S1x2048 .f32) (q : Fin 2048) (x : ℕ → EReal)
  (hx : ∀ p : Fin 512, x (512 * (i 1).val + p.val) = ∑ k : Fin 1024, x1 (ix2 p k) * x0 (ix2 q k))
include hx

/-- The new maximum: the old one against the tile's. -/
theorem max_apply : k0_pay16 i x0 x1 s0 (ix2 0 q) = max (s0 (ix2 0 q)) (tileMax x (i 1).val) := by
  unfold k0_pay16 tileMax
  refine (maximumf_apply _ _ _).trans (congrArg (max _) ?_)
  refine (shapeCast_a_1a_apply _ _ _ _).trans ?_
  refine (laneMax_apply _ _).trans ?_
  exact congrArg (Finset.fold max ⊥ · Finset.univ) (funext fun p => masked_apply i x0 x1 q x hx p)

/-- The new exponential sum: the old one rescaled to the new maximum, plus the tile's. -/
theorem expSum_apply : k0_pay17 i x0 x1 s0 s1 (ix2 0 q)
    = Ideal.exp (s0 (ix2 0 q) - max (s0 (ix2 0 q)) (tileMax x (i 1).val)) * s1 (ix2 0 q)
      + ∑ p : Fin 512, Ideal.exp (msk x (512 * (i 1).val + p.val) - max (s0 (ix2 0 q)) (tileMax x (i 1).val)) := by
  unfold k0_pay17
  refine (congrFun (shapeCast_self _ _) _).trans ?_
  refine (addf_apply _ _ _).trans ?_
  refine congrArg₂ (· + ·) ?_ ?_
  · refine (mulf_apply _ _ _).trans (congrArg (· * s1 (ix2 0 q)) ?_)
    refine (exp_apply _ _).trans (congrArg Ideal.exp ?_)
    refine (subf_apply _ _ _).trans ?_
    rw [max_apply i x0 x1 s0 q x hx]
  · refine (shapeCast_a_1a_apply _ _ _ _).trans ?_
    refine (laneSum_apply _ _).trans ?_
    refine Finset.sum_congr rfl fun p _ => ?_
    refine (exp_apply _ _).trans (congrArg Ideal.exp ?_)
    refine (subf_apply _ _ _).trans ?_
    rw [broadcastTo_1b_ab_apply, masked_apply i x0 x1 q x hx p, max_apply i x0 x1 s0 q x hx]

/-- The new sum of the logits. -/
theorem rawSum_apply : k0_pay1 (k0_pay15 i x0 x1) s2 (ix2 0 q)
    = s2 (ix2 0 q) + ∑ p : Fin 512, raw x (512 * (i 1).val + p.val) := by
  unfold k0_pay1
  refine (congrFun (shapeCast_self _ _) _).trans ?_
  refine (addf_apply _ _ _).trans (congrArg (s2 (ix2 0 q) + ·) ?_)
  refine (shapeCast_a_1a_apply _ _ _ _).trans ?_
  refine (laneSum_apply _ _).trans ?_
  exact Finset.sum_congr rfl fun p _ => raw_apply i x0 x1 q x hx p

/-- The new logit at the target: a column contributes only if its global index is the lane's label. -/
theorem hitSum_apply : k0_pay2 (k0_pay12 i) (k0_pay15 i x0 x1) x2 s3 (ix2 0 q)
    = s3 (ix2 0 q) + ∑ p : Fin 512, hit x (x2 (ix2 0 q)).toNat (512 * (i 1).val + p.val) := by
  unfold k0_pay2
  refine (congrFun (shapeCast_self _ _) _).trans ?_
  refine (addf_apply _ _ _).trans (congrArg (s3 (ix2 0 q) + ·) ?_)
  refine (shapeCast_a_1a_apply _ _ _ _).trans ?_
  refine (laneSum_apply _ _).trans ?_
  refine Finset.sum_congr rfl fun p _ => ?_
  refine (select_apply _ _ _ _).trans ?_
  rw [cmpi_apply, broadcastTo_1b_ab_apply, shapeCast_self, raw_apply i x0 x1 q x hx p, broadcast_apply]
  unfold hit
  by_cases h : 512 * (i 1).val + p.val = (x2 (ix2 0 q)).toNat
  · have e : k0_pay12 i (ix2 p q) = x2 (ix2 0 q) := BitVec.eq_of_toNat_eq ((col_toNat i p q).trans h)
    rw [StableHlo.Predicate.cmpi_eq_iff.mpr e, select_one, if_pos h]
  · have e : ¬ k0_pay12 i (ix2 p q) = x2 (ix2 0 q) := fun e => h ((col_toNat i p q).symm.trans (congrArg BitVec.toNat e))
    rw [eq_zero_of_ne_one (mt StableHlo.Predicate.cmpi_eq_iff.mp e), select_zero, if_neg h]
    exact Ideal.ofBits_zero_f32

end Step

/-- The reset values at a lane: `⊥` for the maximum, `0` for the three sums. -/
theorem reset_eq (q : Fin 2048) :
    ((k0_pay7 (F := Ideal) (ix2 0 q), k0_pay8 (F := Ideal) (ix2 0 q), k0_pay9 (F := Ideal) (ix2 0 q), k0_pay10 (F := Ideal) (ix2 0 q)) : St)
      = init := by
  unfold k0_pay7 k0_pay8 k0_pay9 k0_pay10 init
  simp only [shapeCast_self, broadcast_apply, Ideal.ofBits_def, ninf_eq, Ideal.ofBits_zero_f32]

/-- One grid point's four row updates at lane `q` are one step of the fold at vocabulary tile `j = i 1`, for any
    column function `x` that is the tile's logit at each of its 512 columns; the target is the lane's label. -/
theorem step_eq (i : grid0.Coords) (x0 : Vec Ideal S2048x1024 .bf16) (x1 : Vec Ideal S512x1024 .bf16) (x2 : Vec Ideal S1x2048 .i32)
    (s0 s1 s2 s3 : Vec Ideal S1x2048 .f32) (q : Fin 2048) (x : ℕ → EReal)
    (hx : ∀ p : Fin 512, x (512 * (i 1).val + p.val) = ∑ k : Fin 1024, x1 (ix2 p k) * x0 (ix2 q k)) :
    ((k0_pay3 (k0_pay16 i x0 x1 s0) (ix2 0 q), k0_pay17 i x0 x1 s0 s1 (ix2 0 q), k0_pay1 (k0_pay15 i x0 x1) s2 (ix2 0 q),
        k0_pay2 (k0_pay12 i) (k0_pay15 i x0 x1) x2 s3 (ix2 0 q)) : St)
      = step x (x2 (ix2 0 q)).toNat (i 1).val (s0 (ix2 0 q), s1 (ix2 0 q), s2 (ix2 0 q), s3 (ix2 0 q)) := by
  have e3 : k0_pay3 (k0_pay16 i x0 x1 s0) (ix2 0 q) = k0_pay16 i x0 x1 s0 (ix2 0 q) := by
    unfold k0_pay3
    exact congrFun (shapeCast_self _ _) _
  rw [e3, max_apply i x0 x1 s0 q x hx, expSum_apply i x0 x1 s0 s1 q x hx, rawSum_apply i x0 x1 s2 q x hx,
    hitSum_apply i x0 x1 x2 s3 q x hx]
  rfl

/-- The first output row at a lane: the fold's first result. -/
theorem tok_eq (a b d : Vec Ideal S1x2048 .f32) (q : Fin 2048) (e : EReal) :
    k0_pay5 a b d (ix2 0 q) = tokOut (a (ix2 0 q), b (ix2 0 q), e, d (ix2 0 q)) := by
  unfold k0_pay5 k0_pay4 tokOut lse
  rfl

/-- The second output row at a lane: the fold's second result. -/
theorem sum_eq (a b e : Vec Ideal S1x2048 .f32) (q : Fin 2048) (d : EReal) :
    k0_pay6 a b e (ix2 0 q) = sumOut (a (ix2 0 q), b (ix2 0 q), e (ix2 0 q), d) := by
  unfold k0_pay6 k0_pay4 sumOut lse
  show e (ix2 0 q) - Ideal.ofBits .f32 0x47445100#32 * (a (ix2 0 q) + Ideal.log (b (ix2 0 q))) = _
  rw [vocab_eq]

end Cert.KernelIdeal.Payload

end
-- ==== Proof.Arrays.lean ====
/-
  Names for the three operand arrays as the region finds them, at their literal shapes: the activations as 4096
  rows, the padded weights as 50688 rows, the labels as one row of 4096.
-/
import proofs.«431461_j16569983828129_2_alg».proof.Proof.Gen.KernelIdeal.Frame

noncomputable section

open Idealize.ShloMosaic Idealize.ShloMosaic.TcCoe Idealize.SL.Sem

namespace Cert.KernelIdeal.Arr

open Cert.KernelIdeal Cert.KernelIdeal.Gen

variable (m : (ℓ : Loc nD τ sig) → Buf (Elt Ideal) ℓ)

/-- The activations as the region finds them. -/
abbrev oarr (c : Dev nD) : Vec Ideal S4096x1024 .bf16 := V m c main_v1
/-- The padded weights as the region finds them. -/
abbrev warr (c : Dev nD) : Vec Ideal S50688x1024 .bf16 := V m c main_v3
/-- The label row as the region finds it. -/
abbrev larr (c : Dev nD) : Vec Ideal S1x4096 .i32 := V m c main_v4

end Cert.KernelIdeal.Arr

end
-- ==== Proof.Chain.lean ====
/-
  Point by point: grid point `t` is token tile `t / 99` and vocabulary tile `t % 99`. Its three input blocks are
  rows `2048 (t / 99) …` of the activations, rows `512 (t % 99) …` of the padded weights and entries
  `2048 (t / 99) …` of the label row. For token `r` the column of logits is `u ↦ ∑ₖ w[u, k] · o[r, k]`; after point
  `t` the four carried rows hold, at each lane, the tiled fold of that token's column through tile `t % 99`, and at
  a token tile's last point the two output rows hold the fold's two results.
-/
import proofs.«431461_j16569983828129_2_alg».proof.Proof.Pieces
import proofs.«431461_j16569983828129_2_alg».proof.Proof.Payload
import proofs.«431461_j16569983828129_2_alg».proof.Proof.Arrays

set_option maxRecDepth 16384

noncomputable section

open Idealize.ShloMosaic Idealize.ShloMosaic.TcCoe Idealize.SL.Sem

namespace Cert.KernelIdeal.Chain

open Cert.KernelIdeal Cert.KernelIdeal.Gen Cert.KernelIdeal.Arr Cert.SoftmaxFold ValueIdx

variable (m : (ℓ : Loc nD τ sig) → Buf (Elt Ideal) ℓ)

/-- The grid has 198 points. -/
theorem hN : cfg0.N = 198 := N_0

/-- A point's number is below 198. -/
theorem tlt (t : Fin cfg0.N) : t.val < 198 := lt_of_lt_of_eq t.isLt N_0

/-- A point's vocabulary tile. -/
theorem coord_tile : ∀ t : Fin cfg0.N, ((grid0.coords t) 1).val = t.val % 99 :=
  (by decide +kernel : ∀ t : Fin grid0.N, _)

/-- The three input windows' block indices at a point. -/
theorem idx_facts : ∀ t : Fin cfg0.N,
    win0_0.index t (0 : Fin 2) = t.val / 99 ∧ win0_0.index t (1 : Fin 2) = 0
    ∧ win0_1.index t (0 : Fin 2) = t.val % 99 ∧ win0_1.index t (1 : Fin 2) = 0
    ∧ win0_2.index t (0 : Fin 2) = 0 ∧ win0_2.index t (1 : Fin 2) = t.val / 99 :=
  (by decide +kernel : ∀ t : Fin grid0.N, _)

/-- The token tile's activations at a point. -/
abbrev oblk (c : Dev nD) (t : Fin cfg0.N) : Vec Ideal S2048x1024 .bf16 := iblk m c 0 t
/-- The vocabulary tile's weights at a point. -/
abbrev wblk (c : Dev nD) (t : Fin cfg0.N) : Vec Ideal S512x1024 .bf16 := iblk m c 1 t
/-- The token tile's labels at a point. -/
abbrev lblk (c : Dev nD) (t : Fin cfg0.N) : Vec Ideal S1x2048 .i32 := iblk m c 2 t

theorem oblk_apply (c : Dev nD) (t : Fin cfg0.N) (q : Fin 2048) (k : Fin 1024) :
    oblk m c t (ix2 q k) = oarr m c (ix2 ⟨2048 * (t.val / 99) + q.val, by have := tlt t; omega⟩ k) := by
  show V m c main_v1 (((cfg0.win 0).blk t).view.emb (ix2 q k)) = V m c main_v1 _
  refine congrArg (V m c main_v1) ?_
  obtain ⟨e0, e1, e2, e3, e4, e5⟩ := idx_facts t
  funext a; apply Fin.ext
  match a with
  | ⟨0, _⟩ => show win0_0.index t (0 : Fin 2) * 2048 + 1 * q.val = 2048 * (t.val / 99) + q.val; omega
  | ⟨1, _⟩ => show win0_0.index t (1 : Fin 2) * 1024 + 1 * k.val = k.val; omega

theorem wblk_apply (c : Dev nD) (t : Fin cfg0.N) (p : Fin 512) (k : Fin 1024) :
    wblk m c t (ix2 p k) = warr m c (ix2 ⟨512 * (t.val % 99) + p.val, by omega⟩ k) := by
  show V m c main_v3 (((cfg0.win 1).blk t).view.emb (ix2 p k)) = V m c main_v3 _
  refine congrArg (V m c main_v3) ?_
  obtain ⟨e0, e1, e2, e3, e4, e5⟩ := idx_facts t
  funext a; apply Fin.ext
  match a with
  | ⟨0, _⟩ => show win0_1.index t (0 : Fin 2) * 512 + 1 * p.val = 512 * (t.val % 99) + p.val; omega
  | ⟨1, _⟩ => show win0_1.index t (1 : Fin 2) * 1024 + 1 * k.val = k.val; omega

theorem lblk_apply (c : Dev nD) (t : Fin cfg0.N) (q : Fin 2048) :
    lblk m c t (ix2 0 q) = larr m c (ix2 0 ⟨2048 * (t.val / 99) + q.val, by have := tlt t; omega⟩) := by
  show V m c main_v4 (((cfg0.win 2).blk t).view.emb (ix2 0 q)) = V m c main_v4 _
  refine congrArg (V m c main_v4) ?_
  obtain ⟨e0, e1, e2, e3, e4, e5⟩ := idx_facts t
  funext a; apply Fin.ext
  match a with
  | ⟨0, _⟩ => show win0_2.index t (0 : Fin 2) * 1 + 1 * (0 : Fin 1).val = (0 : Fin 1).val; simp [e4]
  | ⟨1, _⟩ => show win0_2.index t (1 : Fin 2) * 2048 + 1 * q.val = 2048 * (t.val / 99) + q.val; omega

/-! ## A token's column of logits and its label -/

/-- Token `r`'s logit at vocabulary column `u` (columns from 50257 to 50687 are the zero rows appended to the weights). -/
def xcol (c : Dev nD) (r : Fin 4096) (u : ℕ) : EReal :=
  if h : u < 50688 then ∑ k : Fin 1024, warr m c (ix2 ⟨u, h⟩ k) * oarr m c (ix2 r k) else 0

/-- Token `r`'s label, read as an unsigned word. -/
def tgt (c : Dev nD) (r : Fin 4096) : ℕ := (larr m c (ix2 0 r)).toNat

/-- The token at lane `q` of point `t`'s token tile. -/
abbrev tokAt (t : Fin cfg0.N) (q : Fin 2048) : Fin 4096 := ⟨2048 * (t.val / 99) + q.val, by have := tlt t; omega⟩

/-- At point `t` the tile's logits at lane `q` are the token's column at the tile's 512 columns. -/
theorem col_at (c : Dev nD) (t : Fin cfg0.N) (q : Fin 2048) (p : Fin 512) :
    xcol m c (tokAt t q) (512 * ((grid0.coords t) 1).val + p.val) = ∑ k : Fin 1024, wblk m c t (ix2 p k) * oblk m c t (ix2 q k) := by
  rw [coord_tile t]
  have hu : 512 * (t.val % 99) + p.val < 50688 := by omega
  unfold xcol
  rw [dif_pos hu]
  refine Finset.sum_congr rfl fun k _ => ?_
  rw [wblk_apply, oblk_apply]

/-- At point `t` the label at lane `q` is the token's label. -/
theorem lbl_at (c : Dev nD) (t : Fin cfg0.N) (q : Fin 2048) :
    (lblk m c t (ix2 0 q)).toNat = tgt m c (tokAt t q) := by
  unfold tgt
  rw [lblk_apply]

/-- ONE POINT: whatever the four rows held, the body's four updates at lane `q` are one step of the fold at vocabulary
    tile `t % 99` on the lane's token. -/
theorem point_step (c : Dev nD) (t : Fin cfg0.N) (s0 s1 s2 s3 : Vec Ideal S1x2048 .f32) (q : Fin 2048) :
    ((k0_pay3 (k0_pay16 (grid0.coords t) (oblk m c t) (wblk m c t) s0) (ix2 0 q),
        k0_pay17 (grid0.coords t) (oblk m c t) (wblk m c t) s0 s1 (ix2 0 q),
        k0_pay1 (k0_pay15 (grid0.coords t) (oblk m c t) (wblk m c t)) s2 (ix2 0 q),
        k0_pay2 (k0_pay12 (grid0.coords t)) (k0_pay15 (grid0.coords t) (oblk m c t) (wblk m c t)) (lblk m c t) s3 (ix2 0 q)) : St)
      = step (xcol m c (tokAt t q)) (tgt m c (tokAt t q)) (t.val % 99) (s0 (ix2 0 q), s1 (ix2 0 q), s2 (ix2 0 q), s3 (ix2 0 q)) := by
  have h := Payload.step_eq (grid0.coords t) (oblk m c t) (wblk m c t) (lblk m c t) s0 s1 s2 s3 q (xcol m c (tokAt t q)) (col_at m c t q)
  rw [lbl_at, coord_tile] at h
  exact h

/-! ## The carried rows, point by point -/

/-- The four carried rows at lane `q` after point `n`. -/
def lane (c : Dev nD) (n : ℕ) (hn : n < cfg0.N) (q : Fin 2048) : St :=
  ((outsAt0 m c n hn).2.2.1 (ix2 0 q), (outsAt0 m c n hn).2.2.2.1 (ix2 0 q), (outsAt0 m c n hn).2.2.2.2.1 (ix2 0 q),
    (outsAt0 m c n hn).2.2.2.2.2 (ix2 0 q))

/-- At a token tile's first point the rows are one step from the reset values. -/
theorem lane_first (c : Dev nD) (t : Fin cfg0.N) (h0 : t.val % 99 = 0) (q : Fin 2048) :
    lane m c t.val t.isLt q = step (xcol m c (tokAt t q)) (tgt m c (tokAt t q)) (t.val % 99) init := by
  have h1 : ¬t.val % 99 = 98 := by omega
  unfold lane
  rw [outsAt0_A m c t h0 h1]
  dsimp only
  rw [Pieces.first_0, Pieces.first_1, Pieces.first_2, Pieces.first_3]
  have h := point_step m c t (k0_pay7 (F := Ideal)) (k0_pay8 (F := Ideal)) (k0_pay9 (F := Ideal)) (k0_pay10 (F := Ideal)) q
  rw [Payload.reset_eq] at h
  exact h

/-- At every other point the rows are one step from what the point before left. -/
theorem lane_next (c : Dev nD) (t : Fin cfg0.N) (h0 : ¬t.val % 99 = 0) (q : Fin 2048) :
    lane m c t.val t.isLt q
      = step (xcol m c (tokAt t q)) (tgt m c (tokAt t q)) (t.val % 99)
          (lane m c (t.val - 1) (Nat.lt_of_le_of_lt (Nat.sub_le _ _) t.isLt) q) := by
  unfold lane
  by_cases h1 : t.val % 99 = 98
  · rw [outsAt0_C m c t h0 h1]
    dsimp only
    rw [Pieces.last_0, Pieces.last_1, Pieces.last_2, Pieces.last_3]
    exact point_step m c t _ _ _ _ q
  · rw [outsAt0_B m c t h0 h1]
    dsimp only
    rw [Pieces.mid_0, Pieces.mid_1, Pieces.mid_2, Pieces.mid_3]
    exact point_step m c t _ _ _ _ q

/-- THE INVARIANT: after point `n` the rows at lane `q` are the tiled fold of the lane's token through tile `n % 99`. -/
theorem lane_eq (c : Dev nD) : ∀ (n : ℕ) (hn : n < cfg0.N) (q : Fin 2048),
    lane m c n hn q = run (xcol m c (tokAt ⟨n, hn⟩ q)) (tgt m c (tokAt ⟨n, hn⟩ q)) (n % 99)
  | 0, hn, q => by
    rw [lane_first m c ⟨0, hn⟩ rfl q]
    rfl
  | n + 1, hn, q => by
    by_cases h0 : (n + 1) % 99 = 0
    · rw [lane_first m c ⟨n + 1, hn⟩ h0 q]
      show step _ _ ((n + 1) % 99) init = run _ _ ((n + 1) % 99)
      rw [h0]
      rfl
    · rw [lane_next m c ⟨n + 1, hn⟩ h0 q]
      have hn' : n < cfg0.N := Nat.lt_of_succ_lt hn
      have e : tokAt ⟨n, hn'⟩ q = tokAt ⟨n + 1, hn⟩ q :=
        Fin.ext (by show 2048 * (n / 99) + q.val = 2048 * ((n + 1) / 99) + q.val; omega)
      have hj : (n + 1) % 99 = n % 99 + 1 := by omega
      show step _ _ ((n + 1) % 99) (lane m c n _ q) = run _ _ ((n + 1) % 99)
      rw [lane_eq c n hn' q, e, hj]
      rfl

/-! ## The two output rows at a token tile's last point -/

/-- The four updated rows at a last point, as the fold through tile 98. -/
theorem last_rows (c : Dev nD) (t : Fin cfg0.N) (h1 : t.val % 99 = 98) (q : Fin 2048)
    (s0 s1 s2 s3 : Vec Ideal S1x2048 .f32)
    (hs : (s0, s1, s2, s3) = ((outsAt0 m c (t.val - 1) (Nat.lt_of_le_of_lt (Nat.sub_le _ _) t.isLt)).2.2.1,
      (outsAt0 m c (t.val - 1) (Nat.lt_of_le_of_lt (Nat.sub_le _ _) t.isLt)).2.2.2.1,
      (outsAt0 m c (t.val - 1) (Nat.lt_of_le_of_lt (Nat.sub_le _ _) t.isLt)).2.2.2.2.1,
      (outsAt0 m c (t.val - 1) (Nat.lt_of_le_of_lt (Nat.sub_le _ _) t.isLt)).2.2.2.2.2)) :
    ((k0_pay3 (k0_pay16 (grid0.coords t) (oblk m c t) (wblk m c t) s0) (ix2 0 q),
        k0_pay17 (grid0.coords t) (oblk m c t) (wblk m c t) s0 s1 (ix2 0 q),
        k0_pay1 (k0_pay15 (grid0.coords t) (oblk m c t) (wblk m c t)) s2 (ix2 0 q),
        k0_pay2 (k0_pay12 (grid0.coords t)) (k0_pay15 (grid0.coords t) (oblk m c t) (wblk m c t)) (lblk m c t) s3 (ix2 0 q)) : St)
      = run (xcol m c (tokAt t q)) (tgt m c (tokAt t q)) 98 := by
  have h0 : ¬t.val % 99 = 0 := by omega
  obtain ⟨rfl, rfl, rfl, rfl⟩ : s0 = _ ∧ s1 = _ ∧ s2 = _ ∧ s3 = _ := by
    simpa only [Prod.mk.injEq] using hs
  rw [point_step]
  have hl := lane_eq m c t.val t.isLt q
  rw [lane_next m c t h0 q, h1] at hl
  rw [h1]
  exact hl

/-- At a token tile's last point the first output row holds the fold's first result. -/
theorem out_tok (c : Dev nD) (t : Fin cfg0.N) (h1 : t.val % 99 = 98) (q : Fin 2048) :
    (outsAt0 m c t.val t.isLt).1 (ix2 0 q) = tokOut (run (xcol m c (tokAt t q)) (tgt m c (tokAt t q)) 98) := by
  have h0 : ¬t.val % 99 = 0 := by omega
  rw [outsAt0_C m c t h0 h1]
  dsimp only
  rw [Pieces.last_tok, Payload.tok_eq _ _ _ q
    (k0_pay1 (k0_pay15 (grid0.coords t) (oblk m c t) (wblk m c t)) (outsAt0 m c (t.val - 1) (Nat.lt_of_le_of_lt (Nat.sub_le _ _) t.isLt)).2.2.2.2.1 (ix2 0 q))]
  exact congrArg tokOut (last_rows m c t h1 q _ _ _ _ rfl)

/-- At a token tile's last point the second output row holds the fold's second result. -/
theorem out_sum (c : Dev nD) (t : Fin cfg0.N) (h1 : t.val % 99 = 98) (q : Fin 2048) :
    (outsAt0 m c t.val t.isLt).2.1 (ix2 0 q) = sumOut (run (xcol m c (tokAt t q)) (tgt m c (tokAt t q)) 98) := by
  have h0 : ¬t.val % 99 = 0 := by omega
  rw [outsAt0_C m c t h0 h1]
  dsimp only
  rw [Pieces.last_sum, Payload.sum_eq _ _ _ q
    (k0_pay2 (k0_pay12 (grid0.coords t)) (k0_pay15 (grid0.coords t) (oblk m c t) (wblk m c t)) (lblk m c t) (outsAt0 m c (t.val - 1) (Nat.lt_of_le_of_lt (Nat.sub_le _ _) t.isLt)).2.2.2.2.2 (ix2 0 q))]
  exact congrArg sumOut (last_rows m c t h1 q _ _ _ _ rfl)

end Cert.KernelIdeal.Chain

end
-- ==== Proof.KernelArr.lean ====
/-
  The two output arrays after the run. Only a token tile's last point writes its output blocks back; block `t / 99`
  of each [1, 4096] array is then the row the point left, whose entry at lane `q` belongs to token
  `2048 (t / 99) + q`. The two token tiles' blocks cover the array, so each array ends holding, token by token, the
  tiled fold's result for that token.
-/
import proofs.«431461_j16569983828129_2_alg».proof.Proof.Chain

set_option maxRecDepth 16384

noncomputable section

open Idealize.ShloMosaic Idealize.ShloMosaic.TcCoe Idealize.SL.Sem

namespace Cert.KernelIdeal.KArr

open Cert.KernelIdeal Cert.KernelIdeal.Gen Cert.KernelIdeal.Arr Cert.KernelIdeal.Chain Cert.SoftmaxFold ValueIdx

variable (m : (ℓ : Loc nD τ sig) → Buf (Elt Ideal) ℓ)

/-- The two output windows' block indices at a point. -/
theorem oidx_facts : ∀ t : Fin cfg0.N,
    win0_3.index t (0 : Fin 2) = 0 ∧ win0_3.index t (1 : Fin 2) = t.val / 99
    ∧ win0_4.index t (0 : Fin 2) = 0 ∧ win0_4.index t (1 : Fin 2) = t.val / 99 :=
  (by decide +kernel : ∀ t : Fin grid0.N, _)

/-- Token by token, the target's log-probability as the fold leaves it. -/
def tokRow (c : Dev nD) : S1x4096.Idx → EReal := fun y =>
  tokOut (run (xcol m c ⟨(y 1).val, idx2_lt1 y⟩) (tgt m c ⟨(y 1).val, idx2_lt1 y⟩) 98)

/-- Token by token, the sum of the row's log-probabilities as the fold leaves it. -/
def sumRow (c : Dev nD) : S1x4096.Idx → EReal := fun y =>
  sumOut (run (xcol m c ⟨(y 1).val, idx2_lt1 y⟩) (tgt m c ⟨(y 1).val, idx2_lt1 y⟩) 98)

/-- What a flushing point writes back into the first output array is its block of `tokRow`. -/
theorem flushed_tok (c : Dev nD) (t : Fin cfg0.N) (hf : (cfg0.win 3).flush t = true) :
    (dats m 0 c).flushed 3 t = ((cfg0.win 3).blk t).view.read (Elt Ideal) (tokRow m c) := by
  have h98 : t.val % 99 = 98 := (flush0_3 t).mp hf
  show (cfg0.win 3).cut (grid0.coords t) ((dats m 0 c).after 3 t) = _
  rw [after0_3]
  funext j
  obtain ⟨p, q, rfl⟩ : ∃ (p : Fin 1) (q : Fin 2048), j = ix2 p q := ⟨j 0, j 1, eq_ix2 j⟩
  obtain rfl : p = 0 := Subsingleton.elim _ _
  show (outsAt0 m c t.val t.isLt).1 (ix2 0 q) = tokRow m c (((cfg0.win 3).blk t).view.emb (ix2 0 q))
  rw [out_tok m c t h98 q]
  unfold tokRow
  have e : (⟨((((cfg0.win 3).blk t).view.emb (ix2 0 q)) 1).val, idx2_lt1 _⟩ : Fin 4096) = tokAt t q :=
    Fin.ext (by
      show win0_3.index t (1 : Fin 2) * 2048 + 1 * q.val = 2048 * (t.val / 99) + q.val
      have := (oidx_facts t).2.1; omega)
  rw [e]

/-- What a flushing point writes back into the second output array is its block of `sumRow`. -/
theorem flushed_sum (c : Dev nD) (t : Fin cfg0.N) (hf : (cfg0.win 4).flush t = true) :
    (dats m 0 c).flushed 4 t = ((cfg0.win 4).blk t).view.read (Elt Ideal) (sumRow m c) := by
  have h98 : t.val % 99 = 98 := (flush0_4 t).mp hf
  show (cfg0.win 4).cut (grid0.coords t) ((dats m 0 c).after 4 t) = _
  rw [after0_4]
  funext j
  obtain ⟨p, q, rfl⟩ : ∃ (p : Fin 1) (q : Fin 2048), j = ix2 p q := ⟨j 0, j 1, eq_ix2 j⟩
  obtain rfl : p = 0 := Subsingleton.elim _ _
  show (outsAt0 m c t.val t.isLt).2.1 (ix2 0 q) = sumRow m c (((cfg0.win 4).blk t).view.emb (ix2 0 q))
  rw [out_sum m c t h98 q]
  unfold sumRow
  have e : (⟨((((cfg0.win 4).blk t).view.emb (ix2 0 q)) 1).val, idx2_lt1 _⟩ : Fin 4096) = tokAt t q :=
    Fin.ext (by
      show win0_4.index t (1 : Fin 2) * 2048 + 1 * q.val = 2048 * (t.val / 99) + q.val
      have := (oidx_facts t).2.2.2; omega)
  rw [e]

/-- An entry of the first output array is in point `t`'s block iff each coordinate is in the block's range on its axis. -/
theorem mem_blk3 (t : Fin cfg0.N) (i : S1x4096.Idx) :
    i ∈ ((cfg0.win 3).blk t).view.set ↔ ∀ a : Fin 2, win0_3.index t a * S1x2048.size a ≤ (i a).val ∧ (i a).val < win0_3.index t a * S1x2048.size a + S1x2048.size a := by
  show i ∈ ((View.whole main_v5_0).slice (win0_3.rect t)).set ↔ _
  rw [View.set_slice_whole, Rect.mem_set_unit]
  exact Iff.rfl

/-- Every entry is in the block of its token tile's last point, which writes back. -/
theorem cover3 (i : S1x4096.Idx) : ∃ t : Fin cfg0.N, (cfg0.win 3).flush t = true ∧ i ∈ ((cfg0.win 3).blk t).view.set := by
  have hi0 : (i 0).val < 1 := idx2_lt0 i
  have hi1 : (i 1).val < 4096 := idx2_lt1 i
  have hlt : 99 * ((i 1).val / 2048) + 98 < cfg0.N := by rw [hN]; omega
  have h98 : (99 * ((i 1).val / 2048) + 98) % 99 = 98 := by omega
  have hdiv : (99 * ((i 1).val / 2048) + 98) / 99 = (i 1).val / 2048 := by omega
  refine ⟨⟨99 * ((i 1).val / 2048) + 98, hlt⟩, (flush0_3 _).mpr h98, ?_⟩
  rw [mem_blk3]
  obtain ⟨e0, e1, e2, e3⟩ := oidx_facts ⟨99 * ((i 1).val / 2048) + 98, hlt⟩
  intro a
  match a with
  | ⟨0, _⟩ =>
    show win0_3.index ⟨99 * ((i 1).val / 2048) + 98, hlt⟩ (0 : Fin 2) * 1 ≤ (i 0).val ∧ (i 0).val < win0_3.index ⟨99 * ((i 1).val / 2048) + 98, hlt⟩ (0 : Fin 2) * 1 + 1
    rw [e0]; omega
  | ⟨1, _⟩ =>
    show win0_3.index ⟨99 * ((i 1).val / 2048) + 98, hlt⟩ (1 : Fin 2) * 2048 ≤ (i 1).val ∧ (i 1).val < win0_3.index ⟨99 * ((i 1).val / 2048) + 98, hlt⟩ (1 : Fin 2) * 2048 + 2048
    rw [e1]
    show (99 * ((i 1).val / 2048) + 98) / 99 * 2048 ≤ (i 1).val ∧ (i 1).val < (99 * ((i 1).val / 2048) + 98) / 99 * 2048 + 2048
    rw [hdiv]; omega

/-- An entry of the second output array is in point `t`'s block iff each coordinate is in the block's range on its axis. -/
theorem mem_blk4 (t : Fin cfg0.N) (i : S1x4096.Idx) :
    i ∈ ((cfg0.win 4).blk t).view.set ↔ ∀ a : Fin 2, win0_4.index t a * S1x2048.size a ≤ (i a).val ∧ (i a).val < win0_4.index t a * S1x2048.size a + S1x2048.size a := by
  show i ∈ ((View.whole main_v5_1).slice (win0_4.rect t)).set ↔ _
  rw [View.set_slice_whole, Rect.mem_set_unit]
  exact Iff.rfl

/-- Every entry is in the block of its token tile's last point, which writes back. -/
theorem cover4 (i : S1x4096.Idx) : ∃ t : Fin cfg0.N, (cfg0.win 4).flush t = true ∧ i ∈ ((cfg0.win 4).blk t).view.set := by
  have hi0 : (i 0).val < 1 := idx2_lt0 i
  have hi1 : (i 1).val < 4096 := idx2_lt1 i
  have hlt : 99 * ((i 1).val / 2048) + 98 < cfg0.N := by rw [hN]; omega
  have h98 : (99 * ((i 1).val / 2048) + 98) % 99 = 98 := by omega
  have hdiv : (99 * ((i 1).val / 2048) + 98) / 99 = (i 1).val / 2048 := by omega
  refine ⟨⟨99 * ((i 1).val / 2048) + 98, hlt⟩, (flush0_4 _).mpr h98, ?_⟩
  rw [mem_blk4]
  obtain ⟨e0, e1, e2, e3⟩ := oidx_facts ⟨99 * ((i 1).val / 2048) + 98, hlt⟩
  intro a
  match a with
  | ⟨0, _⟩ =>
    show win0_4.index ⟨99 * ((i 1).val / 2048) + 98, hlt⟩ (0 : Fin 2) * 1 ≤ (i 0).val ∧ (i 0).val < win0_4.index ⟨99 * ((i 1).val / 2048) + 98, hlt⟩ (0 : Fin 2) * 1 + 1
    rw [e2]; omega
  | ⟨1, _⟩ =>
    show win0_4.index ⟨99 * ((i 1).val / 2048) + 98, hlt⟩ (1 : Fin 2) * 2048 ≤ (i 1).val ∧ (i 1).val < win0_4.index ⟨99 * ((i 1).val / 2048) + 98, hlt⟩ (1 : Fin 2) * 2048 + 2048
    rw [e3]
    show (99 * ((i 1).val / 2048) + 98) / 99 * 2048 ≤ (i 1).val ∧ (i 1).val < (99 * ((i 1).val / 2048) + 98) / 99 * 2048 + 2048
    rw [hdiv]; omega

/-- THE FIRST OUTPUT ARRAY after the run: token by token the fold's first result. -/
theorem final_tok (c : Dev nD) : (dats m 0 c).arrAt 3 cfg0.N = tokRow m c :=
  (dats m 0 c).arrAt_eq_of_cover 3 (tokRow m c) (flushed_tok m c) cover3

/-- THE SECOND OUTPUT ARRAY after the run: token by token the fold's second result. -/
theorem final_sum (c : Dev nD) : (dats m 0 c).arrAt 4 cfg0.N = sumRow m c :=
  (dats m 0 c).arrAt_eq_of_cover 4 (sumRow m c) (flushed_sum m c) cover4

end Cert.KernelIdeal.KArr

end
-- ==== Proof.HostPre.lean ====
/-
  What the three operand arrays hold when the region is entered, entry by entry, in terms of the program's arguments:
  the activations are the [2, 2048, 1024] argument laid out as 4096 rows (a change of float format is the identity
  over the extended reals); the weights are the [50257, 1024] argument with 431 rows of zeros appended; the labels
  are the [2, 2048] argument laid out as one row of 4096.
-/
import proofs.«431461_j16569983828129_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.KernelVsHost

noncomputable section

open Idealize.ShloMosaic Idealize.ShloMosaic.TcCoe Idealize.SL.Sem

namespace Cert.KernelIdeal.HostPre

open Cert.KernelIdeal Cert.KernelIdeal.Gen ValueIdx

variable (m : (ℓ : Loc nD τ sig) → Buf (Elt Ideal) ℓ)

/-- The activations argument. -/
abbrev acts (c : Dev nD) : FVec Ideal S2x2048x1024 .f32 := m ((c : Thread nD τ).loc main_arg2)
/-- The weights argument. -/
abbrev wts (c : Dev nD) : FVec Ideal S50257x1024 .f32 := m ((c : Thread nD τ).loc main_arg3)
/-- The labels argument. -/
abbrev lbls (c : Dev nD) : IVec S2x2048 32 := m ((c : Thread nD τ).loc main_arg0)

/-- The activations as the region finds them: 4096 rows. -/
abbrev oarr (c : Dev nD) : Vec Ideal S4096x1024 .bf16 := V m c main_v1
/-- The weights as the region finds them: 50688 rows. -/
abbrev warr (c : Dev nD) : Vec Ideal S50688x1024 .bf16 := V m c main_v3
/-- The labels as the region finds them: one row of 4096. -/
abbrev larr (c : Dev nD) : Vec Ideal S1x4096 .i32 := V m c main_v4

/-! ## The host operations read at an index -/

section PerIndex

/-- A [2, 2048, 1024] array laid out as 4096 rows: row r is token (r / 2048, r % 2048). -/
theorem rows_apply {α : Type} (x : S2x2048x1024.Idx → α) (r : Fin 4096) (k : Fin 1024) :
    shapeCast S4096x1024 x shapeCasts_S2x2048x1024_S4096x1024 (ix2 r k)
      = x (ix3 ⟨r.val / 2048, by omega⟩ ⟨r.val % 2048, by omega⟩ k) := by
  refine shapeCast_apply x _ _ _ ?_
  rw [Shape.rowMajor_val_three, Shape.rowMajor_val_two]
  show (r.val / 2048 * 2048 + r.val % 2048) * 1024 + k.val = r.val * 1024 + k.val
  omega

/-- A [2, 2048] array laid out as one row of 4096: entry r is token (r / 2048, r % 2048). -/
theorem row_apply {α : Type} (x : S2x2048.Idx → α) (r : Fin 4096) :
    shapeCast S1x4096 x shapeCasts_S2x2048_S1x4096 (ix2 0 r)
      = x (ix2 ⟨r.val / 2048, by omega⟩ ⟨r.val % 2048, by omega⟩) := by
  refine shapeCast_apply x _ _ _ ?_
  rw [Shape.rowMajor_val_two, Shape.rowMajor_val_two]
  show r.val / 2048 * 2048 + r.val % 2048 = 0 * 4096 + r.val
  omega

/-- 431 rows appended below a [50257, 1024] array: a row below 50257 is the array's, a later one the padding
value. -/
theorem padded_apply {α : Type} (x : S50257x1024.Idx → α) (v : S_.Idx → α) (u : Fin 50688) (k : Fin 1024) :
    pad S50688x1024 ![0, 0] ![431, 0] ![0, 0] x v pads_S50257x1024_S50688x1024_04310_000 h_S_ (ix2 u k)
      = if h : u.val < 50257 then x (ix2 ⟨u.val, h⟩ k) else v ix0 := by
  split_ifs with h
  · refine pad_apply_of_inside _ _ _ x v _ _ _ _ (fun a => ?_)
    match a with
    | ⟨0, _⟩ =>
      show u.val = 0 + u.val * (0 + 1)
      omega
    | ⟨1, _⟩ =>
      show k.val = 0 + k.val * (0 + 1)
      omega
  · rw [pad_apply_of_not_inside _ _ _ x v _ _ _ (0 : Fin 2) (by
      show ¬(0 ≤ u.val ∧ (u.val - 0) % (0 + 1) = 0 ∧ (u.val - 0) / (0 + 1) < 50257)
      omega)]
    exact congrArg v (eq_ix0 _)

end PerIndex

/-- Row `r` of the activations is token `(r / 2048, r % 2048)`. -/
theorem oarr_apply (c : Dev nD) (r : Fin 4096) (k : Fin 1024) :
    oarr m c (ix2 r k) = acts m c (ix3 ⟨r.val / 2048, by omega⟩ ⟨r.val % 2048, by omega⟩ k) := by
  have e : (V m c main_v1 : S4096x1024.Idx → EReal)
      = truncf .bf16 (shapeCast S4096x1024 (acts m c) shapeCasts_S2x2048x1024_S4096x1024) bitsLt_bf16_f32 := by
    dsimp only [Gen.V, Gen.V0]
    simp only [Gen.hostOps0, Gen.hostOps0_1, Gen.hostOps0_2, List.flatten_cons, List.flatten_nil, List.append_nil,
      List.cons_append, List.nil_append]
    after_results
    rfl
  show (V m c main_v1 : S4096x1024.Idx → EReal) (ix2 r k) = _
  rw [e]
  exact rows_apply (acts m c) r k

/-- Row `u` of the padded weights is the argument's row below 50257 and zero from there on. -/
theorem warr_apply (c : Dev nD) (u : Fin 50688) (k : Fin 1024) :
    warr m c (ix2 u k) = if h : u.val < 50257 then wts m c (ix2 ⟨u.val, h⟩ k) else (0 : EReal) := by
  have e : (V m c main_v3 : S50688x1024.Idx → EReal)
      = pad S50688x1024 ![0, 0] ![431, 0] ![0, 0] (truncf .bf16 (wts m c) bitsLt_bf16_f32)
          (sitofp (F := Ideal) .bf16 (constantI S_ 32 0#32)) pads_S50257x1024_S50688x1024_04310_000 h_S_ := by
    dsimp only [Gen.V, Gen.V0]
    simp only [Gen.hostOps0, Gen.hostOps0_1, Gen.hostOps0_2, List.flatten_cons, List.flatten_nil, List.append_nil,
      List.cons_append, List.nil_append]
    after_results
    simp only [StableHlo.TRef.ofBuf, StableHlo.TRef.toBuf, cast_eq]
  show (V m c main_v3 : S50688x1024.Idx → EReal) (ix2 u k) = _
  rw [e, padded_apply]
  split_ifs with h
  · rfl
  · show ((((0#32 : BitVec 32).toInt : ℤ) : ℝ) : EReal) = 0
    simp

/-- Entry `r` of the label row is token `(r / 2048, r % 2048)`'s label. -/
theorem larr_apply (c : Dev nD) (r : Fin 4096) :
    larr m c (ix2 0 r) = lbls m c (ix2 ⟨r.val / 2048, by omega⟩ ⟨r.val % 2048, by omega⟩) := by
  have e : (V m c main_v4 : S1x4096.Idx → BitVec 32)
      = shapeCast S1x4096 (lbls m c) shapeCasts_S2x2048_S1x4096 := by
    dsimp only [Gen.V, Gen.V0]
    simp only [Gen.hostOps0, Gen.hostOps0_1, Gen.hostOps0_2, List.flatten_cons, List.flatten_nil, List.append_nil,
      List.cons_append, List.nil_append]
    after_results
    rfl
  show (V m c main_v4 : S1x4096.Idx → BitVec 32) (ix2 0 r) = _
  rw [e]
  exact row_apply (lbls m c) r

end Cert.KernelIdeal.HostPre

end
-- ==== Proof.SoftmaxFold.lean ====
/-
  The tiled fold over a row of real logits ends at the row's maximum and at the sum of `exp (x - max)`, so
  `M + log L` is the row's log-sum-exp: the fold's two results are `x_target - lse` and `∑ x - 50257 · lse`.
-/
import proofs.«431461_j16569983828129_2_alg».proof.Proof.FoldDefs

noncomputable section

namespace Cert.SoftmaxFold

open Idealize.ShloMosaic

/-! ## From the fold to the row's numbers -/

section Helpers

/-- A real finite sum, read in the extended reals, is the sum of the readings. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private theorem coe_max (a b : ℝ) : ((max a b : ℝ) : EReal) = max (a : EReal) (b : EReal) :=
  EReal.coe_strictMono.monotone.map_max

/-- A tile's sum of a quantity that is a real g u on the vocabulary and 0 past its end is the real sum of
g over the tile's columns inside the vocabulary. -/
theorem tile_sum (g : ℕ → ℝ) (k : ℕ) :
    (∑ p : Fin 512, (if 512 * k + p.val < 50257 then ((g (512 * k + p.val) : ℝ) : EReal) else 0))
      = ((∑ u ∈ Finset.Ico (512 * k) (min (512 * k + 512) 50257), g u : ℝ) : EReal) := by
  have h1 : ∀ p : Fin 512,
      (if 512 * k + p.val < 50257 then ((g (512 * k + p.val) : ℝ) : EReal) else 0)
        = (((fun u => if u < 50257 then g u else 0) (512 * k + p.val) : ℝ) : EReal) := by
    intro p
    by_cases h : 512 * k + p.val < 50257 <;> simp [h]
  rw [Finset.sum_congr rfl (fun p _ => h1 p), ← coe_sum]
  congr 1
  rw [Fin.sum_univ_eq_sum_range (fun i => (fun u => if u < 50257 then g u else 0) (512 * k + i)) 512]
  have h2 := Finset.sum_Ico_eq_sum_range (fun u => if u < 50257 then g u else 0) (512 * k) (512 * k + 512)
  rw [Nat.add_sub_cancel_left] at h2
  rw [← h2, ← Finset.sum_filter]
  congr 1
  ext u
  simp only [Finset.mem_filter, Finset.mem_Ico]
  omega

end Helpers

section Tiles

variable {xr : ℕ → ℝ} {x : ℕ → EReal}

/-- A tile's exponential sum against a real reference b. -/
theorem tile_exp (hx : ∀ u, u < 50257 → x u = (xr u : EReal)) (k : ℕ) (b : ℝ) :
    (∑ p : Fin 512, Ideal.exp (msk x (512 * k + p.val) - (b : EReal)))
      = ((∑ u ∈ Finset.Ico (512 * k) (min (512 * k + 512) 50257), Real.exp (xr u - b) : ℝ) : EReal) := by
  rw [← tile_sum (fun u => Real.exp (xr u - b)) k]
  refine Finset.sum_congr rfl (fun p _ => ?_)
  unfold msk
  split_ifs with h
  · rw [hx _ h, ← EReal.coe_sub, Ideal.exp_coe]
  · rw [EReal.bot_sub, Ideal.exp_bot]

/-- A tile's plain sum. -/
theorem tile_raw (hx : ∀ u, u < 50257 → x u = (xr u : EReal)) (k : ℕ) :
    (∑ p : Fin 512, raw x (512 * k + p.val))
      = ((∑ u ∈ Finset.Ico (512 * k) (min (512 * k + 512) 50257), xr u : ℝ) : EReal) := by
  rw [← tile_sum xr k]
  refine Finset.sum_congr rfl (fun p _ => ?_)
  unfold raw
  split_ifs with h
  · rw [hx _ h]
  · rfl

/-- A tile's sum of the target column's logit. -/
theorem tile_hit (hx : ∀ u, u < 50257 → x u = (xr u : EReal)) (tg k : ℕ) :
    (∑ p : Fin 512, hit x tg (512 * k + p.val))
      = ((∑ u ∈ Finset.Ico (512 * k) (min (512 * k + 512) 50257),
          (if u = tg then xr u else 0) : ℝ) : EReal) := by
  rw [← tile_sum (fun u => if u = tg then xr u else 0) k]
  refine Finset.sum_congr rfl (fun p _ => ?_)
  unfold hit raw
  by_cases h2 : 512 * k + p.val < 50257
  · by_cases h1 : 512 * k + p.val = tg
    · simp only [if_pos h1, if_pos h2, hx _ h2]
    · simp only [if_neg h1, if_pos h2, EReal.coe_zero]
  · by_cases h1 : 512 * k + p.val = tg
    · simp only [if_pos h1, if_neg h2]
    · simp only [if_neg h1, if_neg h2]

/-- A tile that starts inside the vocabulary has a real maximum, attained at one of its columns inside the
vocabulary and bounding them all. -/
theorem tileMax_spec (hx : ∀ u, u < 50257 → x u = (xr u : EReal)) (k : ℕ) (hk : k ≤ 98) :
    ∃ t : ℝ, tileMax x k = (t : EReal)
      ∧ (∀ u ∈ Finset.Ico (512 * k) (min (512 * k + 512) 50257), xr u ≤ t)
      ∧ ∃ u ∈ Finset.Ico (512 * k) (min (512 * k + 512) 50257), xr u = t := by
  have hle : ∀ p : Fin 512, msk x (512 * k + p.val) ≤ tileMax x k := fun p =>
    (Finset.le_fold_max _).mpr (Or.inr ⟨p, Finset.mem_univ _, le_rfl⟩)
  have h0 : ((xr (512 * k) : ℝ) : EReal) ≤ tileMax x k := by
    have := hle ⟨0, by norm_num⟩
    have h' : 512 * k < 50257 := by omega
    simpa [msk, h', hx _ h'] using this
  have hatt : tileMax x k ≤ ⊥ ∨ ∃ p ∈ (Finset.univ : Finset (Fin 512)),
      tileMax x k ≤ msk x (512 * k + p.val) :=
    (Finset.le_fold_max _).mp (le_refl (tileMax x k))
  rcases hatt with hb | ⟨p, _, hp⟩
  · exact absurd (lt_of_lt_of_le (EReal.bot_lt_coe _) (h0.trans hb)) (lt_irrefl _)
  · have heq : tileMax x k = msk x (512 * k + p.val) := le_antisymm hp (hle p)
    have hin : 512 * k + p.val < 50257 := by
      by_contra hcon
      have : msk x (512 * k + p.val) = ⊥ := by simp [msk, hcon]
      rw [heq, this] at h0
      exact absurd (lt_of_lt_of_le (EReal.bot_lt_coe _) h0) (lt_irrefl _)
    have hval : tileMax x k = ((xr (512 * k + p.val) : ℝ) : EReal) := by
      rw [heq]; simp [msk, hin, hx _ hin]
    refine ⟨xr (512 * k + p.val), hval, ?_, ?_⟩
    · intro u hu
      rw [Finset.mem_Ico] at hu
      have hq := hle ⟨u - 512 * k, by omega⟩
      have hu' : 512 * k + (u - 512 * k) = u := by omega
      have hu50 : u < 50257 := by omega
      simp only [hu'] at hq
      rw [hval] at hq
      have : msk x u = ((xr u : ℝ) : EReal) := by simp [msk, hu50, hx _ hu50]
      rw [this] at hq
      exact EReal.coe_le_coe_iff.mp hq
    · refine ⟨512 * k + p.val, ?_, rfl⟩
      rw [Finset.mem_Ico]
      have := p.isLt
      omega

end Tiles

section Fold

variable {xr : ℕ → ℝ} {x : ℕ → EReal}

/-- After n columns: m is their maximum and the second running value is the sum of exp (x - m). -/
def MaxOk (xr : ℕ → ℝ) (n : ℕ) (s : St) (m : ℝ) : Prop :=
  s.1 = (m : EReal) ∧ (∀ u, u < n → xr u ≤ m) ∧ (∃ u, u < n ∧ xr u = m) ∧
    s.2.1 = ((∑ u ∈ Finset.range n, Real.exp (xr u - m) : ℝ) : EReal)

/-- After n columns: the two plain sums. -/
def SumsOk (xr : ℕ → ℝ) (tg n : ℕ) (s : St) : Prop :=
  s.2.2.1 = ((∑ u ∈ Finset.range n, xr u : ℝ) : EReal) ∧
    s.2.2.2 = ((∑ u ∈ Finset.range n, (if u = tg then xr u else 0) : ℝ) : EReal)

/-- One tile's update carries the running values from 512 k columns to the columns of k + 1 tiles. Before the
first tile the maximum is ⊥ and the exponential sum 0; the rescaling factor exp (⊥ - M) is then 0. -/
theorem step_inv (hx : ∀ u, u < 50257 → x u = (xr u : EReal)) (tg k : ℕ) (hk : k ≤ 98) (s : St)
    (hs : SumsOk xr tg (512 * k) s)
    (hml : (k = 0 ∧ s.1 = ⊥ ∧ s.2.1 = 0) ∨ ∃ m, MaxOk xr (512 * k) s m) :
    SumsOk xr tg (min (512 * k + 512) 50257) (step x tg k s)
      ∧ ∃ m, MaxOk xr (min (512 * k + 512) 50257) (step x tg k s) m := by
  obtain ⟨t, ht, htle, u0, hu0, hu0t⟩ := tileMax_spec hx k hk
  have hlohi : 512 * k ≤ min (512 * k + 512) 50257 := by omega
  rw [Finset.mem_Ico] at hu0
  refine ⟨⟨?_, ?_⟩, ?_⟩
  · show s.2.2.1 + ∑ p : Fin 512, raw x (512 * k + p.val) = _
    rw [hs.1, tile_raw hx, ← EReal.coe_add, Finset.sum_range_add_sum_Ico _ hlohi]
  · show s.2.2.2 + ∑ p : Fin 512, hit x tg (512 * k + p.val) = _
    rw [hs.2, tile_hit hx, ← EReal.coe_add, Finset.sum_range_add_sum_Ico _ hlohi]
  · rcases hml with ⟨hk0, hM, hL⟩ | ⟨a, hM, hale, ⟨ua, hua, huaa⟩, hL⟩
    · have hmax : max s.1 (tileMax x k) = (t : EReal) := by rw [hM, ht]; exact max_eq_right bot_le
      refine ⟨t, hmax, ?_, ⟨u0, hu0.2, hu0t⟩, ?_⟩
      · intro u hu
        exact htle u (Finset.mem_Ico.mpr ⟨by omega, hu⟩)
      · show Ideal.exp (s.1 - max s.1 (tileMax x k)) * s.2.1
            + ∑ p : Fin 512, Ideal.exp (msk x (512 * k + p.val) - max s.1 (tileMax x k)) = _
        rw [hmax, hL, mul_zero, zero_add, tile_exp hx,
          ← Finset.sum_range_add_sum_Ico (fun u => Real.exp (xr u - t)) hlohi]
        have h0 : ∑ u ∈ Finset.range (512 * k), Real.exp (xr u - t) = 0 := by
          rw [hk0, Nat.mul_zero, Finset.range_zero, Finset.sum_empty]
        rw [h0, zero_add]
    · have hmax : max s.1 (tileMax x k) = ((max a t : ℝ) : EReal) := by rw [hM, ht, coe_max]
      refine ⟨max a t, hmax, ?_, ?_, ?_⟩
      · intro u hu
        by_cases hlt : u < 512 * k
        · exact (hale u hlt).trans (le_max_left _ _)
        · exact (htle u (Finset.mem_Ico.mpr ⟨by omega, hu⟩)).trans (le_max_right _ _)
      · rcases le_total a t with h | h
        · exact ⟨u0, hu0.2, by rw [max_eq_right h]; exact hu0t⟩
        · exact ⟨ua, by omega, by rw [max_eq_left h]; exact huaa⟩
      · show Ideal.exp (s.1 - max s.1 (tileMax x k)) * s.2.1
            + ∑ p : Fin 512, Ideal.exp (msk x (512 * k + p.val) - max s.1 (tileMax x k)) = _
        rw [hmax, hM, hL, tile_exp hx, ← EReal.coe_sub, Ideal.exp_coe, ← EReal.coe_mul, ← EReal.coe_add,
          ← Finset.sum_range_add_sum_Ico (fun u => Real.exp (xr u - max a t)) hlohi]
        congr 2
        rw [Finset.mul_sum]
        refine Finset.sum_congr rfl (fun u _ => ?_)
        rw [← Real.exp_add]
        congr 1
        ring

/-- After tile j the running values are those of the columns seen so far. -/
theorem run_inv (hx : ∀ u, u < 50257 → x u = (xr u : EReal)) (tg j : ℕ) (hj : j ≤ 98) :
    SumsOk xr tg (min (512 * (j + 1)) 50257) (run x tg j)
      ∧ ∃ m, MaxOk xr (min (512 * (j + 1)) 50257) (run x tg j) m := by
  induction j with
  | zero =>
    have h := step_inv hx tg 0 hj init ⟨by simp [init], by simp [init]⟩ (Or.inl ⟨rfl, rfl, rfl⟩)
    exact h
  | succ j ih =>
    have ih' := ih (by omega)
    have hmin : min (512 * (j + 1)) 50257 = 512 * (j + 1) := by omega
    rw [hmin] at ih'
    have h := step_inv hx tg (j + 1) hj (run x tg j) ih'.1 (Or.inr ih'.2)
    exact h

end Fold

section Last

variable {xr : ℕ → ℝ} {x : ℕ → EReal}

private theorem rowZ_pos (xr : ℕ → ℝ) : 0 < rowZ xr :=
  Finset.sum_pos (fun _ _ => Real.exp_pos _) ⟨0, Finset.mem_univ _⟩

/-- The four running values after the last tile: the row's maximum, its sum of exp (x - max), its sum, and
the target's logit. -/
theorem run_last (hx : ∀ u, u < 50257 → x u = (xr u : EReal)) (tg : ℕ) :
    (run x tg 98).1 = ((rowMax xr : ℝ) : EReal) ∧ (run x tg 98).2.1 = ((rowZ xr : ℝ) : EReal)
      ∧ (run x tg 98).2.2.1 = ((∑ v : Fin 50257, xr v.val : ℝ) : EReal)
      ∧ (run x tg 98).2.2.2 = (((if tg < 50257 then xr tg else 0) : ℝ) : EReal) := by
  obtain ⟨⟨hS, hT⟩, m, hM, hle, ⟨um, hum, humm⟩, hL⟩ := run_inv hx tg 98 le_rfl
  have hn : min (512 * (98 + 1)) 50257 = 50257 := by norm_num
  rw [hn] at hS hT hle hum hL
  have hm : m = rowMax xr := by
    apply le_antisymm
    · rw [← humm]
      exact Finset.le_sup' (fun v : Fin 50257 => xr v.val) (Finset.mem_univ (⟨um, hum⟩ : Fin 50257))
    · exact Finset.sup'_le _ _ (fun v _ => hle v.val v.isLt)
  rw [hm] at hM hL
  refine ⟨hM, ?_, ?_, ?_⟩
  · rw [hL, Finset.sum_range (fun u => Real.exp (xr u - rowMax xr))]
    unfold rowZ
    exact rfl
  · rw [hS, Finset.sum_range xr]
  · rw [hT, Finset.sum_ite_eq']
    simp only [Finset.mem_range]

end Last

/-- The fold over all 99 tiles of real logits leaves the target's log-probability. -/
theorem tokOut_run (xr : ℕ → ℝ) (x : ℕ → EReal) (hx : ∀ u, u < 50257 → x u = (xr u : EReal))
    (tg : ℕ) (htg : tg < 50257) : tokOut (run x tg 98) = ((tokR xr tg : ℝ) : EReal) := by
  obtain ⟨hM, hL, _, hT⟩ := run_last hx tg
  unfold tokOut lse
  rw [hM, hL, hT, if_pos htg, Ideal.log_coe, if_neg (not_le.mpr (rowZ_pos xr)), ← EReal.coe_add,
    ← EReal.coe_sub]
  rfl

/-- The fold over all 99 tiles of real logits leaves the sum of the row's log-probabilities. -/
theorem sumOut_run (xr : ℕ → ℝ) (x : ℕ → EReal) (hx : ∀ u, u < 50257 → x u = (xr u : EReal))
    (tg : ℕ) : sumOut (run x tg 98) = ((sumR xr : ℝ) : EReal) := by
  obtain ⟨hM, hL, hS, _⟩ := run_last hx tg
  unfold sumOut lse
  rw [hM, hL, hS, Ideal.log_coe, if_neg (not_le.mpr (rowZ_pos xr)), ← EReal.coe_add, ← EReal.coe_mul,
    ← EReal.coe_sub]
  rfl

end Cert.SoftmaxFold

end
-- ==== Proof.PreFacts.lean ====
/-
  What the precondition says, entry by entry: every entry of the two float inputs is a real number (its absolute
  value is below `+∞`), and every label is a non-negative word below 50257.
-/
import proofs.«431461_j16569983828129_2_alg».proof.Pre_finite_inputs
import Idealize.ShloMosaic.Lib.ReduceAll
import Idealize.ShloMosaic.Lib.ValueIdx
import Idealize.ShloMosaic.Lib.StableHlo.Predicate
import Idealize.ShloMosaic.PureOps.Ideal.Laws

noncomputable section

open Idealize.ShloMosaic

namespace Cert.PreFacts

open Cert.Pre_finite_inputs

variable [Cert.Pre_finite_inputs.Facts]

/-- The result of a reduction over every axis has one index. -/
instance : Subsingleton S_.Idx := ⟨fun a b => funext fun d => d.elim0⟩

/-- An extended real whose absolute value `max x (-x)` compares below the word `0x7F800000`, which denotes `+∞`,
    is a real number: at `⊥` and at `⊤` the absolute value is `⊤`. -/
theorem real_of_abs_lt_inf (x : EReal)
    (h : Ideal.cmp .olt (max x (-x)) (Ideal.ofBits .f32 0x7F800000#32) = 1#1) : ∃ r : ℝ, x = ((r : ℝ) : EReal) := by
  have htop : Ideal.ofBits .f32 0x7F800000#32 = ⊤ := by simp [Ideal.ofBits, Ideal.ieee]
  rw [htop] at h
  unfold Ideal.cmp at h
  rw [StableHlo.Predicate.ofBool_eq_one_iff] at h
  have hlt : max x (-x) < ⊤ := of_decide_eq_true h
  induction x using EReal.rec with
  | bot => simp at hlt
  | top => simp at hlt
  | coe r => exact ⟨r, rfl⟩

/-- A 32-bit word that is at least `0` and below `50257` as a signed number is below `50257` as an unsigned one, and the
    two readings agree. -/
theorem word_range (w : BitVec 32) (h0 : IntOp.cmpi .sge w 0#32 = 1#1) (h1 : IntOp.cmpi .slt w 50257#32 = 1#1) :
    w.toNat < 50257 ∧ w.toInt = (w.toNat : ℤ) := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (50257#32 : BitVec 32).toInt = 50257 := by decide
  rw [e0] at h0
  rw [e1] at h1
  have h32 := w.isLt
  have hc := BitVec.toInt_eq_toNat_cond w
  split at hc <;> omega

/-- The precondition's three conjuncts, each read at every element. -/
theorem pre_split (a0 : IVec S2x2048 32) (a1 : IVec S2x2048 1) (a2 : FVec Ideal S2x2048x1024 .f32) (a3 : FVec Ideal S50257x1024 .f32)
    (h : Cert.Pre_finite_inputs.fn (F := Ideal) a0 a1 a2 a3 = fun _ => 1#1) :
    (∀ i : S2x2048x1024.Idx, Ideal.cmp .olt (max (a2 i : EReal) (-(a2 i : EReal))) (Ideal.ofBits .f32 0x7F800000#32) = 1#1)
    ∧ (∀ i : S50257x1024.Idx, Ideal.cmp .olt (max (a3 i : EReal) (-(a3 i : EReal))) (Ideal.ofBits .f32 0x7F800000#32) = 1#1)
    ∧ (∀ i : S2x2048.Idx, IntOp.cmpi .sge (a0 i) 0#32 = 1#1 ∧ IntOp.cmpi .slt (a0 i) 50257#32 = 1#1) := by
  have e := congrFun h ValueIdx.ix0
  unfold Cert.Pre_finite_inputs.fn at e
  dsimp only at e
  change IntOp.andi (IntOp.andi _ _) _ = 1#1 at e
  rw [IntOp.andi_eq_one, IntOp.andi_eq_one] at e
  obtain ⟨⟨e2, e3⟩, e0⟩ := e
  refine ⟨fun i => ?_, fun i => ?_, fun i => ?_⟩
  · exact Host.reduce_andi_all _ _ _ _ _ e2 i
  · exact Host.reduce_andi_all _ _ _ _ _ e3 i
  · exact IntOp.andi_eq_one.1 (Host.reduce_andi_all _ _ _ _ _ e0 i)

/-- Under the precondition every entry of the activations is a real number. -/
theorem outputs_real (a0 : IVec S2x2048 32) (a1 : IVec S2x2048 1) (a2 : FVec Ideal S2x2048x1024 .f32) (a3 : FVec Ideal S50257x1024 .f32)
    (h : Cert.Pre_finite_inputs.fn (F := Ideal) a0 a1 a2 a3 = fun _ => 1#1) (i : S2x2048x1024.Idx) :
    ∃ r : ℝ, a2 i = ((r : ℝ) : EReal) :=
  real_of_abs_lt_inf _ ((pre_split a0 a1 a2 a3 h).1 i)

/-- Under the precondition every entry of the weight matrix is a real number. -/
theorem weights_real (a0 : IVec S2x2048 32) (a1 : IVec S2x2048 1) (a2 : FVec Ideal S2x2048x1024 .f32) (a3 : FVec Ideal S50257x1024 .f32)
    (h : Cert.Pre_finite_inputs.fn (F := Ideal) a0 a1 a2 a3 = fun _ => 1#1) (i : S50257x1024.Idx) :
    ∃ r : ℝ, a3 i = ((r : ℝ) : EReal) :=
  real_of_abs_lt_inf _ ((pre_split a0 a1 a2 a3 h).2.1 i)

/-- Under the precondition every label is a word in `[0, 50257)`: read unsigned it is below 50257, and its signed
    reading is the same number. -/
theorem label_range (a0 : IVec S2x2048 32) (a1 : IVec S2x2048 1) (a2 : FVec Ideal S2x2048x1024 .f32) (a3 : FVec Ideal S50257x1024 .f32)
    (h : Cert.Pre_finite_inputs.fn (F := Ideal) a0 a1 a2 a3 = fun _ => 1#1) (i : S2x2048.Idx) :
    (a0 i).toNat < 50257 ∧ (a0 i).toInt = ((a0 i).toNat : ℤ) :=
  word_range _ ((pre_split a0 a1 a2 a3 h).2.2 i).1 ((pre_split a0 a1 a2 a3 h).2.2 i).2

end Cert.PreFacts

end
-- ==== Proof.Logits.lean ====
/-
  The real logit of token `(p, s)` at vocabulary column `v`: `∑ₖ o[p, s, k] · w[v, k]` over the real values of the two
  float inputs. Under the precondition every entry IS a real, so this is what both programs' dot products denote.
-/
import proofs.«431461_j16569983828129_2_alg».proof.Proof.FoldDefs
import Idealize.ShloMosaic.Lib.ValueIdx

noncomputable section

open Idealize.ShloMosaic

namespace Cert.Logits

open ValueIdx

/-- Token `(p, s)`'s real logit at column `v` (zero from column 50257 on, where there is no weight row). -/
def logitR (a2 : FVec Ideal ⟨3, ![2, 2048, 1024]⟩ .f32) (a3 : FVec Ideal ⟨2, ![50257, 1024]⟩ .f32) (p : Fin 2) (s : Fin 2048) (v : ℕ) : ℝ :=
  if h : v < 50257 then ∑ k : Fin 1024, (a2 (ix3 p s k)).toReal * (a3 (ix2 ⟨v, h⟩ k)).toReal else 0

end Cert.Logits

end
-- ==== Proof.KernelTok.lean ====
/-
  The kernel, token by token: under the precondition token `(p, s)`'s column of logits is real below column 50257 —
  there it is `∑ₖ w[v, k] · o[p, s, k]` over the real values of the two float arguments — and its label lies below
  50257, so the tiled fold's two results for that token are `x_label - lse` and `∑ x - 50257 · lse` of the real row.
-/
import proofs.«431461_j16569983828129_2_alg».proof.Proof.KernelArr
import proofs.«431461_j16569983828129_2_alg».proof.Proof.HostPre
import proofs.«431461_j16569983828129_2_alg».proof.Proof.SoftmaxFold
import proofs.«431461_j16569983828129_2_alg».proof.Proof.PreFacts
import proofs.«431461_j16569983828129_2_alg».proof.Proof.Logits

noncomputable section

open Idealize.ShloMosaic Idealize.ShloMosaic.TcCoe Idealize.SL.Sem

namespace Cert.KernelIdeal.KTok

open Cert.KernelIdeal Cert.KernelIdeal.Gen Cert.KernelIdeal.HostPre Cert.KernelIdeal.KArr Cert.SoftmaxFold Cert.Logits ValueIdx

variable [Cert.Pre_finite_inputs.Facts]

variable (m : (ℓ : Loc nD τ sig) → Buf (Elt Ideal) ℓ)

/-- The mask argument. -/
abbrev msks (c : Dev nD) : IVec S2x2048 1 := m ((c : Thread nD τ).loc main_arg1)

/-- A real finite sum, read in the extended reals, is the sum of the readings. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private theorem ix3_congr {n0 n1 n2 : ℕ} {a a' : Fin n0} {b b' : Fin n1} (k : Fin n2) (ha : a = a') (hb : b = b') :
    ix3 a b k = ix3 a' b' k := by
  subst ha hb
  rfl

private theorem ix2_congr {n0 n1 : ℕ} {a a' : Fin n0} {b b' : Fin n1} (ha : a = a') (hb : b = b') :
    ix2 a b = ix2 a' b' := by
  subst ha hb
  rfl

/-- Under the precondition token (p, s)'s column of logits is real below column 50257: there it is the real dot
    product of the token's activations with the column's weights. -/
theorem xcol_real (c : Dev nD)
    (hp : Cert.Pre_finite_inputs.fn (F := Ideal) (lbls m c) (msks m c) (acts m c) (wts m c) = fun _ => 1#1)
    (p : Fin 2) (s : Fin 2048) (u : ℕ) (hu : u < 50257) :
    Chain.xcol m c ⟨2048 * p.val + s.val, by omega⟩ u = ((logitR (acts m c) (wts m c) p s u : ℝ) : EReal) := by
  unfold Chain.xcol logitR
  rw [dif_pos (show u < 50688 by omega), dif_pos hu, coe_sum]
  refine Finset.sum_congr rfl (fun k _ => ?_)
  have hw : Arr.warr m c (ix2 ⟨u, by omega⟩ k) = wts m c (ix2 ⟨u, hu⟩ k) :=
    (warr_apply m c ⟨u, by omega⟩ k).trans (dif_pos hu)
  have ho : Arr.oarr m c (ix2 ⟨2048 * p.val + s.val, by omega⟩ k) = acts m c (ix3 p s k) :=
    (oarr_apply m c ⟨2048 * p.val + s.val, by omega⟩ k).trans (congrArg (acts m c)
      (ix3_congr k (Fin.ext (by show (2048 * p.val + s.val) / 2048 = p.val; omega))
        (Fin.ext (by show (2048 * p.val + s.val) % 2048 = s.val; omega))))
  obtain ⟨a, ha⟩ := Cert.PreFacts.outputs_real (lbls m c) (msks m c) (acts m c) (wts m c) hp (ix3 p s k)
  obtain ⟨b, hb⟩ := Cert.PreFacts.weights_real (lbls m c) (msks m c) (acts m c) (wts m c) hp (ix2 ⟨u, hu⟩ k)
  rw [hw, ho, ha, hb, EReal.toReal_coe, EReal.toReal_coe, ← EReal.coe_mul, mul_comm b a]

/-- Token (p, s)'s label as the kernel reads it. -/
theorem tgt_eq (c : Dev nD) (p : Fin 2) (s : Fin 2048) :
    Chain.tgt m c ⟨2048 * p.val + s.val, by omega⟩ = (lbls m c (ix2 p s)).toNat := by
  unfold Chain.tgt
  exact congrArg BitVec.toNat ((larr_apply m c ⟨2048 * p.val + s.val, by omega⟩).trans (congrArg (lbls m c)
    (ix2_congr (Fin.ext (by show (2048 * p.val + s.val) / 2048 = p.val; omega))
      (Fin.ext (by show (2048 * p.val + s.val) % 2048 = s.val; omega)))))

/-- Token `(p, s)`'s entry of the first output array: the label's real logit minus the real row's log-sum-exp. -/
theorem tok_kernel (c : Dev nD)
    (hp : Cert.Pre_finite_inputs.fn (F := Ideal) (lbls m c) (msks m c) (acts m c) (wts m c) = fun _ => 1#1)
    (p : Fin 2) (s : Fin 2048) :
    tokRow m c (ix2 0 ⟨2048 * p.val + s.val, by omega⟩)
      = ((tokR (logitR (acts m c) (wts m c) p s) (lbls m c (ix2 p s)).toNat : ℝ) : EReal) := by
  show tokOut (run (Chain.xcol m c ⟨2048 * p.val + s.val, by omega⟩) (Chain.tgt m c ⟨2048 * p.val + s.val, by omega⟩) 98) = _
  rw [tgt_eq m c p s]
  exact tokOut_run _ _ (fun u hu => xcol_real m c hp p s u hu) _
    (Cert.PreFacts.label_range (lbls m c) (msks m c) (acts m c) (wts m c) hp (ix2 p s)).1

/-- Token `(p, s)`'s entry of the second output array: the real row's sum minus 50257 times its log-sum-exp. -/
theorem sum_kernel (c : Dev nD)
    (hp : Cert.Pre_finite_inputs.fn (F := Ideal) (lbls m c) (msks m c) (acts m c) (wts m c) = fun _ => 1#1)
    (p : Fin 2) (s : Fin 2048) :
    sumRow m c (ix2 0 ⟨2048 * p.val + s.val, by omega⟩)
      = ((sumR (logitR (acts m c) (wts m c) p s) : ℝ) : EReal) := by
  show sumOut (run (Chain.xcol m c ⟨2048 * p.val + s.val, by omega⟩) (Chain.tgt m c ⟨2048 * p.val + s.val, by omega⟩) 98) = _
  exact sumOut_run _ _ (fun u hu => xcol_real m c hp p s u hu) _

end Cert.KernelIdeal.KTok

end
-- ==== Proof.KernelTail.lean ====
/-
  After the region the program turns the two per-token rows into one number: with `m` the mask as 0/1 reals over the
  4096 tokens and `n = ∑ m`, the result is `(-(∑ m · tok) / n) · 0.9 - ((∑ m · sum) / (n · 50257)) · 0.1`, the
  constants being the two f32 words the program carries. The frame run already states every buffer after these
  lines; here its result buffer is read as that one function of the mask and the two output arrays.
-/
import proofs.«431461_j16569983828129_2_alg».proof.Proof.Gen.KernelIdeal.Frame
import Idealize.ShloMosaic.Lib.Pipeline.Value
import Idealize.ShloMosaic.Lib.StableHlo.Run

noncomputable section

open Idealize.ShloMosaic Idealize.ShloMosaic.TcCoe Idealize.SL.Sem

namespace Cert.KernelIdeal.Tail

open Cert.KernelIdeal Cert.KernelIdeal.Gen

variable {F : FTy → Type} [FloatOps F] [Named F]

/-- The mask as 0/1 floats over the 4096 tokens. -/
def maskRow (mask : IVec S2x2048 1) : FVec F S4096 .f32 :=
  shapeCast S4096 (uitofp (F := F) .f32 mask) shapeCasts_S2x2048_S4096

/-- The lines after the region, as one function of the mask and the two per-token rows. -/
def tail (mask : IVec S2x2048 1) (tok sm : FVec F S1x4096 .f32) : FVec F S_ .f32 :=
  subf
    (mulf
      (Host.divf
        (Host.negf (Host.reduceAdd (mulf (maskRow (F := F) mask) (shapeCast S4096 tok shapeCasts_S1x4096_S4096))
          (constant (F := F) S_ .f32 0x00000000#32) reducesTo_S4096_S_d0 h_S_))
        (Host.reduceAdd (maskRow (F := F) mask) (constant (F := F) S_ .f32 0x00000000#32) reducesTo_S4096_S_d0 h_S_))
      (constant (F := F) S_ .f32 0x3F666666#32))
    (mulf
      (Host.divf
        (Host.reduceAdd (mulf (maskRow (F := F) mask) (shapeCast S4096 sm shapeCasts_S1x4096_S4096))
          (constant (F := F) S_ .f32 0x00000000#32) reducesTo_S4096_S_d0 h_S_)
        (mulf (Host.reduceAdd (maskRow (F := F) mask) (constant (F := F) S_ .f32 0x00000000#32) reducesTo_S4096_S_d0 h_S_)
          (constant (F := F) S_ .f32 0x47445100#32)))
      (constant (F := F) S_ .f32 0x3DCCCCCD#32))

variable (m : (ℓ : Loc nD τ sig) → Buf (Elt F) ℓ) (ρ : Dev nD → PrngReg)

/-- The lines after the region, run from any buffer contents, leave at the result buffer the tail's function of the
    mask buffer and the two output arrays' buffers. -/
theorem tail_after (W : Valuation τ sig (Elt F)) :
    StableHlo.after hostOps1 W (Proc.devRef .tc main_v21)
      = tail (F := F) (W (Proc.devRef .tc main_arg1)) (W (Proc.devRef .tc main_v5_0)) (W (Proc.devRef .tc main_v5_1)) := by
  after_results
  unfold tail maskRow
  rfl

/-- The same for any proof data of the region: the two output arrays are at what the region leaves in them, the mask
    at the launch contents. -/
theorem result_eq_of (dats : (p : Fin 1) → (c : Dev nD) → Pipeline.Dat τ (Elt F) Unit ℕ (UR sig nD τ) ℕ (cfgs p) c)
    (c : Dev nD) :
    Pipeline.afterTail₀ cfgs dats 0 (V0 m) [hostOps1] c main_v21
      = tail (F := F) (m ((c : Thread nD τ).loc main_arg1)) ((dats 0 c).arrAt 3 cfg0.N) ((dats 0 c).arrAt 4 cfg0.N) := by
  unfold Pipeline.afterTail₀
  rw [show ([hostOps1] : List (List (HloOp τ sig (Elt F)))).flatten = hostOps1 from by
    simp only [List.flatten_cons, List.flatten_nil, List.append_nil]]
  rw [tail_after]
  rw [Pipeline.withArrays_of_ne _ c (V0 m c) _ main_arg1 (by exact (by decide : ∀ w, Pipeline.arrRef spec0 w ≠ main_arg1)),
    show V0 m c (Proc.devRef .tc main_arg1) = m ((c : Thread nD τ).loc main_arg1) from V_main_arg1 m c,
    Pipeline.withArrays_arr spec0 winFacts0.arr_inj c _ _ 3,
    Pipeline.withArrays_arr spec0 winFacts0.arr_inj c _ _ 4]

/-- The result buffer after the lines that follow the region. -/
theorem result_eq (c : Dev nD) :
    Pipeline.afterTail₀ cfgs (dats m) 0 (V0 m) [hostOps1] c main_v21
      = tail (F := F) (m ((c : Thread nD τ).loc main_arg1)) ((dats m 0 c).arrAt 3 cfg0.N) ((dats m 0 c).arrAt 4 cfg0.N) := by
  exact result_eq_of m (dats m) c

/-- The program runs, ends with its result at the tail's function of the mask and the two output arrays, and leaves its
    arguments unchanged. -/
theorem run : θ_run defs (onTc (τ := τ) (main (F := F))) ⟨m, fun _ => 0, ρ⟩ fun r => ∀ c : Dev nD,
      r.2.mem ((c.tc : Thread nD τ).loc main_v21)
        = tail (F := F) (m ((c : Thread nD τ).loc main_arg1)) ((dats m 0 c).arrAt 3 cfg0.N) ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  exact (θ_run defs _ _).mono (fun _ h c =>
    ⟨((h c).2 main_v21 (Pipeline.mem_restRefs_of main_v21 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Tail

end
-- ==== Proof.SumFlat.lean ====
/-
  A host sum over all 4096 tokens in one row equals the host sum over the 2 x 2048 grid of the same values in
  row-major order: both are the initial value plus the sum of every entry, and addition of extended reals is
  commutative and associative.
-/
import Idealize.ShloMosaic.Lib.ValueIdx
import Idealize.ShloMosaic.Lib.ReduceAll
import Idealize.ShloMosaic.PureOps.Ideal.Laws

noncomputable section

open Idealize.ShloMosaic

namespace Cert.SumFlat

open ValueIdx

/-- The grid's indices and the row's indices correspond in row-major order: (p, s) to 2048 p + s. -/
def gridEquiv : (⟨2, ![2, 2048]⟩ : Shape).Idx ≃ (⟨1, ![4096]⟩ : Shape).Idx where
  toFun j := ix1 ⟨2048 * (j 0).val + (j 1).val, by
    have h0 := idx2_lt0 j
    have h1 := idx2_lt1 j
    omega⟩
  invFun i := ix2 (⟨(i 0).val / 2048, by
      have h : (i 0).val < 4096 := (i 0).isLt
      omega⟩ : Fin 2) (⟨(i 0).val % 2048, by omega⟩ : Fin 2048)
  left_inv j := by
    have h0 := idx2_lt0 j
    have h1 := idx2_lt1 j
    funext a
    match a with
    | ⟨0, _⟩ => exact Fin.ext (by show (2048 * (j 0).val + (j 1).val) / 2048 = (j 0).val; omega)
    | ⟨1, _⟩ => exact Fin.ext (by show (2048 * (j 0).val + (j 1).val) % 2048 = (j 1).val; omega)
  right_inv i := by
    funext a
    match a with
    | ⟨0, _⟩ => exact Fin.ext (by show 2048 * ((i 0).val / 2048) + (i 0).val % 2048 = (i 0).val; omega)

/-- The flat sum is the grid sum when the flat row holds the grid's entries in row-major order. -/
theorem reduceAdd_flat (h1 : (⟨1, ![4096]⟩ : Shape).ReducesTo [0] ⟨0, ![]⟩) (h2 : (⟨2, ![2, 2048]⟩ : Shape).ReducesTo [0, 1] ⟨0, ![]⟩)
    (hS : 0 < (⟨0, ![]⟩ : Shape).numel)
    (g : FVec Ideal ⟨1, ![4096]⟩ .f32) (f : FVec Ideal ⟨2, ![2, 2048]⟩ .f32) (c0 : FVec Ideal ⟨0, ![]⟩ .f32)
    (hgf : ∀ (p : Fin 2) (s : Fin 2048), g (ix1 ⟨2048 * p.val + s.val, by omega⟩) = f (ix2 p s)) :
    Host.reduceAdd g c0 h1 hS = Host.reduceAdd f c0 h2 hS := by
  funext j
  simp only [Host.reduceAdd]
  rw [Ideal.hostReduceAdd_def, Ideal.hostReduceAdd_def,
    Ideal.hostReduceAdd_total h1 (fun b => b.elim0), Ideal.hostReduceAdd_total h2 (fun b => b.elim0)]
  congr 1
  refine (Fintype.sum_equiv gridEquiv f g (fun i => ?_)).symm
  rw [eq_ix2 i]
  exact (hgf (i 0) (i 1)).symm

end Cert.SumFlat

end
-- ==== Proof.TailBridge.lean ====
/-
  The two programs close the same way: three sums over the tokens (the mask, the mask times the label's
  log-probability, the mask times the row's sum of log-probabilities), two quotients, two constants, one difference.
  The kernel's program sums over one row of 4096 tokens, the reference over the 2 x 2048 grid; entry `2048 p + s` of the
  row is entry `(p, s)` of the grid, so when the per-token values agree the three sums agree and so do the results.
-/
import proofs.«431461_j16569983828129_2_alg».proof.Proof.KernelTail
import proofs.«431461_j16569983828129_2_alg».proof.Proof.SumFlat
import proofs.«431461_j16569983828129_2_alg».proof.Proof.RefReadP
import Idealize.ShloMosaic.Lib.Pipeline.Value

noncomputable section

open Idealize.ShloMosaic

namespace Cert.TailBridge

open ValueIdx Cert.KernelIdeal.Tail Cert.ReferenceIdeal.ReadP

/-- The 2 x 2048 grid laid out as one row: entry `2048 p + s` is entry `(p, s)`. -/
theorem grid_flat {α : Type} (y : Cert.KernelIdeal.S2x2048.Idx → α) (p : Fin 2) (s : Fin 2048) :
    shapeCast Cert.KernelIdeal.S4096 y Cert.KernelIdeal.Facts₀.shapeCasts_S2x2048_S4096 (ix1 ⟨2048 * p.val + s.val, by omega⟩) = y (ix2 p s) :=
  shapeCast_apply y _ _ (ix2 p s) (by
    rw [Shape.rowMajor_val_two, Shape.rowMajor_val_one]
    show p.val * 2048 + s.val = 2048 * p.val + s.val
    omega)

/-- The [1, 4096] row laid out as a rank-1 row: the same entries. -/
theorem row_flat {α : Type} (y : Cert.KernelIdeal.S1x4096.Idx → α) (r : Fin 4096) :
    shapeCast Cert.KernelIdeal.S4096 y Cert.KernelIdeal.Facts₀.shapeCasts_S1x4096_S4096 (ix1 r) = y (ix2 0 r) :=
  shapeCast_apply y _ _ (ix2 0 r) (by
    rw [Shape.rowMajor_val_two, Shape.rowMajor_val_one]
    show (0 : Fin 1).val * 4096 + r.val = r.val
    simp)

/-- The sum of the mask: the number of valid tokens, on both sides. -/
theorem sum_mask (mask : IVec Cert.KernelIdeal.S2x2048 1) :
    Host.reduceAdd (maskRow (F := Ideal) mask) (constant (F := Ideal) Cert.KernelIdeal.S_ .f32 0x00000000#32)
        Cert.KernelIdeal.Facts₀.reducesTo_S4096_S_d0 Cert.KernelIdeal.Facts₀.h_S_
      = val_main_v3 (F := Ideal) mask := by
  unfold val_main_v3
  refine Cert.SumFlat.reduceAdd_flat _ _ _ _ _ _ (fun p s => ?_)
  unfold maskRow
  exact grid_flat _ p s

/-- The mask-weighted sum of the labels' log-probabilities, when the row holds the reference's per-token values. -/
theorem sum_tok (a0 : IVec Cert.KernelIdeal.S2x2048 32) (mask : IVec Cert.KernelIdeal.S2x2048 1)
    (a2 : FVec Ideal Cert.KernelIdeal.S2x2048x1024 .f32) (a3 : FVec Ideal Cert.KernelIdeal.S50257x1024 .f32)
    (tok : FVec Ideal Cert.KernelIdeal.S1x4096 .f32)
    (htok : ∀ (p : Fin 2) (s : Fin 2048), tok (ix2 0 ⟨2048 * p.val + s.val, by omega⟩) = val_main_v6 (F := Ideal) a0 a2 a3 (ix2 p s)) :
    Host.reduceAdd (mulf (maskRow (F := Ideal) mask) (shapeCast Cert.KernelIdeal.S4096 tok Cert.KernelIdeal.Facts₀.shapeCasts_S1x4096_S4096))
        (constant (F := Ideal) Cert.KernelIdeal.S_ .f32 0x00000000#32)
        Cert.KernelIdeal.Facts₀.reducesTo_S4096_S_d0 Cert.KernelIdeal.Facts₀.h_S_
      = val_main_v8 (F := Ideal) a0 mask a2 a3 := by
  unfold val_main_v8
  refine Cert.SumFlat.reduceAdd_flat _ _ _ _ _ _ (fun p s => ?_)
  show FloatOps.mulf (maskRow (F := Ideal) mask (ix1 ⟨2048 * p.val + s.val, by omega⟩))
      (shapeCast Cert.KernelIdeal.S4096 tok Cert.KernelIdeal.Facts₀.shapeCasts_S1x4096_S4096 (ix1 ⟨2048 * p.val + s.val, by omega⟩))
    = FloatOps.mulf (val_main_v2 (F := Ideal) mask (ix2 p s)) (val_main_v6 (F := Ideal) a0 a2 a3 (ix2 p s))
  rw [row_flat, htok p s]
  unfold maskRow
  rw [grid_flat]
  rfl

/-- The mask-weighted sum of the rows' sums of log-probabilities, when the row holds the reference's per-token values. -/
theorem sum_row (mask : IVec Cert.KernelIdeal.S2x2048 1)
    (a2 : FVec Ideal Cert.KernelIdeal.S2x2048x1024 .f32) (a3 : FVec Ideal Cert.KernelIdeal.S50257x1024 .f32)
    (sm : FVec Ideal Cert.KernelIdeal.S1x4096 .f32)
    (hsum : ∀ (p : Fin 2) (s : Fin 2048), sm (ix2 0 ⟨2048 * p.val + s.val, by omega⟩) = val_main_v11 (F := Ideal) a2 a3 (ix2 p s)) :
    Host.reduceAdd (mulf (maskRow (F := Ideal) mask) (shapeCast Cert.KernelIdeal.S4096 sm Cert.KernelIdeal.Facts₀.shapeCasts_S1x4096_S4096))
        (constant (F := Ideal) Cert.KernelIdeal.S_ .f32 0x00000000#32)
        Cert.KernelIdeal.Facts₀.reducesTo_S4096_S_d0 Cert.KernelIdeal.Facts₀.h_S_
      = val_main_v13 (F := Ideal) mask a2 a3 := by
  unfold val_main_v13
  refine Cert.SumFlat.reduceAdd_flat _ _ _ _ _ _ (fun p s => ?_)
  show FloatOps.mulf (maskRow (F := Ideal) mask (ix1 ⟨2048 * p.val + s.val, by omega⟩))
      (shapeCast Cert.KernelIdeal.S4096 sm Cert.KernelIdeal.Facts₀.shapeCasts_S1x4096_S4096 (ix1 ⟨2048 * p.val + s.val, by omega⟩))
    = FloatOps.mulf (val_main_v2 (F := Ideal) mask (ix2 p s)) (val_main_v11 (F := Ideal) a2 a3 (ix2 p s))
  rw [row_flat, hsum p s]
  unfold maskRow
  rw [grid_flat]
  rfl

/-- THE TWO RESULTS AGREE when the two per-token rows hold the reference's per-token values. -/
theorem result_eq (a0 : IVec Cert.KernelIdeal.S2x2048 32) (mask : IVec Cert.KernelIdeal.S2x2048 1)
    (a2 : FVec Ideal Cert.KernelIdeal.S2x2048x1024 .f32) (a3 : FVec Ideal Cert.KernelIdeal.S50257x1024 .f32)
    (tok sm : FVec Ideal Cert.KernelIdeal.S1x4096 .f32)
    (htok : ∀ (p : Fin 2) (s : Fin 2048), tok (ix2 0 ⟨2048 * p.val + s.val, by omega⟩) = val_main_v6 (F := Ideal) a0 a2 a3 (ix2 p s))
    (hsum : ∀ (p : Fin 2) (s : Fin 2048), sm (ix2 0 ⟨2048 * p.val + s.val, by omega⟩) = val_main_v11 (F := Ideal) a2 a3 (ix2 p s)) :
    tail (F := Ideal) mask tok sm = val_main_v18 (F := Ideal) a0 mask a2 a3 := by
  unfold tail val_main_v18 val_main_v16 val_main_v17 val_main_v10 val_main_v15 val_main_v9 val_main_v14
  rw [sum_tok a0 mask a2 a3 tok htok, sum_row mask a2 a3 sm hsum, sum_mask mask]
  rfl

end Cert.TailBridge

end
-- ==== Proof.RefRun.lean ====
/-
  The reference's run with its result named stage by stage: every weakly fair execution of the reference ends with
  its result buffer at the last stage's value, a function of the four arguments. The operations' fold is read one
  stretch of operations at a time, each value kept under its stage's name, so that no step compares two long terms.
-/
import proofs.«431461_j16569983828129_2_alg».proof.Proof.RefReadP

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/- The reduction over an axis and the gather are kept closed below: every step treats them as given functions of their operands. -/
attribute [local irreducible] Host.reduce Host.gather

/-- Running two lines one after the other is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-! The 61 operations, one name each, in program order. -/

abbrev o1 : HloOp τ sig (Elt F) :=
  binary main_arg2 main_arg3 main_v0 ((fun l r => Host.dotGeneral dot_S2x2048x1024_S50257x1024_S2x2048x50257_2_1_01_0_n_n none l r) : (⟨S2x2048x1024, .f32⟩ : BufTy).Contents (Elt F) → (⟨S50257x1024, .f32⟩ : BufTy).Contents (Elt F) → (⟨S2x2048x50257, .f32⟩ : BufTy).Contents (Elt F))
abbrev o2 : HloOp τ sig (Elt F) :=
  TRef.nullary (TRef.of (T := ⟨S_, .f32⟩) main_call0_cst) (constant S_ .f32 0xFF800000#32)
abbrev o3 : HloOp τ sig (Elt F) :=
  TRef.binary (TRef.of (T := ⟨S2x2048x50257, .f32⟩) main_v0) (TRef.of (T := ⟨S_, .f32⟩) main_call0_cst) (TRef.of (T := ⟨S2x2048, .f32⟩) main_call0_v0) (fun x v => Host.reduce FloatOps.maximumf x v reducesTo_S2x2048x50257_S2x2048_d2 h_S_)
abbrev o4 : HloOp τ sig (Elt F) :=
  TRef.nullary (TRef.of (T := ⟨S_, .f32⟩) main_call0_cst_0) (constant S_ .f32 0xFF800000#32)
abbrev o5 : HloOp τ sig (Elt F) :=
  TRef.unary (TRef.of (T := ⟨S_, .f32⟩) main_call0_cst_0) (TRef.of (T := ⟨S2x2048, .f32⟩) main_call0_v1) (broadcastInDim S2x2048 ![] bcast_S_S2x2048)
abbrev o6 : HloOp τ sig (Elt F) :=
  TRef.binary (TRef.of (T := ⟨S2x2048, .f32⟩) main_call0_v1) (TRef.of (T := ⟨S2x2048, .f32⟩) main_call0_v0) (TRef.of (T := ⟨S2x2048, .f32⟩) main_call0_v2) maximumf
abbrev o7 : HloOp τ sig (Elt F) :=
  TRef.unary (TRef.of (T := ⟨S2x2048, .f32⟩) main_call0_v2) (TRef.of (T := ⟨S2x2048x1, .f32⟩) main_call0_v3) (broadcastInDim S2x2048x1 ![0, 1] bcast_S2x2048_S2x2048x1_0_1)
abbrev o8 : HloOp τ sig (Elt F) :=
  TRef.unary (TRef.of (T := ⟨S2x2048x1, .f32⟩) main_call0_v3) (TRef.of (T := ⟨S2x2048x50257, .f32⟩) main_call0_v4) (broadcastInDim S2x2048x50257 ![0, 1, 2] bcast_S2x2048x1_S2x2048x50257_0_1_2)
abbrev o9 : HloOp τ sig (Elt F) :=
  TRef.binary (TRef.of (T := ⟨S2x2048x50257, .f32⟩) main_v0) (TRef.of (T := ⟨S2x2048x50257, .f32⟩) main_call0_v4) (TRef.of (T := ⟨S2x2048x50257, .f32⟩) main_call0_v5) subf
abbrev o10 : HloOp τ sig (Elt F) :=
  TRef.unary (TRef.of (T := ⟨S2x2048x50257, .f32⟩) main_call0_v5) (TRef.of (T := ⟨S2x2048x50257, .f32⟩) main_call0_v6) Host.exp
abbrev o11 : HloOp τ sig (Elt F) :=
  TRef.nullary (TRef.of (T := ⟨S_, .f32⟩) main_call0_cst_1) (constant S_ .f32 0x00000000#32)
abbrev o12 : HloOp τ sig (Elt F) :=
  TRef.binary (TRef.of (T := ⟨S2x2048x50257, .f32⟩) main_call0_v6) (TRef.of (T := ⟨S_, .f32⟩) main_call0_cst_1) (TRef.of (T := ⟨S2x2048, .f32⟩) main_call0_v7) (fun x v => Host.reduceAdd x v reducesTo_S2x2048x50257_S2x2048_d2 h_S_)
abbrev o13 : HloOp τ sig (Elt F) :=
  TRef.unary (TRef.of (T := ⟨S2x2048, .f32⟩) main_call0_v7) (TRef.of (T := ⟨S2x2048x1, .f32⟩) main_call0_v8) (broadcastInDim S2x2048x1 ![0, 1] bcast_S2x2048_S2x2048x1_0_1)
abbrev o14 : HloOp τ sig (Elt F) :=
  TRef.unary (TRef.of (T := ⟨S2x2048x1, .f32⟩) main_call0_v8) (TRef.of (T := ⟨S2x2048x1, .f32⟩) main_call0_v9) Host.log
abbrev o15 : HloOp τ sig (Elt F) :=
  TRef.unary (TRef.of (T := ⟨S2x2048x1, .f32⟩) main_call0_v9) (TRef.of (T := ⟨S2x2048x50257, .f32⟩) main_call0_v10) (broadcastInDim S2x2048x50257 ![0, 1, 2] bcast_S2x2048x1_S2x2048x50257_0_1_2)
abbrev o16 : HloOp τ sig (Elt F) :=
  TRef.binary (TRef.of (T := ⟨S2x2048x50257, .f32⟩) main_call0_v5) (TRef.of (T := ⟨S2x2048x50257, .f32⟩) main_call0_v10) (TRef.of (T := ⟨S2x2048x50257, .f32⟩) main_v1) subf
abbrev o17 : HloOp τ sig (Elt F) :=
  unary main_arg1 main_v2 (uitofp .f32 : (⟨S2x2048, .i1⟩ : BufTy).Contents (Elt F) → (⟨S2x2048, .f32⟩ : BufTy).Contents (Elt F))
abbrev o18 : HloOp τ sig (Elt F) :=
  nullary main_cst (constant S_ .f32 0x00000000#32)
abbrev o19 : HloOp τ sig (Elt F) :=
  binary main_v2 main_cst main_v3 ((fun x v => Host.reduceAdd x v reducesTo_S2x2048_S_d0_1 h_S_) : (⟨S2x2048, .f32⟩ : BufTy).Contents (Elt F) → (⟨S_, .f32⟩ : BufTy).Contents (Elt F) → (⟨S_, .f32⟩ : BufTy).Contents (Elt F))
abbrev o20 : HloOp τ sig (Elt F) :=
  unary main_arg0 main_v4 (broadcastInDim S2x2048x1 ![0, 1] bcast_S2x2048_S2x2048x1_0_1 : (⟨S2x2048, .i32⟩ : BufTy).Contents (Elt F) → (⟨S2x2048x1, .i32⟩ : BufTy).Contents (Elt F))
abbrev o21 : HloOp τ sig (Elt F) :=
  TRef.nullary (TRef.of (T := ⟨S_, .i32⟩) main_call1_c) (constantI S_ 32 0#32)
abbrev o22 : HloOp τ sig (Elt F) :=
  TRef.unary (TRef.of (T := ⟨S_, .i32⟩) main_call1_c) (TRef.of (T := ⟨S2x2048x1, .i32⟩) main_call1_v0) (broadcastInDim S2x2048x1 ![] bcast_S_S2x2048x1)
abbrev o23 : HloOp τ sig (Elt F) :=
  TRef.binary (TRef.of (T := ⟨S2x2048x1, .i32⟩) main_v4) (TRef.of (T := ⟨S2x2048x1, .i32⟩) main_call1_v0) (TRef.of (T := ⟨S2x2048x1, .i1⟩) main_call1_v1) (cmpi .slt)
abbrev o24 : HloOp τ sig (Elt F) :=
  TRef.nullary (TRef.of (T := ⟨S_, .i32⟩) main_call1_c_0) (constantI S_ 32 50257#32)
abbrev o25 : HloOp τ sig (Elt F) :=
  TRef.unary (TRef.of (T := ⟨S_, .i32⟩) main_call1_c_0) (TRef.of (T := ⟨S2x2048x1, .i32⟩) main_call1_v2) (broadcastInDim S2x2048x1 ![] bcast_S_S2x2048x1)
abbrev o26 : HloOp τ sig (Elt F) :=
  TRef.binary (TRef.of (T := ⟨S2x2048x1, .i32⟩) main_v4) (TRef.of (T := ⟨S2x2048x1, .i32⟩) main_call1_v2) (TRef.of (T := ⟨S2x2048x1, .i32⟩) main_call1_v3) addi
abbrev o27 : HloOp τ sig (Elt F) :=
  TRef.ternary (TRef.of (T := ⟨S2x2048x1, .i1⟩) main_call1_v1) (TRef.of (T := ⟨S2x2048x1, .i32⟩) main_call1_v3) (TRef.of (T := ⟨S2x2048x1, .i32⟩) main_v4) (TRef.of (T := ⟨S2x2048x1, .i32⟩) main_call1_v4) select
abbrev o28 : HloOp τ sig (Elt F) :=
  TRef.reshape (TRef.of (T := ⟨S2x2048x1, .i32⟩) main_call1_v4) (TRef.of (T := ⟨S2x2048x1x1, .i32⟩) main_call1_v5) rfl shapeCasts_S2x2048x1_S2x2048x1x1
abbrev o29 : HloOp τ sig (Elt F) :=
  TRef.nullary (TRef.of (T := ⟨S1, .i32⟩) main_call1_c_1) (constantI S1 32 50256#32)
abbrev o30 : HloOp τ sig (Elt F) :=
  TRef.nullary (TRef.of (T := ⟨S_, .i32⟩) main_call1_c_2) (constantI S_ 32 0#32)
abbrev o31 : HloOp τ sig (Elt F) :=
  TRef.unary (TRef.of (T := ⟨S_, .i32⟩) main_call1_c_2) (TRef.of (T := ⟨S2x2048x1x1, .i32⟩) main_call1_v6) (broadcastInDim S2x2048x1x1 ![] bcast_S_S2x2048x1x1)
abbrev o32 : HloOp τ sig (Elt F) :=
  TRef.binary (TRef.of (T := ⟨S2x2048x1x1, .i32⟩) main_call1_v5) (TRef.of (T := ⟨S2x2048x1x1, .i32⟩) main_call1_v6) (TRef.of (T := ⟨S2x2048x1x1, .i1⟩) main_call1_v7) (cmpi .sge)
abbrev o33 : HloOp τ sig (Elt F) :=
  TRef.unary (TRef.of (T := ⟨S1, .i32⟩) main_call1_c_1) (TRef.of (T := ⟨S1x1x1x1, .i32⟩) main_call1_v8) (broadcastInDim S1x1x1x1 ![3] bcast_S1_S1x1x1x1_3)
abbrev o34 : HloOp τ sig (Elt F) :=
  TRef.unary (TRef.of (T := ⟨S1x1x1x1, .i32⟩) main_call1_v8) (TRef.of (T := ⟨S2x2048x1x1, .i32⟩) main_call1_v9) (broadcastInDim S2x2048x1x1 ![0, 1, 2, 3] bcast_S1x1x1x1_S2x2048x1x1_0_1_2_3)
abbrev o35 : HloOp τ sig (Elt F) :=
  TRef.binary (TRef.of (T := ⟨S2x2048x1x1, .i32⟩) main_call1_v5) (TRef.of (T := ⟨S2x2048x1x1, .i32⟩) main_call1_v9) (TRef.of (T := ⟨S2x2048x1x1, .i1⟩) main_call1_v10) (cmpi .sle)
abbrev o36 : HloOp τ sig (Elt F) :=
  TRef.binary (TRef.of (T := ⟨S2x2048x1x1, .i1⟩) main_call1_v7) (TRef.of (T := ⟨S2x2048x1x1, .i1⟩) main_call1_v10) (TRef.of (T := ⟨S2x2048x1x1, .i1⟩) main_call1_v11) andi
abbrev o37 : HloOp τ sig (Elt F) :=
  TRef.nullary (TRef.of (T := ⟨S_, .i1⟩) main_call1_c_3) (constantI S_ 1 1#1)
abbrev o38 : HloOp τ sig (Elt F) :=
  TRef.binary (TRef.of (T := ⟨S2x2048x1x1, .i1⟩) main_call1_v11) (TRef.of (T := ⟨S_, .i1⟩) main_call1_c_3) (TRef.of (T := ⟨S2x2048x1, .i1⟩) main_call1_v12) (fun x v => Host.reduce IntOp.andi x v reducesTo_S2x2048x1x1_S2x2048x1_d3 h_S_)
abbrev o39 : HloOp τ sig (Elt F) :=
  TRef.binary (TRef.of (T := ⟨S2x2048x50257, .f32⟩) main_v1) (TRef.of (T := ⟨S2x2048x1x1, .i32⟩) main_call1_v5) (TRef.of (T := ⟨S2x2048x1, .f32⟩) main_call1_v13) (fun x i => Host.gather gather_S2x2048x50257_S2x2048x1x1_S2x2048x1_n_2_01_01_2_3_111 x i)
abbrev o40 : HloOp τ sig (Elt F) :=
  TRef.nullary (TRef.of (T := ⟨S_, .f32⟩) main_call1_cst) (constant S_ .f32 0x7FC00000#32)
abbrev o41 : HloOp τ sig (Elt F) :=
  TRef.unary (TRef.of (T := ⟨S_, .f32⟩) main_call1_cst) (TRef.of (T := ⟨S2x2048x1, .f32⟩) main_call1_v14) (broadcastInDim S2x2048x1 ![] bcast_S_S2x2048x1)
abbrev o42 : HloOp τ sig (Elt F) :=
  TRef.ternary (TRef.of (T := ⟨S2x2048x1, .i1⟩) main_call1_v12) (TRef.of (T := ⟨S2x2048x1, .f32⟩) main_call1_v13) (TRef.of (T := ⟨S2x2048x1, .f32⟩) main_call1_v14) (TRef.of (T := ⟨S2x2048x1, .f32⟩) main_v5) select
abbrev o43 : HloOp τ sig (Elt F) :=
  reshape main_v5 main_v6 rfl shapeCasts_S2x2048x1_S2x2048
abbrev o44 : HloOp τ sig (Elt F) :=
  binary main_v2 main_v6 main_v7 (mulf : (⟨S2x2048, .f32⟩ : BufTy).Contents (Elt F) → (⟨S2x2048, .f32⟩ : BufTy).Contents (Elt F) → (⟨S2x2048, .f32⟩ : BufTy).Contents (Elt F))
abbrev o45 : HloOp τ sig (Elt F) :=
  nullary main_cst_0 (constant S_ .f32 0x00000000#32)
abbrev o46 : HloOp τ sig (Elt F) :=
  binary main_v7 main_cst_0 main_v8 ((fun x v => Host.reduceAdd x v reducesTo_S2x2048_S_d0_1 h_S_) : (⟨S2x2048, .f32⟩ : BufTy).Contents (Elt F) → (⟨S_, .f32⟩ : BufTy).Contents (Elt F) → (⟨S_, .f32⟩ : BufTy).Contents (Elt F))
abbrev o47 : HloOp τ sig (Elt F) :=
  unary main_v8 main_v9 (Host.negf : (⟨S_, .f32⟩ : BufTy).Contents (Elt F) → (⟨S_, .f32⟩ : BufTy).Contents (Elt F))
abbrev o48 : HloOp τ sig (Elt F) :=
  binary main_v9 main_v3 main_v10 (Host.divf : (⟨S_, .f32⟩ : BufTy).Contents (Elt F) → (⟨S_, .f32⟩ : BufTy).Contents (Elt F) → (⟨S_, .f32⟩ : BufTy).Contents (Elt F))
abbrev o49 : HloOp τ sig (Elt F) :=
  nullary main_cst_1 (constant S_ .f32 0x00000000#32)
abbrev o50 : HloOp τ sig (Elt F) :=
  binary main_v1 main_cst_1 main_v11 ((fun x v => Host.reduceAdd x v reducesTo_S2x2048x50257_S2x2048_d2 h_S_) : (⟨S2x2048x50257, .f32⟩ : BufTy).Contents (Elt F) → (⟨S_, .f32⟩ : BufTy).Contents (Elt F) → (⟨S2x2048, .f32⟩ : BufTy).Contents (Elt F))
abbrev o51 : HloOp τ sig (Elt F) :=
  binary main_v2 main_v11 main_v12 (mulf : (⟨S2x2048, .f32⟩ : BufTy).Contents (Elt F) → (⟨S2x2048, .f32⟩ : BufTy).Contents (Elt F) → (⟨S2x2048, .f32⟩ : BufTy).Contents (Elt F))
abbrev o52 : HloOp τ sig (Elt F) :=
  nullary main_cst_2 (constant S_ .f32 0x00000000#32)
abbrev o53 : HloOp τ sig (Elt F) :=
  binary main_v12 main_cst_2 main_v13 ((fun x v => Host.reduceAdd x v reducesTo_S2x2048_S_d0_1 h_S_) : (⟨S2x2048, .f32⟩ : BufTy).Contents (Elt F) → (⟨S_, .f32⟩ : BufTy).Contents (Elt F) → (⟨S_, .f32⟩ : BufTy).Contents (Elt F))
abbrev o54 : HloOp τ sig (Elt F) :=
  nullary main_cst_3 (constant S_ .f32 0x47445100#32)
abbrev o55 : HloOp τ sig (Elt F) :=
  binary main_v3 main_cst_3 main_v14 (mulf : (⟨S_, .f32⟩ : BufTy).Contents (Elt F) → (⟨S_, .f32⟩ : BufTy).Contents (Elt F) → (⟨S_, .f32⟩ : BufTy).Contents (Elt F))
abbrev o56 : HloOp τ sig (Elt F) :=
  binary main_v13 main_v14 main_v15 (Host.divf : (⟨S_, .f32⟩ : BufTy).Contents (Elt F) → (⟨S_, .f32⟩ : BufTy).Contents (Elt F) → (⟨S_, .f32⟩ : BufTy).Contents (Elt F))
abbrev o57 : HloOp τ sig (Elt F) :=
  nullary main_cst_4 (constant S_ .f32 0x3F666666#32)
abbrev o58 : HloOp τ sig (Elt F) :=
  binary main_v10 main_cst_4 main_v16 (mulf : (⟨S_, .f32⟩ : BufTy).Contents (Elt F) → (⟨S_, .f32⟩ : BufTy).Contents (Elt F) → (⟨S_, .f32⟩ : BufTy).Contents (Elt F))
abbrev o59 : HloOp τ sig (Elt F) :=
  nullary main_cst_5 (constant S_ .f32 0x3DCCCCCD#32)
abbrev o60 : HloOp τ sig (Elt F) :=
  binary main_v15 main_cst_5 main_v17 (mulf : (⟨S_, .f32⟩ : BufTy).Contents (Elt F) → (⟨S_, .f32⟩ : BufTy).Contents (Elt F) → (⟨S_, .f32⟩ : BufTy).Contents (Elt F))
abbrev o61 : HloOp τ sig (Elt F) :=
  binary main_v16 main_v17 main_v18 (subf : (⟨S_, .f32⟩ : BufTy).Contents (Elt F) → (⟨S_, .f32⟩ : BufTy).Contents (Elt F) → (⟨S_, .f32⟩ : BufTy).Contents (Elt F))

/-- Operations 1 to 9. -/
abbrev cA : List (HloOp τ sig (Elt F)) := [o1, o2, o3, o4, o5, o6, o7, o8, o9]
/-- Operations 10 to 16. -/
abbrev cB : List (HloOp τ sig (Elt F)) := [o10, o11, o12, o13, o14, o15, o16]
/-- Operations 17 to 20. -/
abbrev cC : List (HloOp τ sig (Elt F)) := [o17, o18, o19, o20]
/-- Operations 21 to 28. -/
abbrev cD : List (HloOp τ sig (Elt F)) := [o21, o22, o23, o24, o25, o26, o27, o28]
/-- Operations 29 to 38. -/
abbrev cE : List (HloOp τ sig (Elt F)) := [o29, o30, o31, o32, o33, o34, o35, o36, o37, o38]
/-- Operations 39 to 43. -/
abbrev cF : List (HloOp τ sig (Elt F)) := [o39, o40, o41, o42, o43]
/-- Operations 44 to 48. -/
abbrev cG : List (HloOp τ sig (Elt F)) := [o44, o45, o46, o47, o48]
/-- Operations 49 to 56. -/
abbrev cH : List (HloOp τ sig (Elt F)) := [o49, o50, o51, o52, o53, o54, o55, o56]
/-- Operations 57 to 61. -/
abbrev cI : List (HloOp τ sig (Elt F)) := [o57, o58, o59, o60, o61]

set_option maxRecDepth 8192 in
theorem ops_eq : ValueP.ops (F := F) = cA ++ (cB ++ (cC ++ (cD ++ (cE ++ (cF ++ (cG ++ (cH ++ cI))))))) := rfl

abbrev X0 (F : FTy → Type) : Type := (⟨S2x2048, .i32⟩ : BufTy).Contents (Elt F)
abbrev X1 (F : FTy → Type) : Type := (⟨S2x2048, .i1⟩ : BufTy).Contents (Elt F)
abbrev X2 (F : FTy → Type) : Type := (⟨S2x2048x1024, .f32⟩ : BufTy).Contents (Elt F)
abbrev X3 (F : FTy → Type) : Type := (⟨S50257x1024, .f32⟩ : BufTy).Contents (Elt F)

/-! What each operation leaves in its result buffer, as the pure operation on the contents of the buffers it reads. -/

theorem res1 (W : Valuation τ sig (Elt F)) :
    (o1 (F := F)).result W (Proc.devRef .tc main_v0) = ((fun l r => Host.dotGeneral dot_S2x2048x1024_S50257x1024_S2x2048x50257_2_1_01_0_n_n none l r) : (⟨S2x2048x1024, .f32⟩ : BufTy).Contents (Elt F) → (⟨S50257x1024, .f32⟩ : BufTy).Contents (Elt F) → (⟨S2x2048x50257, .f32⟩ : BufTy).Contents (Elt F)) (W (Proc.devRef .tc main_arg2)) (W (Proc.devRef .tc main_arg3)) := by
  refine (binary_result _ _ _ _ _ _ _ W).trans ?_
  rfl

theorem res2 (W : Valuation τ sig (Elt F)) :
    (o2 (F := F)).result W (Proc.devRef .tc main_call0_cst) = (constant S_ .f32 0xFF800000#32) := by
  refine (nullary_result _ _ _ W).trans ?_
  rfl

theorem res3 (W : Valuation τ sig (Elt F)) :
    (o3 (F := F)).result W (Proc.devRef .tc main_call0_v0) = (fun x v => Host.reduce FloatOps.maximumf x v reducesTo_S2x2048x50257_S2x2048_d2 h_S_) (W (Proc.devRef .tc main_v0)) (W (Proc.devRef .tc main_call0_cst)) := by
  refine (binary_result _ _ _ _ _ _ _ W).trans ?_
  rfl

theorem res4 (W : Valuation τ sig (Elt F)) :
    (o4 (F := F)).result W (Proc.devRef .tc main_call0_cst_0) = (constant S_ .f32 0xFF800000#32) := by
  refine (nullary_result _ _ _ W).trans ?_
  rfl

theorem res5 (W : Valuation τ sig (Elt F)) :
    (o5 (F := F)).result W (Proc.devRef .tc main_call0_v1) = (broadcastInDim S2x2048 ![] bcast_S_S2x2048) (W (Proc.devRef .tc main_call0_cst_0)) := by
  refine (unary_result _ _ _ _ _ W).trans ?_
  rfl

theorem res6 (W : Valuation τ sig (Elt F)) :
    (o6 (F := F)).result W (Proc.devRef .tc main_call0_v2) = maximumf (W (Proc.devRef .tc main_call0_v1)) (W (Proc.devRef .tc main_call0_v0)) := by
  refine (binary_result _ _ _ _ _ _ _ W).trans ?_
  rfl

theorem res7 (W : Valuation τ sig (Elt F)) :
    (o7 (F := F)).result W (Proc.devRef .tc main_call0_v3) = (broadcastInDim S2x2048x1 ![0, 1] bcast_S2x2048_S2x2048x1_0_1) (W (Proc.devRef .tc main_call0_v2)) := by
  refine (unary_result _ _ _ _ _ W).trans ?_
  rfl

theorem res8 (W : Valuation τ sig (Elt F)) :
    (o8 (F := F)).result W (Proc.devRef .tc main_call0_v4) = (broadcastInDim S2x2048x50257 ![0, 1, 2] bcast_S2x2048x1_S2x2048x50257_0_1_2) (W (Proc.devRef .tc main_call0_v3)) := by
  refine (unary_result _ _ _ _ _ W).trans ?_
  rfl

theorem res9 (W : Valuation τ sig (Elt F)) :
    (o9 (F := F)).result W (Proc.devRef .tc main_call0_v5) = subf (W (Proc.devRef .tc main_v0)) (W (Proc.devRef .tc main_call0_v4)) := by
  refine (binary_result _ _ _ _ _ _ _ W).trans ?_
  rfl

theorem res10 (W : Valuation τ sig (Elt F)) :
    (o10 (F := F)).result W (Proc.devRef .tc main_call0_v6) = Host.exp (W (Proc.devRef .tc main_call0_v5)) := by
  refine (unary_result _ _ _ _ _ W).trans ?_
  rfl

theorem res11 (W : Valuation τ sig (Elt F)) :
    (o11 (F := F)).result W (Proc.devRef .tc main_call0_cst_1) = (constant S_ .f32 0x00000000#32) := by
  refine (nullary_result _ _ _ W).trans ?_
  rfl

theorem res12 (W : Valuation τ sig (Elt F)) :
    (o12 (F := F)).result W (Proc.devRef .tc main_call0_v7) = (fun x v => Host.reduceAdd x v reducesTo_S2x2048x50257_S2x2048_d2 h_S_) (W (Proc.devRef .tc main_call0_v6)) (W (Proc.devRef .tc main_call0_cst_1)) := by
  refine (binary_result _ _ _ _ _ _ _ W).trans ?_
  rfl

theorem res13 (W : Valuation τ sig (Elt F)) :
    (o13 (F := F)).result W (Proc.devRef .tc main_call0_v8) = (broadcastInDim S2x2048x1 ![0, 1] bcast_S2x2048_S2x2048x1_0_1) (W (Proc.devRef .tc main_call0_v7)) := by
  refine (unary_result _ _ _ _ _ W).trans ?_
  rfl

theorem res14 (W : Valuation τ sig (Elt F)) :
    (o14 (F := F)).result W (Proc.devRef .tc main_call0_v9) = Host.log (W (Proc.devRef .tc main_call0_v8)) := by
  refine (unary_result _ _ _ _ _ W).trans ?_
  rfl

theorem res15 (W : Valuation τ sig (Elt F)) :
    (o15 (F := F)).result W (Proc.devRef .tc main_call0_v10) = (broadcastInDim S2x2048x50257 ![0, 1, 2] bcast_S2x2048x1_S2x2048x50257_0_1_2) (W (Proc.devRef .tc main_call0_v9)) := by
  refine (unary_result _ _ _ _ _ W).trans ?_
  rfl

theorem res16 (W : Valuation τ sig (Elt F)) :
    (o16 (F := F)).result W (Proc.devRef .tc main_v1) = subf (W (Proc.devRef .tc main_call0_v5)) (W (Proc.devRef .tc main_call0_v10)) := by
  refine (binary_result _ _ _ _ _ _ _ W).trans ?_
  rfl

theorem res17 (W : Valuation τ sig (Elt F)) :
    (o17 (F := F)).result W (Proc.devRef .tc main_v2) = (uitofp .f32 : (⟨S2x2048, .i1⟩ : BufTy).Contents (Elt F) → (⟨S2x2048, .f32⟩ : BufTy).Contents (Elt F)) (W (Proc.devRef .tc main_arg1)) := by
  refine (unary_result _ _ _ _ _ W).trans ?_
  rfl

theorem res18 (W : Valuation τ sig (Elt F)) :
    (o18 (F := F)).result W (Proc.devRef .tc main_cst) = (constant S_ .f32 0x00000000#32) := by
  refine (nullary_result _ _ _ W).trans ?_
  rfl

theorem res19 (W : Valuation τ sig (Elt F)) :
    (o19 (F := F)).result W (Proc.devRef .tc main_v3) = ((fun x v => Host.reduceAdd x v reducesTo_S2x2048_S_d0_1 h_S_) : (⟨S2x2048, .f32⟩ : BufTy).Contents (Elt F) → (⟨S_, .f32⟩ : BufTy).Contents (Elt F) → (⟨S_, .f32⟩ : BufTy).Contents (Elt F)) (W (Proc.devRef .tc main_v2)) (W (Proc.devRef .tc main_cst)) := by
  refine (binary_result _ _ _ _ _ _ _ W).trans ?_
  rfl

theorem res20 (W : Valuation τ sig (Elt F)) :
    (o20 (F := F)).result W (Proc.devRef .tc main_v4) = (broadcastInDim S2x2048x1 ![0, 1] bcast_S2x2048_S2x2048x1_0_1 : (⟨S2x2048, .i32⟩ : BufTy).Contents (Elt F) → (⟨S2x2048x1, .i32⟩ : BufTy).Contents (Elt F)) (W (Proc.devRef .tc main_arg0)) := by
  refine (unary_result _ _ _ _ _ W).trans ?_
  rfl

theorem res21 (W : Valuation τ sig (Elt F)) :
    (o21 (F := F)).result W (Proc.devRef .tc main_call1_c) = (constantI S_ 32 0#32) := by
  refine (nullary_result _ _ _ W).trans ?_
  rfl

theorem res22 (W : Valuation τ sig (Elt F)) :
    (o22 (F := F)).result W (Proc.devRef .tc main_call1_v0) = (broadcastInDim S2x2048x1 ![] bcast_S_S2x2048x1) (W (Proc.devRef .tc main_call1_c)) := by
  refine (unary_result _ _ _ _ _ W).trans ?_
  rfl

theorem res23 (W : Valuation τ sig (Elt F)) :
    (o23 (F := F)).result W (Proc.devRef .tc main_call1_v1) = (cmpi .slt) (W (Proc.devRef .tc main_v4)) (W (Proc.devRef .tc main_call1_v0)) := by
  refine (binary_result _ _ _ _ _ _ _ W).trans ?_
  rfl

theorem res24 (W : Valuation τ sig (Elt F)) :
    (o24 (F := F)).result W (Proc.devRef .tc main_call1_c_0) = (constantI S_ 32 50257#32) := by
  refine (nullary_result _ _ _ W).trans ?_
  rfl

theorem res25 (W : Valuation τ sig (Elt F)) :
    (o25 (F := F)).result W (Proc.devRef .tc main_call1_v2) = (broadcastInDim S2x2048x1 ![] bcast_S_S2x2048x1) (W (Proc.devRef .tc main_call1_c_0)) := by
  refine (unary_result _ _ _ _ _ W).trans ?_
  rfl

theorem res26 (W : Valuation τ sig (Elt F)) :
    (o26 (F := F)).result W (Proc.devRef .tc main_call1_v3) = addi (W (Proc.devRef .tc main_v4)) (W (Proc.devRef .tc main_call1_v2)) := by
  refine (binary_result _ _ _ _ _ _ _ W).trans ?_
  rfl

theorem res27 (W : Valuation τ sig (Elt F)) :
    (o27 (F := F)).result W (Proc.devRef .tc main_call1_v4) = select (W (Proc.devRef .tc main_call1_v1)) (W (Proc.devRef .tc main_call1_v3)) (W (Proc.devRef .tc main_v4)) := by
  refine (ternary_result _ _ _ _ _ _ _ _ _ W).trans ?_
  rfl

theorem res28 (W : Valuation τ sig (Elt F)) :
    (o28 (F := F)).result W (Proc.devRef .tc main_call1_v5) = shapeCast _ (W (Proc.devRef .tc main_call1_v4)) shapeCasts_S2x2048x1_S2x2048x1x1 := by
  refine (reshape_result _ _ _ _ _ _ W).trans ?_
  rfl

theorem res29 (W : Valuation τ sig (Elt F)) :
    (o29 (F := F)).result W (Proc.devRef .tc main_call1_c_1) = (constantI S1 32 50256#32) := by
  refine (nullary_result _ _ _ W).trans ?_
  rfl

theorem res30 (W : Valuation τ sig (Elt F)) :
    (o30 (F := F)).result W (Proc.devRef .tc main_call1_c_2) = (constantI S_ 32 0#32) := by
  refine (nullary_result _ _ _ W).trans ?_
  rfl

theorem res31 (W : Valuation τ sig (Elt F)) :
    (o31 (F := F)).result W (Proc.devRef .tc main_call1_v6) = (broadcastInDim S2x2048x1x1 ![] bcast_S_S2x2048x1x1) (W (Proc.devRef .tc main_call1_c_2)) := by
  refine (unary_result _ _ _ _ _ W).trans ?_
  rfl

theorem res32 (W : Valuation τ sig (Elt F)) :
    (o32 (F := F)).result W (Proc.devRef .tc main_call1_v7) = (cmpi .sge) (W (Proc.devRef .tc main_call1_v5)) (W (Proc.devRef .tc main_call1_v6)) := by
  refine (binary_result _ _ _ _ _ _ _ W).trans ?_
  rfl

theorem res33 (W : Valuation τ sig (Elt F)) :
    (o33 (F := F)).result W (Proc.devRef .tc main_call1_v8) = (broadcastInDim S1x1x1x1 ![3] bcast_S1_S1x1x1x1_3) (W (Proc.devRef .tc main_call1_c_1)) := by
  refine (unary_result _ _ _ _ _ W).trans ?_
  rfl

theorem res34 (W : Valuation τ sig (Elt F)) :
    (o34 (F := F)).result W (Proc.devRef .tc main_call1_v9) = (broadcastInDim S2x2048x1x1 ![0, 1, 2, 3] bcast_S1x1x1x1_S2x2048x1x1_0_1_2_3) (W (Proc.devRef .tc main_call1_v8)) := by
  refine (unary_result _ _ _ _ _ W).trans ?_
  rfl

theorem res35 (W : Valuation τ sig (Elt F)) :
    (o35 (F := F)).result W (Proc.devRef .tc main_call1_v10) = (cmpi .sle) (W (Proc.devRef .tc main_call1_v5)) (W (Proc.devRef .tc main_call1_v9)) := by
  refine (binary_result _ _ _ _ _ _ _ W).trans ?_
  rfl

theorem res36 (W : Valuation τ sig (Elt F)) :
    (o36 (F := F)).result W (Proc.devRef .tc main_call1_v11) = andi (W (Proc.devRef .tc main_call1_v7)) (W (Proc.devRef .tc main_call1_v10)) := by
  refine (binary_result _ _ _ _ _ _ _ W).trans ?_
  rfl

theorem res37 (W : Valuation τ sig (Elt F)) :
    (o37 (F := F)).result W (Proc.devRef .tc main_call1_c_3) = (constantI S_ 1 1#1) := by
  refine (nullary_result _ _ _ W).trans ?_
  rfl

theorem res38 (W : Valuation τ sig (Elt F)) :
    (o38 (F := F)).result W (Proc.devRef .tc main_call1_v12) = (fun x v => Host.reduce IntOp.andi x v reducesTo_S2x2048x1x1_S2x2048x1_d3 h_S_) (W (Proc.devRef .tc main_call1_v11)) (W (Proc.devRef .tc main_call1_c_3)) := by
  refine (binary_result _ _ _ _ _ _ _ W).trans ?_
  rfl

theorem res39 (W : Valuation τ sig (Elt F)) :
    (o39 (F := F)).result W (Proc.devRef .tc main_call1_v13) = (fun x i => Host.gather gather_S2x2048x50257_S2x2048x1x1_S2x2048x1_n_2_01_01_2_3_111 x i) (W (Proc.devRef .tc main_v1)) (W (Proc.devRef .tc main_call1_v5)) := by
  refine (binary_result _ _ _ _ _ _ _ W).trans ?_
  rfl

theorem res40 (W : Valuation τ sig (Elt F)) :
    (o40 (F := F)).result W (Proc.devRef .tc main_call1_cst) = (constant S_ .f32 0x7FC00000#32) := by
  refine (nullary_result _ _ _ W).trans ?_
  rfl

theorem res41 (W : Valuation τ sig (Elt F)) :
    (o41 (F := F)).result W (Proc.devRef .tc main_call1_v14) = (broadcastInDim S2x2048x1 ![] bcast_S_S2x2048x1) (W (Proc.devRef .tc main_call1_cst)) := by
  refine (unary_result _ _ _ _ _ W).trans ?_
  rfl

theorem res42 (W : Valuation τ sig (Elt F)) :
    (o42 (F := F)).result W (Proc.devRef .tc main_v5) = select (W (Proc.devRef .tc main_call1_v12)) (W (Proc.devRef .tc main_call1_v13)) (W (Proc.devRef .tc main_call1_v14)) := by
  refine (ternary_result _ _ _ _ _ _ _ _ _ W).trans ?_
  rfl

theorem res43 (W : Valuation τ sig (Elt F)) :
    (o43 (F := F)).result W (Proc.devRef .tc main_v6) = shapeCast _ (W (Proc.devRef .tc main_v5)) shapeCasts_S2x2048x1_S2x2048 := by
  refine (reshape_result _ _ _ _ _ _ W).trans ?_
  rfl

theorem res44 (W : Valuation τ sig (Elt F)) :
    (o44 (F := F)).result W (Proc.devRef .tc main_v7) = (mulf : (⟨S2x2048, .f32⟩ : BufTy).Contents (Elt F) → (⟨S2x2048, .f32⟩ : BufTy).Contents (Elt F) → (⟨S2x2048, .f32⟩ : BufTy).Contents (Elt F)) (W (Proc.devRef .tc main_v2)) (W (Proc.devRef .tc main_v6)) := by
  refine (binary_result _ _ _ _ _ _ _ W).trans ?_
  rfl

theorem res45 (W : Valuation τ sig (Elt F)) :
    (o45 (F := F)).result W (Proc.devRef .tc main_cst_0) = (constant S_ .f32 0x00000000#32) := by
  refine (nullary_result _ _ _ W).trans ?_
  rfl

theorem res46 (W : Valuation τ sig (Elt F)) :
    (o46 (F := F)).result W (Proc.devRef .tc main_v8) = ((fun x v => Host.reduceAdd x v reducesTo_S2x2048_S_d0_1 h_S_) : (⟨S2x2048, .f32⟩ : BufTy).Contents (Elt F) → (⟨S_, .f32⟩ : BufTy).Contents (Elt F) → (⟨S_, .f32⟩ : BufTy).Contents (Elt F)) (W (Proc.devRef .tc main_v7)) (W (Proc.devRef .tc main_cst_0)) := by
  refine (binary_result _ _ _ _ _ _ _ W).trans ?_
  rfl

theorem res47 (W : Valuation τ sig (Elt F)) :
    (o47 (F := F)).result W (Proc.devRef .tc main_v9) = (Host.negf : (⟨S_, .f32⟩ : BufTy).Contents (Elt F) → (⟨S_, .f32⟩ : BufTy).Contents (Elt F)) (W (Proc.devRef .tc main_v8)) := by
  refine (unary_result _ _ _ _ _ W).trans ?_
  rfl

theorem res48 (W : Valuation τ sig (Elt F)) :
    (o48 (F := F)).result W (Proc.devRef .tc main_v10) = (Host.divf : (⟨S_, .f32⟩ : BufTy).Contents (Elt F) → (⟨S_, .f32⟩ : BufTy).Contents (Elt F) → (⟨S_, .f32⟩ : BufTy).Contents (Elt F)) (W (Proc.devRef .tc main_v9)) (W (Proc.devRef .tc main_v3)) := by
  refine (binary_result _ _ _ _ _ _ _ W).trans ?_
  rfl

theorem res49 (W : Valuation τ sig (Elt F)) :
    (o49 (F := F)).result W (Proc.devRef .tc main_cst_1) = (constant S_ .f32 0x00000000#32) := by
  refine (nullary_result _ _ _ W).trans ?_
  rfl

theorem res50 (W : Valuation τ sig (Elt F)) :
    (o50 (F := F)).result W (Proc.devRef .tc main_v11) = ((fun x v => Host.reduceAdd x v reducesTo_S2x2048x50257_S2x2048_d2 h_S_) : (⟨S2x2048x50257, .f32⟩ : BufTy).Contents (Elt F) → (⟨S_, .f32⟩ : BufTy).Contents (Elt F) → (⟨S2x2048, .f32⟩ : BufTy).Contents (Elt F)) (W (Proc.devRef .tc main_v1)) (W (Proc.devRef .tc main_cst_1)) := by
  refine (binary_result _ _ _ _ _ _ _ W).trans ?_
  rfl

theorem res51 (W : Valuation τ sig (Elt F)) :
    (o51 (F := F)).result W (Proc.devRef .tc main_v12) = (mulf : (⟨S2x2048, .f32⟩ : BufTy).Contents (Elt F) → (⟨S2x2048, .f32⟩ : BufTy).Contents (Elt F) → (⟨S2x2048, .f32⟩ : BufTy).Contents (Elt F)) (W (Proc.devRef .tc main_v2)) (W (Proc.devRef .tc main_v11)) := by
  refine (binary_result _ _ _ _ _ _ _ W).trans ?_
  rfl

theorem res52 (W : Valuation τ sig (Elt F)) :
    (o52 (F := F)).result W (Proc.devRef .tc main_cst_2) = (constant S_ .f32 0x00000000#32) := by
  refine (nullary_result _ _ _ W).trans ?_
  rfl

theorem res53 (W : Valuation τ sig (Elt F)) :
    (o53 (F := F)).result W (Proc.devRef .tc main_v13) = ((fun x v => Host.reduceAdd x v reducesTo_S2x2048_S_d0_1 h_S_) : (⟨S2x2048, .f32⟩ : BufTy).Contents (Elt F) → (⟨S_, .f32⟩ : BufTy).Contents (Elt F) → (⟨S_, .f32⟩ : BufTy).Contents (Elt F)) (W (Proc.devRef .tc main_v12)) (W (Proc.devRef .tc main_cst_2)) := by
  refine (binary_result _ _ _ _ _ _ _ W).trans ?_
  rfl

theorem res54 (W : Valuation τ sig (Elt F)) :
    (o54 (F := F)).result W (Proc.devRef .tc main_cst_3) = (constant S_ .f32 0x47445100#32) := by
  refine (nullary_result _ _ _ W).trans ?_
  rfl

theorem res55 (W : Valuation τ sig (Elt F)) :
    (o55 (F := F)).result W (Proc.devRef .tc main_v14) = (mulf : (⟨S_, .f32⟩ : BufTy).Contents (Elt F) → (⟨S_, .f32⟩ : BufTy).Contents (Elt F) → (⟨S_, .f32⟩ : BufTy).Contents (Elt F)) (W (Proc.devRef .tc main_v3)) (W (Proc.devRef .tc main_cst_3)) := by
  refine (binary_result _ _ _ _ _ _ _ W).trans ?_
  rfl

theorem res56 (W : Valuation τ sig (Elt F)) :
    (o56 (F := F)).result W (Proc.devRef .tc main_v15) = (Host.divf : (⟨S_, .f32⟩ : BufTy).Contents (Elt F) → (⟨S_, .f32⟩ : BufTy).Contents (Elt F) → (⟨S_, .f32⟩ : BufTy).Contents (Elt F)) (W (Proc.devRef .tc main_v13)) (W (Proc.devRef .tc main_v14)) := by
  refine (binary_result _ _ _ _ _ _ _ W).trans ?_
  rfl

theorem res57 (W : Valuation τ sig (Elt F)) :
    (o57 (F := F)).result W (Proc.devRef .tc main_cst_4) = (constant S_ .f32 0x3F666666#32) := by
  refine (nullary_result _ _ _ W).trans ?_
  rfl

theorem res58 (W : Valuation τ sig (Elt F)) :
    (o58 (F := F)).result W (Proc.devRef .tc main_v16) = (mulf : (⟨S_, .f32⟩ : BufTy).Contents (Elt F) → (⟨S_, .f32⟩ : BufTy).Contents (Elt F) → (⟨S_, .f32⟩ : BufTy).Contents (Elt F)) (W (Proc.devRef .tc main_v10)) (W (Proc.devRef .tc main_cst_4)) := by
  refine (binary_result _ _ _ _ _ _ _ W).trans ?_
  rfl

theorem res59 (W : Valuation τ sig (Elt F)) :
    (o59 (F := F)).result W (Proc.devRef .tc main_cst_5) = (constant S_ .f32 0x3DCCCCCD#32) := by
  refine (nullary_result _ _ _ W).trans ?_
  rfl

theorem res60 (W : Valuation τ sig (Elt F)) :
    (o60 (F := F)).result W (Proc.devRef .tc main_v17) = (mulf : (⟨S_, .f32⟩ : BufTy).Contents (Elt F) → (⟨S_, .f32⟩ : BufTy).Contents (Elt F) → (⟨S_, .f32⟩ : BufTy).Contents (Elt F)) (W (Proc.devRef .tc main_v15)) (W (Proc.devRef .tc main_cst_5)) := by
  refine (binary_result _ _ _ _ _ _ _ W).trans ?_
  rfl

theorem res61 (W : Valuation τ sig (Elt F)) :
    (o61 (F := F)).result W (Proc.devRef .tc main_v18) = (subf : (⟨S_, .f32⟩ : BufTy).Contents (Elt F) → (⟨S_, .f32⟩ : BufTy).Contents (Elt F) → (⟨S_, .f32⟩ : BufTy).Contents (Elt F)) (W (Proc.devRef .tc main_v16)) (W (Proc.devRef .tc main_v17)) := by
  refine (binary_result _ _ _ _ _ _ _ W).trans ?_
  rfl

/-! ### Operations 1 to 9 -/

theorem cA_main_call0_v5 (V : Valuation τ sig (Elt F)) (x2 : X2 F) (x3 : X3 F)
    (h_main_arg2 : V (Proc.devRef .tc main_arg2) = x2)
    (h_main_arg3 : V (Proc.devRef .tc main_arg3) = x3) :
    StableHlo.after (cA (F := F)) V (Proc.devRef .tc main_call0_v5) = ReadP.val_main_call0_v5 (F := F) x2 x3 := by
  unfold ReadP.val_main_call0_v5 ReadP.val_main_call0_v4 ReadP.val_main_call0_v3 ReadP.val_main_call0_v2 ReadP.val_main_call0_v1 ReadP.val_main_call0_cst_0 ReadP.val_main_call0_v0 ReadP.val_main_call0_cst ReadP.val_main_v0
  simp only [after_cons, after_nil]
  repeat (first | rw [res1] | rw [res2] | rw [res3] | rw [res4] | rw [res5] | rw [res6] | rw [res7] | rw [res8] | rw [res9] | (rw [nullary_result_ne]; rotate_left; decide) | (rw [unary_result_ne]; rotate_left; decide) | (rw [binary_result_ne]; rotate_left; decide) | (rw [ternary_result_ne]; rotate_left; decide) | (rw [reshape_result_ne]; rotate_left; decide))
  rw [h_main_arg2, h_main_arg3]
  all_goals rfl

theorem cA_keep_main_arg0 (V : Valuation τ sig (Elt F)) :
    StableHlo.after (cA (F := F)) V (Proc.devRef .tc main_arg0) = V (Proc.devRef .tc main_arg0) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

theorem cA_keep_main_arg1 (V : Valuation τ sig (Elt F)) :
    StableHlo.after (cA (F := F)) V (Proc.devRef .tc main_arg1) = V (Proc.devRef .tc main_arg1) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

/-! ### Operations 10 to 16 -/

theorem cB_main_v1 (V : Valuation τ sig (Elt F)) (x2 : X2 F) (x3 : X3 F)
    (h_main_call0_v5 : V (Proc.devRef .tc main_call0_v5) = ReadP.val_main_call0_v5 (F := F) x2 x3) :
    StableHlo.after (cB (F := F)) V (Proc.devRef .tc main_v1) = ReadP.val_main_v1 (F := F) x2 x3 := by
  unfold ReadP.val_main_v1 ReadP.val_main_call0_v10 ReadP.val_main_call0_v9 ReadP.val_main_call0_v8 ReadP.val_main_call0_v7 ReadP.val_main_call0_cst_1 ReadP.val_main_call0_v6
  generalize ReadP.val_main_call0_v5 (F := F) x2 x3 = t0 at h_main_call0_v5 ⊢
  simp only [after_cons, after_nil]
  repeat (first | rw [res10] | rw [res11] | rw [res12] | rw [res13] | rw [res14] | rw [res15] | rw [res16] | (rw [nullary_result_ne]; rotate_left; decide) | (rw [unary_result_ne]; rotate_left; decide) | (rw [binary_result_ne]; rotate_left; decide) | (rw [ternary_result_ne]; rotate_left; decide) | (rw [reshape_result_ne]; rotate_left; decide))
  rw [h_main_call0_v5]
  all_goals rfl

theorem cB_keep_main_arg0 (V : Valuation τ sig (Elt F)) :
    StableHlo.after (cB (F := F)) V (Proc.devRef .tc main_arg0) = V (Proc.devRef .tc main_arg0) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

theorem cB_keep_main_arg1 (V : Valuation τ sig (Elt F)) :
    StableHlo.after (cB (F := F)) V (Proc.devRef .tc main_arg1) = V (Proc.devRef .tc main_arg1) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

/-! ### Operations 17 to 20 -/

theorem cC_main_v2 (V : Valuation τ sig (Elt F)) (x1 : X1 F)
    (h_main_arg1 : V (Proc.devRef .tc main_arg1) = x1) :
    StableHlo.after (cC (F := F)) V (Proc.devRef .tc main_v2) = ReadP.val_main_v2 (F := F) x1 := by
  unfold ReadP.val_main_v2
  simp only [after_cons, after_nil]
  repeat (first | rw [res17] | rw [res18] | rw [res19] | rw [res20] | (rw [nullary_result_ne]; rotate_left; decide) | (rw [unary_result_ne]; rotate_left; decide) | (rw [binary_result_ne]; rotate_left; decide) | (rw [ternary_result_ne]; rotate_left; decide) | (rw [reshape_result_ne]; rotate_left; decide))
  rw [h_main_arg1]
  all_goals rfl

theorem cC_main_v3 (V : Valuation τ sig (Elt F)) (x1 : X1 F)
    (h_main_arg1 : V (Proc.devRef .tc main_arg1) = x1) :
    StableHlo.after (cC (F := F)) V (Proc.devRef .tc main_v3) = ReadP.val_main_v3 (F := F) x1 := by
  unfold ReadP.val_main_v3 ReadP.val_main_cst ReadP.val_main_v2
  simp only [after_cons, after_nil]
  repeat (first | rw [res17] | rw [res18] | rw [res19] | rw [res20] | (rw [nullary_result_ne]; rotate_left; decide) | (rw [unary_result_ne]; rotate_left; decide) | (rw [binary_result_ne]; rotate_left; decide) | (rw [ternary_result_ne]; rotate_left; decide) | (rw [reshape_result_ne]; rotate_left; decide))
  rw [h_main_arg1]
  all_goals rfl

theorem cC_main_v4 (V : Valuation τ sig (Elt F)) (x0 : X0 F)
    (h_main_arg0 : V (Proc.devRef .tc main_arg0) = x0) :
    StableHlo.after (cC (F := F)) V (Proc.devRef .tc main_v4) = ReadP.val_main_v4 (F := F) x0 := by
  unfold ReadP.val_main_v4
  simp only [after_cons, after_nil]
  repeat (first | rw [res17] | rw [res18] | rw [res19] | rw [res20] | (rw [nullary_result_ne]; rotate_left; decide) | (rw [unary_result_ne]; rotate_left; decide) | (rw [binary_result_ne]; rotate_left; decide) | (rw [ternary_result_ne]; rotate_left; decide) | (rw [reshape_result_ne]; rotate_left; decide))
  rw [h_main_arg0]
  all_goals rfl

theorem cC_keep_main_v1 (V : Valuation τ sig (Elt F)) :
    StableHlo.after (cC (F := F)) V (Proc.devRef .tc main_v1) = V (Proc.devRef .tc main_v1) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

/-! ### Operations 21 to 28 -/

theorem cD_main_call1_v5 (V : Valuation τ sig (Elt F)) (x0 : X0 F)
    (h_main_v4 : V (Proc.devRef .tc main_v4) = ReadP.val_main_v4 (F := F) x0) :
    StableHlo.after (cD (F := F)) V (Proc.devRef .tc main_call1_v5) = ReadP.val_main_call1_v5 (F := F) x0 := by
  unfold ReadP.val_main_call1_v5 ReadP.val_main_call1_v4 ReadP.val_main_call1_v3 ReadP.val_main_call1_v2 ReadP.val_main_call1_c_0 ReadP.val_main_call1_v1 ReadP.val_main_call1_v0 ReadP.val_main_call1_c
  generalize ReadP.val_main_v4 (F := F) x0 = t0 at h_main_v4 ⊢
  simp only [after_cons, after_nil]
  repeat (first | rw [res21] | rw [res22] | rw [res23] | rw [res24] | rw [res25] | rw [res26] | rw [res27] | rw [res28] | (rw [nullary_result_ne]; rotate_left; decide) | (rw [unary_result_ne]; rotate_left; decide) | (rw [binary_result_ne]; rotate_left; decide) | (rw [ternary_result_ne]; rotate_left; decide) | (rw [reshape_result_ne]; rotate_left; decide))
  rw [h_main_v4]
  all_goals rfl

theorem cD_keep_main_v1 (V : Valuation τ sig (Elt F)) :
    StableHlo.after (cD (F := F)) V (Proc.devRef .tc main_v1) = V (Proc.devRef .tc main_v1) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

theorem cD_keep_main_v2 (V : Valuation τ sig (Elt F)) :
    StableHlo.after (cD (F := F)) V (Proc.devRef .tc main_v2) = V (Proc.devRef .tc main_v2) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

theorem cD_keep_main_v3 (V : Valuation τ sig (Elt F)) :
    StableHlo.after (cD (F := F)) V (Proc.devRef .tc main_v3) = V (Proc.devRef .tc main_v3) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

/-! ### Operations 29 to 38 -/

theorem cE_main_call1_v12 (V : Valuation τ sig (Elt F)) (x0 : X0 F)
    (h_main_call1_v5 : V (Proc.devRef .tc main_call1_v5) = ReadP.val_main_call1_v5 (F := F) x0) :
    StableHlo.after (cE (F := F)) V (Proc.devRef .tc main_call1_v12) = ReadP.val_main_call1_v12 (F := F) x0 := by
  unfold ReadP.val_main_call1_v12 ReadP.val_main_call1_c_3 ReadP.val_main_call1_v11 ReadP.val_main_call1_v10 ReadP.val_main_call1_v9 ReadP.val_main_call1_v8 ReadP.val_main_call1_v7 ReadP.val_main_call1_v6 ReadP.val_main_call1_c_2 ReadP.val_main_call1_c_1
  generalize ReadP.val_main_call1_v5 (F := F) x0 = t0 at h_main_call1_v5 ⊢
  simp only [after_cons, after_nil]
  repeat (first | rw [res29] | rw [res30] | rw [res31] | rw [res32] | rw [res33] | rw [res34] | rw [res35] | rw [res36] | rw [res37] | rw [res38] | (rw [nullary_result_ne]; rotate_left; decide) | (rw [unary_result_ne]; rotate_left; decide) | (rw [binary_result_ne]; rotate_left; decide) | (rw [ternary_result_ne]; rotate_left; decide) | (rw [reshape_result_ne]; rotate_left; decide))
  rw [h_main_call1_v5]
  all_goals rfl

theorem cE_keep_main_v1 (V : Valuation τ sig (Elt F)) :
    StableHlo.after (cE (F := F)) V (Proc.devRef .tc main_v1) = V (Proc.devRef .tc main_v1) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

theorem cE_keep_main_v2 (V : Valuation τ sig (Elt F)) :
    StableHlo.after (cE (F := F)) V (Proc.devRef .tc main_v2) = V (Proc.devRef .tc main_v2) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

theorem cE_keep_main_v3 (V : Valuation τ sig (Elt F)) :
    StableHlo.after (cE (F := F)) V (Proc.devRef .tc main_v3) = V (Proc.devRef .tc main_v3) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

theorem cE_keep_main_call1_v5 (V : Valuation τ sig (Elt F)) :
    StableHlo.after (cE (F := F)) V (Proc.devRef .tc main_call1_v5) = V (Proc.devRef .tc main_call1_v5) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

/-! ### Operations 39 to 43 -/

theorem cF_main_v6 (V : Valuation τ sig (Elt F)) (x0 : X0 F) (x2 : X2 F) (x3 : X3 F)
    (h_main_call1_v12 : V (Proc.devRef .tc main_call1_v12) = ReadP.val_main_call1_v12 (F := F) x0)
    (h_main_v1 : V (Proc.devRef .tc main_v1) = ReadP.val_main_v1 (F := F) x2 x3)
    (h_main_call1_v5 : V (Proc.devRef .tc main_call1_v5) = ReadP.val_main_call1_v5 (F := F) x0) :
    StableHlo.after (cF (F := F)) V (Proc.devRef .tc main_v6) = ReadP.val_main_v6 (F := F) x0 x2 x3 := by
  unfold ReadP.val_main_v6 ReadP.val_main_v5 ReadP.val_main_call1_v14 ReadP.val_main_call1_cst ReadP.val_main_call1_v13
  generalize ReadP.val_main_call1_v12 (F := F) x0 = t0 at h_main_call1_v12 ⊢
  generalize ReadP.val_main_v1 (F := F) x2 x3 = t1 at h_main_v1 ⊢
  generalize ReadP.val_main_call1_v5 (F := F) x0 = t2 at h_main_call1_v5 ⊢
  simp only [after_cons, after_nil]
  repeat (first | rw [res39] | rw [res40] | rw [res41] | rw [res42] | rw [res43] | (rw [nullary_result_ne]; rotate_left; decide) | (rw [unary_result_ne]; rotate_left; decide) | (rw [binary_result_ne]; rotate_left; decide) | (rw [ternary_result_ne]; rotate_left; decide) | (rw [reshape_result_ne]; rotate_left; decide))
  rw [h_main_call1_v12, h_main_v1, h_main_call1_v5]
  all_goals rfl

theorem cF_keep_main_v1 (V : Valuation τ sig (Elt F)) :
    StableHlo.after (cF (F := F)) V (Proc.devRef .tc main_v1) = V (Proc.devRef .tc main_v1) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

theorem cF_keep_main_v2 (V : Valuation τ sig (Elt F)) :
    StableHlo.after (cF (F := F)) V (Proc.devRef .tc main_v2) = V (Proc.devRef .tc main_v2) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

theorem cF_keep_main_v3 (V : Valuation τ sig (Elt F)) :
    StableHlo.after (cF (F := F)) V (Proc.devRef .tc main_v3) = V (Proc.devRef .tc main_v3) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

/-! ### Operations 44 to 48 -/

theorem cG_main_v10 (V : Valuation τ sig (Elt F)) (x0 : X0 F) (x1 : X1 F) (x2 : X2 F) (x3 : X3 F)
    (h_main_v2 : V (Proc.devRef .tc main_v2) = ReadP.val_main_v2 (F := F) x1)
    (h_main_v6 : V (Proc.devRef .tc main_v6) = ReadP.val_main_v6 (F := F) x0 x2 x3)
    (h_main_v3 : V (Proc.devRef .tc main_v3) = ReadP.val_main_v3 (F := F) x1) :
    StableHlo.after (cG (F := F)) V (Proc.devRef .tc main_v10) = ReadP.val_main_v10 (F := F) x0 x1 x2 x3 := by
  unfold ReadP.val_main_v10 ReadP.val_main_v9 ReadP.val_main_v8 ReadP.val_main_cst_0 ReadP.val_main_v7
  generalize ReadP.val_main_v2 (F := F) x1 = t0 at h_main_v2 ⊢
  generalize ReadP.val_main_v6 (F := F) x0 x2 x3 = t1 at h_main_v6 ⊢
  generalize ReadP.val_main_v3 (F := F) x1 = t2 at h_main_v3 ⊢
  simp only [after_cons, after_nil]
  repeat (first | rw [res44] | rw [res45] | rw [res46] | rw [res47] | rw [res48] | (rw [nullary_result_ne]; rotate_left; decide) | (rw [unary_result_ne]; rotate_left; decide) | (rw [binary_result_ne]; rotate_left; decide) | (rw [ternary_result_ne]; rotate_left; decide) | (rw [reshape_result_ne]; rotate_left; decide))
  rw [h_main_v2, h_main_v6, h_main_v3]
  all_goals rfl

theorem cG_keep_main_v1 (V : Valuation τ sig (Elt F)) :
    StableHlo.after (cG (F := F)) V (Proc.devRef .tc main_v1) = V (Proc.devRef .tc main_v1) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

theorem cG_keep_main_v2 (V : Valuation τ sig (Elt F)) :
    StableHlo.after (cG (F := F)) V (Proc.devRef .tc main_v2) = V (Proc.devRef .tc main_v2) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

theorem cG_keep_main_v3 (V : Valuation τ sig (Elt F)) :
    StableHlo.after (cG (F := F)) V (Proc.devRef .tc main_v3) = V (Proc.devRef .tc main_v3) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

/-! ### Operations 49 to 56 -/

theorem cH_main_v15 (V : Valuation τ sig (Elt F)) (x1 : X1 F) (x2 : X2 F) (x3 : X3 F)
    (h_main_v2 : V (Proc.devRef .tc main_v2) = ReadP.val_main_v2 (F := F) x1)
    (h_main_v1 : V (Proc.devRef .tc main_v1) = ReadP.val_main_v1 (F := F) x2 x3)
    (h_main_v3 : V (Proc.devRef .tc main_v3) = ReadP.val_main_v3 (F := F) x1) :
    StableHlo.after (cH (F := F)) V (Proc.devRef .tc main_v15) = ReadP.val_main_v15 (F := F) x1 x2 x3 := by
  unfold ReadP.val_main_v15 ReadP.val_main_v14 ReadP.val_main_cst_3 ReadP.val_main_v13 ReadP.val_main_cst_2 ReadP.val_main_v12 ReadP.val_main_v11 ReadP.val_main_cst_1
  generalize ReadP.val_main_v2 (F := F) x1 = t0 at h_main_v2 ⊢
  generalize ReadP.val_main_v1 (F := F) x2 x3 = t1 at h_main_v1 ⊢
  generalize ReadP.val_main_v3 (F := F) x1 = t2 at h_main_v3 ⊢
  simp only [after_cons, after_nil]
  repeat (first | rw [res49] | rw [res50] | rw [res51] | rw [res52] | rw [res53] | rw [res54] | rw [res55] | rw [res56] | (rw [nullary_result_ne]; rotate_left; decide) | (rw [unary_result_ne]; rotate_left; decide) | (rw [binary_result_ne]; rotate_left; decide) | (rw [ternary_result_ne]; rotate_left; decide) | (rw [reshape_result_ne]; rotate_left; decide))
  rw [h_main_v2, h_main_v1, h_main_v3]
  all_goals rfl

theorem cH_keep_main_v10 (V : Valuation τ sig (Elt F)) :
    StableHlo.after (cH (F := F)) V (Proc.devRef .tc main_v10) = V (Proc.devRef .tc main_v10) := by
  simp only [after_cons, after_nil]
  repeat (first | (rw [nullary_result_ne]; rotate_left; decide) | (rw [unary_result_ne]; rotate_left; decide) | (rw [binary_result_ne]; rotate_left; decide) | (rw [ternary_result_ne]; rotate_left; decide) | (rw [reshape_result_ne]; rotate_left; decide))

/-! ### Operations 57 to 61 -/

theorem cI_main_v18 (V : Valuation τ sig (Elt F)) (x0 : X0 F) (x1 : X1 F) (x2 : X2 F) (x3 : X3 F)
    (h_main_v10 : V (Proc.devRef .tc main_v10) = ReadP.val_main_v10 (F := F) x0 x1 x2 x3)
    (h_main_v15 : V (Proc.devRef .tc main_v15) = ReadP.val_main_v15 (F := F) x1 x2 x3) :
    StableHlo.after (cI (F := F)) V (Proc.devRef .tc main_v18) = ReadP.val_main_v18 (F := F) x0 x1 x2 x3 := by
  unfold ReadP.val_main_v18 ReadP.val_main_v17 ReadP.val_main_cst_5 ReadP.val_main_v16 ReadP.val_main_cst_4
  generalize ReadP.val_main_v10 (F := F) x0 x1 x2 x3 = t0 at h_main_v10 ⊢
  generalize ReadP.val_main_v15 (F := F) x1 x2 x3 = t1 at h_main_v15 ⊢
  simp only [after_cons, after_nil]
  repeat (first | rw [res57] | rw [res58] | rw [res59] | rw [res60] | rw [res61] | (rw [nullary_result_ne]; rotate_left; decide) | (rw [unary_result_ne]; rotate_left; decide) | (rw [binary_result_ne]; rotate_left; decide) | (rw [ternary_result_ne]; rotate_left; decide) | (rw [reshape_result_ne]; rotate_left; decide))
  rw [h_main_v10, h_main_v15]
  all_goals rfl

/-- After all 61 operations the result buffer holds the last stage's value of the four arguments. -/
theorem result_eq (m : (ℓ : Loc nD τ sig) → Buf (Elt F) ℓ) (c : Dev nD) :
    StableHlo.after (ValueP.ops (F := F)) (launchContents m c) (Proc.devRef .tc main_v18)
      = ReadP.val_main_v18 (F := F) (m ((c.tc : Thread nD τ).loc main_arg0)) (m ((c.tc : Thread nD τ).loc main_arg1))
          (m ((c.tc : Thread nD τ).loc main_arg2)) (m ((c.tc : Thread nD τ).loc main_arg3)) := by
  have e : StableHlo.after (ValueP.ops (F := F)) (launchContents m c)
      = StableHlo.after cI (StableHlo.after cH (StableHlo.after cG (StableHlo.after cF (StableHlo.after cE
          (StableHlo.after cD (StableHlo.after cC (StableHlo.after cB (StableHlo.after cA (launchContents m c))))))))) := by
    rw [ops_eq]
    simp only [after_append]
  rw [e]
  have i0 : launchContents m c (Proc.devRef .tc main_arg0) = m ((c.tc : Thread nD τ).loc main_arg0) := rfl
  have i1 : launchContents m c (Proc.devRef .tc main_arg1) = m ((c.tc : Thread nD τ).loc main_arg1) := rfl
  have i2 : launchContents m c (Proc.devRef .tc main_arg2) = m ((c.tc : Thread nD τ).loc main_arg2) := rfl
  have i3 : launchContents m c (Proc.devRef .tc main_arg3) = m ((c.tc : Thread nD τ).loc main_arg3) := rfl
  have A_main_call0_v5 := cA_main_call0_v5 (V := _) (h_main_arg2 := i2) (h_main_arg3 := i3)
  have A_main_arg0 := (cA_keep_main_arg0 _).trans i0
  have A_main_arg1 := (cA_keep_main_arg1 _).trans i1
  have B_main_v1 := cB_main_v1 (V := _) (h_main_call0_v5 := A_main_call0_v5)
  have B_main_arg0 := (cB_keep_main_arg0 _).trans A_main_arg0
  have B_main_arg1 := (cB_keep_main_arg1 _).trans A_main_arg1
  have C_main_v2 := cC_main_v2 (V := _) (h_main_arg1 := B_main_arg1)
  have C_main_v3 := cC_main_v3 (V := _) (h_main_arg1 := B_main_arg1)
  have C_main_v4 := cC_main_v4 (V := _) (h_main_arg0 := B_main_arg0)
  have C_main_v1 := (cC_keep_main_v1 _).trans B_main_v1
  have D_main_call1_v5 := cD_main_call1_v5 (V := _) (h_main_v4 := C_main_v4)
  have D_main_v1 := (cD_keep_main_v1 _).trans C_main_v1
  have D_main_v2 := (cD_keep_main_v2 _).trans C_main_v2
  have D_main_v3 := (cD_keep_main_v3 _).trans C_main_v3
  have E_main_call1_v12 := cE_main_call1_v12 (V := _) (h_main_call1_v5 := D_main_call1_v5)
  have E_main_v1 := (cE_keep_main_v1 _).trans D_main_v1
  have E_main_v2 := (cE_keep_main_v2 _).trans D_main_v2
  have E_main_v3 := (cE_keep_main_v3 _).trans D_main_v3
  have E_main_call1_v5 := (cE_keep_main_call1_v5 _).trans D_main_call1_v5
  have F_main_v6 := cF_main_v6 (V := _) (h_main_call1_v12 := E_main_call1_v12) (h_main_v1 := E_main_v1) (h_main_call1_v5 := E_main_call1_v5)
  have F_main_v1 := (cF_keep_main_v1 _).trans E_main_v1
  have F_main_v2 := (cF_keep_main_v2 _).trans E_main_v2
  have F_main_v3 := (cF_keep_main_v3 _).trans E_main_v3
  have G_main_v10 := cG_main_v10 (V := _) (h_main_v2 := F_main_v2) (h_main_v6 := F_main_v6) (h_main_v3 := F_main_v3)
  have G_main_v1 := (cG_keep_main_v1 _).trans F_main_v1
  have G_main_v2 := (cG_keep_main_v2 _).trans F_main_v2
  have G_main_v3 := (cG_keep_main_v3 _).trans F_main_v3
  have H_main_v15 := cH_main_v15 (V := _) (h_main_v2 := G_main_v2) (h_main_v1 := G_main_v1) (h_main_v3 := G_main_v3)
  have H_main_v10 := (cH_keep_main_v10 _).trans G_main_v10
  exact cI_main_v18 (V := _) (h_main_v10 := H_main_v10) (h_main_v15 := H_main_v15)

/-- The reference runs, ends with its result at the last stage's value, and leaves its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
        = ReadP.val_main_v18 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq m c), (h c).2⟩) (ValueP.run_raw m ρ)

end Cert.ReferenceIdeal.RefRun

end
-- ==== Proof.RefRow.lean ====
/-
  One token's row of the reference, free of any program: with the row's maximum `Mr` subtracted, the
  log-softmax entry is `(x v - Mr) - log (0 + ∑ exp (x u - Mr))`. For real logits this is `x v` minus the
  row's log-sum-exp, and the entries sum to `∑ x - 50257 · lse`: the same two numbers the tiled fold leaves.
-/
import proofs.«431461_j16569983828129_2_alg».proof.Proof.FoldDefs
import Mathlib.Data.Finset.Fold
import Mathlib.Data.Finset.Lattice.Fold
import Mathlib.Data.EReal.Operations
import Mathlib.Algebra.BigOperators.Group.Finset.Basic
import Mathlib.Algebra.Order.BigOperators.Group.Finset
import Mathlib.Analysis.SpecialFunctions.Exp

noncomputable section

namespace Cert.RefRow

open Idealize.ShloMosaic Cert.SoftmaxFold

/-- A finite sum of coerced reals is the coerced sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The coercion of a nonempty finite supremum of reals is the supremum of the coercions. -/
theorem coe_sup' {ι : Type*} (s : Finset ι) (hs : s.Nonempty) (f : ι → ℝ) :
    ((s.sup' hs f : ℝ) : EReal) = s.sup' hs (fun i => ((f i : ℝ) : EReal)) :=
  Finset.comp_sup'_eq_sup'_comp hs (fun r : ℝ => (r : EReal)) (fun a b => EReal.coe_strictMono.monotone.map_sup a b)

/-- The row's maximum, with the row's non-emptiness stated as such. -/
theorem rowMax_eq (xr : ℕ → ℝ) :
    rowMax xr = (Finset.univ : Finset (Fin 50257)).sup' Finset.univ_nonempty (fun v => xr v.val) := rfl

/-- The row's sum of exponentials is positive: every term is, and the row is not empty. -/
theorem rowZ_pos (xr : ℕ → ℝ) : 0 < rowZ xr := by
  unfold rowZ
  exact Finset.sum_pos (fun v _ => Real.exp_pos _) ⟨0, Finset.mem_univ _⟩

/-- The maximum of a row of reals, as a fold of `max` from `⊥` over the extended reals. -/
theorem fold_max_eq (xr : ℕ → ℝ) (x : Fin 50257 → EReal) (hx : ∀ v, x v = ((xr v.val : ℝ) : EReal)) :
    (Finset.univ : Finset (Fin 50257)).fold max ⊥ x = ((rowMax xr : ℝ) : EReal) := by
  refine eq_of_forall_ge_iff (fun c => ?_)
  rw [Finset.fold_max_le, rowMax_eq, coe_sup', Finset.sup'_le_iff]
  constructor
  · rintro ⟨_, h⟩ v hv
    rw [← hx v]
    exact h v hv
  · intro h
    refine ⟨bot_le, fun v hv => ?_⟩
    rw [hx v]
    exact h v hv

/-- The sum of exponentials of a row of reals with its maximum subtracted. -/
theorem sum_exp_eq (xr : ℕ → ℝ) (x : Fin 50257 → EReal) (hx : ∀ v, x v = ((xr v.val : ℝ) : EReal))
    (Mr : EReal) (hM : Mr = ((rowMax xr : ℝ) : EReal)) :
    (0 : EReal) + ∑ u : Fin 50257, Ideal.exp (x u - Mr) = ((rowZ xr : ℝ) : EReal) := by
  have h : ∀ u : Fin 50257, Ideal.exp (x u - Mr) = ((Real.exp (xr u.val - rowMax xr) : ℝ) : EReal) := by
    intro u
    rw [hx u, hM, ← EReal.coe_sub, Ideal.exp_coe]
  rw [zero_add, Finset.sum_congr rfl (fun u _ => h u), coe_sum]
  rfl

/-- A log-softmax entry of a row of reals. -/
theorem logp_eq (xr : ℕ → ℝ) (x : Fin 50257 → EReal) (hx : ∀ v, x v = ((xr v.val : ℝ) : EReal))
    (Mr : EReal) (hM : Mr = ((rowMax xr : ℝ) : EReal)) (v : Fin 50257) :
    (x v - Mr) - Ideal.log (0 + ∑ u : Fin 50257, Ideal.exp (x u - Mr)) = ((tokR xr v.val : ℝ) : EReal) := by
  rw [sum_exp_eq xr x hx Mr hM, Ideal.log_coe, if_neg (not_le.mpr (rowZ_pos xr)), hx v, hM,
    ← EReal.coe_sub, ← EReal.coe_sub]
  refine congrArg _ ?_
  unfold tokR rowLse
  ring

/-- The sum of a row's log-softmax entries. -/
theorem sum_logp_eq (xr : ℕ → ℝ) (x : Fin 50257 → EReal) (hx : ∀ v, x v = ((xr v.val : ℝ) : EReal))
    (Mr : EReal) (hM : Mr = ((rowMax xr : ℝ) : EReal)) :
    0 + ∑ v : Fin 50257, ((x v - Mr) - Ideal.log (0 + ∑ u : Fin 50257, Ideal.exp (x u - Mr)))
      = ((sumR xr : ℝ) : EReal) := by
  rw [zero_add, Finset.sum_congr rfl (fun v _ => logp_eq xr x hx Mr hM v), coe_sum]
  refine congrArg _ ?_
  unfold sumR tokR
  rw [Finset.sum_sub_distrib, Finset.sum_const, Finset.card_univ, Fintype.card_fin, nsmul_eq_mul]
  norm_num

end Cert.RefRow

end
-- ==== Proof.RefValue.lean ====
/-
  The reference, token by token: under the precondition the row of logits of token `(p, s)` is real, its log-softmax
  entry at the label is `x_label - lse` and the row's entries sum to `∑ x - 50257 · lse`.
-/
import proofs.«431461_j16569983828129_2_alg».proof.Proof.RefReadP
import proofs.«431461_j16569983828129_2_alg».proof.Proof.RefRow
import proofs.«431461_j16569983828129_2_alg».proof.Proof.PreFacts
import proofs.«431461_j16569983828129_2_alg».proof.Proof.Logits

noncomputable section

open Idealize.ShloMosaic

namespace Cert.ReferenceIdeal.RefValue

open Cert.ReferenceIdeal Cert.ReferenceIdeal.Gen Cert.SoftmaxFold Cert.Logits ValueIdx

variable [Cert.Pre_finite_inputs.Facts]

/-! ## The row of logits is real -/

/-- The left operand of the logit at `(p, s, v)`, term `k`: the activation at `(p, s, k)`. -/
theorem lidx_eq (p : Fin 2) (s : Fin 2048) (v : Fin 50257) (k : Fin 1024) :
    ReadP.lidx_main_v0 (ix3 p s v) k = ix3 p s k := by
  funext a
  match a with
  | ⟨0, _⟩ => rfl
  | ⟨1, _⟩ => rfl
  | ⟨2, _⟩ => rfl

/-- The right operand of the logit at `(p, s, v)`, term `k`: the weight at `(v, k)`. -/
theorem ridx_eq (p : Fin 2) (s : Fin 2048) (v : Fin 50257) (k : Fin 1024) :
    ReadP.ridx_main_v0 (ix3 p s v) k = ix2 v k := by
  funext a
  match a with
  | ⟨0, _⟩ => rfl
  | ⟨1, _⟩ => rfl

section Row
variable (a0 : IVec S2x2048 32) (a1 : IVec S2x2048 1) (a2 : FVec Ideal S2x2048x1024 .f32) (a3 : FVec Ideal S50257x1024 .f32)
  (h : Cert.Pre_finite_inputs.fn (F := Ideal) a0 a1 a2 a3 = fun _ => 1#1) (p : Fin 2) (s : Fin 2048)
include h

/-- Under the precondition the reference's logit at `(p, s, v)` is the real logit. -/
theorem logit_real (v : Fin 50257) :
    ReadP.val_main_v0 (F := Ideal) a2 a3 (ix3 p s v) = ((logitR a2 a3 p s v.val : ℝ) : EReal) := by
  rw [ReadP.val_main_v0_apply]
  unfold logitR
  rw [dif_pos v.isLt, ← Cert.RefRow.coe_sum]
  refine Finset.sum_congr rfl fun k _ => ?_
  rw [lidx_eq, ridx_eq, EReal.coe_mul]
  obtain ⟨r2, e2⟩ := Cert.PreFacts.outputs_real a0 a1 a2 a3 h (ix3 p s k)
  obtain ⟨r3, e3⟩ := Cert.PreFacts.weights_real a0 a1 a2 a3 h (ix2 v k)
  rw [e2, e3, EReal.toReal_coe, EReal.toReal_coe]

end Row

/-- The word `0xFF800000` denotes `⊥`. -/
theorem neg_inf_eq : Ideal.ofBits .f32 0xFF800000#32 = (⊥ : EReal) := by
  simp [Ideal.ofBits, Ideal.ieee]

section Row2
variable (a0 : IVec S2x2048 32) (a1 : IVec S2x2048 1) (a2 : FVec Ideal S2x2048x1024 .f32) (a3 : FVec Ideal S50257x1024 .f32)
  (h : Cert.Pre_finite_inputs.fn (F := Ideal) a0 a1 a2 a3 = fun _ => 1#1) (p : Fin 2) (s : Fin 2048)
include h

/-- The reference's row maximum at token `(p, s)` is the real row's maximum. -/
theorem rowmax_real :
    ReadP.val_main_call0_v2 (F := Ideal) a2 a3 (ix2 p s) = ((rowMax (logitR a2 a3 p s) : ℝ) : EReal) := by
  rw [ReadP.val_main_call0_v2_apply, ReadP.val_main_call0_v1_apply, ReadP.val_main_call0_cst_0_apply]
  rw [Ideal.maximumf_def, Ideal.ofBits_def, neg_inf_eq, max_eq_right bot_le]
  unfold ReadP.val_main_call0_v0
  rw [Host.reduce_eq_fold_single FloatOps.maximumf _ _ reducesTo_S2x2048x50257_S2x2048_d2 (by decide) h_S_ (ix2 p s)]
  refine Eq.trans ?_ (Cert.RefRow.fold_max_eq (logitR a2 a3 p s) (fun v => ReadP.val_main_v0 (F := Ideal) a2 a3 (ix3 p s v))
    (fun v => logit_real a0 a1 a2 a3 h p s v))
  rw [ReadP.val_main_call0_cst_apply, Ideal.ofBits_def, neg_inf_eq]
  refine congrArg (fun g => Finset.fold max ⊥ g Finset.univ) (funext fun k => congrArg (ReadP.val_main_v0 (F := Ideal) a2 a3) ?_)
  funext a
  match a with
  | ⟨0, _⟩ => rfl
  | ⟨1, _⟩ => rfl
  | ⟨2, _⟩ => rfl

end Row2

/-! ## The log-softmax entry, stage by stage -/

/-- The row maximum broadcast back over the row is read at the token. -/
theorem idx_v3_v4 (p : Fin 2) (s : Fin 2048) (v : Fin 50257) :
    ReadP.idx_main_call0_v3 (ReadP.idx_main_call0_v4 (ix3 p s v)) = ix2 p s := by
  funext a
  match a with
  | ⟨0, _⟩ => rfl
  | ⟨1, _⟩ => rfl

/-- The row's log-sum broadcast back over the row is read at the token. -/
theorem idx_v8_v10 (p : Fin 2) (s : Fin 2048) (v : Fin 50257) :
    ReadP.idx_main_call0_v8 (ReadP.idx_main_call0_v10 (ix3 p s v)) = ix2 p s := by
  funext a
  match a with
  | ⟨0, _⟩ => rfl
  | ⟨1, _⟩ => rfl

/-- Term `u` of the row's sum of exponentials is read at `(p, s, u)`. -/
theorem idx_v7 (p : Fin 2) (s : Fin 2048) (u : Fin 50257) :
    ReadP.idx_main_call0_v7 (ix2 p s) u = ix3 p s u := by
  funext a
  match a with
  | ⟨0, _⟩ => rfl
  | ⟨1, _⟩ => rfl
  | ⟨2, _⟩ => rfl

/-- Term `u` of the sum of the row's entries is read at `(p, s, u)`. -/
theorem idx_v11 (p : Fin 2) (s : Fin 2048) (u : Fin 50257) :
    ReadP.idx_main_v11 (ix2 p s) u = ix3 p s u := by
  funext a
  match a with
  | ⟨0, _⟩ => rfl
  | ⟨1, _⟩ => rfl
  | ⟨2, _⟩ => rfl

/-- The logit with the row maximum subtracted. -/
theorem shifted_apply (a2 : FVec Ideal S2x2048x1024 .f32) (a3 : FVec Ideal S50257x1024 .f32) (p : Fin 2) (s : Fin 2048) (v : Fin 50257) :
    ReadP.val_main_call0_v5 (F := Ideal) a2 a3 (ix3 p s v)
      = ReadP.val_main_v0 (F := Ideal) a2 a3 (ix3 p s v) - ReadP.val_main_call0_v2 (F := Ideal) a2 a3 (ix2 p s) := by
  rw [ReadP.val_main_call0_v5_apply, ReadP.val_main_call0_v4_apply, ReadP.val_main_call0_v3_apply, idx_v3_v4, Ideal.subf_def]

/-- The row's sum of exponentials. -/
theorem expsum_apply (a2 : FVec Ideal S2x2048x1024 .f32) (a3 : FVec Ideal S50257x1024 .f32) (p : Fin 2) (s : Fin 2048) :
    ReadP.val_main_call0_v7 (F := Ideal) a2 a3 (ix2 p s)
      = 0 + ∑ u : Fin 50257, Ideal.exp (ReadP.val_main_v0 (F := Ideal) a2 a3 (ix3 p s u) - ReadP.val_main_call0_v2 (F := Ideal) a2 a3 (ix2 p s)) := by
  rw [ReadP.val_main_call0_v7_apply, ReadP.val_main_call0_cst_1_apply, Ideal.ofBits_def, Ideal.ofBits_zero_f32]
  refine congrArg (0 + ·) (Finset.sum_congr rfl fun u _ => ?_)
  rw [idx_v7, ReadP.val_main_call0_v6_apply, Ideal.hostUnary_exp_def, shifted_apply]

/-- The log-softmax entry at `(p, s, v)`: the shifted logit minus the logarithm of the row's sum of exponentials. -/
theorem entry_apply (a2 : FVec Ideal S2x2048x1024 .f32) (a3 : FVec Ideal S50257x1024 .f32) (p : Fin 2) (s : Fin 2048) (v : Fin 50257) :
    ReadP.val_main_v1 (F := Ideal) a2 a3 (ix3 p s v)
      = (ReadP.val_main_v0 (F := Ideal) a2 a3 (ix3 p s v) - ReadP.val_main_call0_v2 (F := Ideal) a2 a3 (ix2 p s))
        - Ideal.log (0 + ∑ u : Fin 50257, Ideal.exp (ReadP.val_main_v0 (F := Ideal) a2 a3 (ix3 p s u) - ReadP.val_main_call0_v2 (F := Ideal) a2 a3 (ix2 p s))) := by
  rw [ReadP.val_main_v1_apply, shifted_apply, ReadP.val_main_call0_v10_apply, ReadP.val_main_call0_v9_apply,
    ReadP.val_main_call0_v8_apply, idx_v8_v10, expsum_apply, Ideal.hostUnary_log_def, Ideal.subf_def]

section Row3
variable (a0 : IVec S2x2048 32) (a1 : IVec S2x2048 1) (a2 : FVec Ideal S2x2048x1024 .f32) (a3 : FVec Ideal S50257x1024 .f32)
  (h : Cert.Pre_finite_inputs.fn (F := Ideal) a0 a1 a2 a3 = fun _ => 1#1) (p : Fin 2) (s : Fin 2048)
include h

/-- Under the precondition the log-softmax entry at `(p, s, v)` is the real row's. -/
theorem entry_real (v : Fin 50257) :
    ReadP.val_main_v1 (F := Ideal) a2 a3 (ix3 p s v) = ((tokR (logitR a2 a3 p s) v.val : ℝ) : EReal) := by
  rw [entry_apply]
  exact Cert.RefRow.logp_eq (logitR a2 a3 p s) (fun v => ReadP.val_main_v0 (F := Ideal) a2 a3 (ix3 p s v))
    (fun v => logit_real a0 a1 a2 a3 h p s v) _ (rowmax_real a0 a1 a2 a3 h p s) v

end Row3

/-! ## The gather along the vocabulary axis -/

/-- The entry a token gathers from its row: the one at its start index, read signed and clamped into the row. -/
theorem take_apply {α : Type} (x : S2x2048x50257.Idx → α) (idx : IVec S2x2048x1x1 32) (p : Fin 2) (s : Fin 2048) :
    Host.gather gather_S2x2048x50257_S2x2048x1x1_S2x2048x1_n_2_01_01_2_3_111 x idx (ix3 p s (0 : Fin 1))
      = x (ix3 p s (⟨min (idx (ix4 p s (0 : Fin 1) (0 : Fin 1))).toInt.toNat 50256, by omega⟩ : Fin 50257)) := by
  unfold Host.gather
  refine congrArg x ?_
  funext a
  refine Fin.ext ?_
  match a with
  | ⟨0, _⟩ =>
    show gather_S2x2048x50257_S2x2048x1x1_S2x2048x1_n_2_01_01_2_3_111.start (ix3 p s (0 : Fin 1)) idx 0 + gather_S2x2048x50257_S2x2048x1x1_S2x2048x1_n_2_01_01_2_3_111.batchCoord (ix3 p s (0 : Fin 1)) 0
      + gather_S2x2048x50257_S2x2048x1x1_S2x2048x1_n_2_01_01_2_3_111.offCoord (ix3 p s (0 : Fin 1)) 0 = p.val
    rw [GatherDims.start_batching _ _ _ _ (by decide),
      GatherDims.offCoord_eq_zero _ _ _ (fun hk => ((GatherDims.mem_sKept _ _).mp hk).2 (by decide)), Nat.zero_add, Nat.add_zero]
    unfold GatherDims.batchCoord
    rw [dif_pos (by decide)]
    rfl
  | ⟨1, _⟩ =>
    show gather_S2x2048x50257_S2x2048x1x1_S2x2048x1_n_2_01_01_2_3_111.start (ix3 p s (0 : Fin 1)) idx 1 + gather_S2x2048x50257_S2x2048x1x1_S2x2048x1_n_2_01_01_2_3_111.batchCoord (ix3 p s (0 : Fin 1)) 1
      + gather_S2x2048x50257_S2x2048x1x1_S2x2048x1_n_2_01_01_2_3_111.offCoord (ix3 p s (0 : Fin 1)) 1 = s.val
    rw [GatherDims.start_batching _ _ _ _ (by decide),
      GatherDims.offCoord_eq_zero _ _ _ (fun hk => ((GatherDims.mem_sKept _ _).mp hk).2 (by decide)), Nat.zero_add, Nat.add_zero]
    unfold GatherDims.batchCoord
    rw [dif_pos (by decide)]
    rfl
  | ⟨2, _⟩ =>
    show gather_S2x2048x50257_S2x2048x1x1_S2x2048x1_n_2_01_01_2_3_111.start (ix3 p s (0 : Fin 1)) idx 2 + gather_S2x2048x50257_S2x2048x1x1_S2x2048x1_n_2_01_01_2_3_111.batchCoord (ix3 p s (0 : Fin 1)) 2
      + gather_S2x2048x50257_S2x2048x1x1_S2x2048x1_n_2_01_01_2_3_111.offCoord (ix3 p s (0 : Fin 1)) 2 = min (idx (ix4 p s (0 : Fin 1) (0 : Fin 1))).toInt.toNat 50256
    rw [GatherDims.batchCoord_eq_zero _ _ _ (by decide),
      GatherDims.offCoord_eq_zero _ _ _ (fun hk => ((GatherDims.mem_sKept _ _).mp hk).1 (by decide))]
    simp only [Nat.add_zero]
    unfold GatherDims.start
    rw [dif_pos (by decide)]
    have hsi : gather_S2x2048x50257_S2x2048x1x1_S2x2048x1_n_2_01_01_2_3_111.siIdx (ix3 p s (0 : Fin 1)) ⟨List.idxOf (2 : Fin 3) gather_S2x2048x50257_S2x2048x1x1_S2x2048x1_n_2_01_01_2_3_111.startIndexMap,
        List.idxOf_lt_length_iff.2 (by decide)⟩ = ix4 p s (0 : Fin 1) (0 : Fin 1) := by
      funext b
      refine Fin.ext ?_
      match b with
      | ⟨0, _⟩ => rfl
      | ⟨1, _⟩ => rfl
      | ⟨2, _⟩ => rfl
      | ⟨3, _⟩ => rfl
    rw [hsi]
    rfl

/-! ## The start index is the label, and it is in range -/

/-- A fold of `and` from `1` over words that are all `1` is `1`. -/
theorem fold_andi_one {ι : Type} (S : Finset ι) (g : ι → BitVec 1) (hg : ∀ k, g k = 1#1) :
    S.fold IntOp.andi 1#1 g = 1#1 := by
  classical
  induction S using Finset.induction_on with
  | empty => rfl
  | insert a S ha ih => rw [Finset.fold_insert ha, ih, hg a]; rfl

/-- The reshaped start indices at `(p, s, c, d)` are read at `(p, s, 0)`. -/
theorem idx_v5 (p : Fin 2) (s : Fin 2048) (c d : Fin 1) :
    ReadP.idx_main_call1_v5 (ix4 p s c d) = ix3 p s (0 : Fin 1) := by
  have hp : p.val < 2 := p.isLt
  have hs : s.val < 2048 := s.isLt
  have hc : c.val = 0 := by omega
  have hd : d.val = 0 := by omega
  funext a
  refine Fin.ext ?_
  match a with
  | ⟨0, _⟩ =>
    show (((p.val * 2048 + s.val) * 1 + c.val) * 1 + d.val) / 2048 = p.val
    omega
  | ⟨1, _⟩ =>
    show (((p.val * 2048 + s.val) * 1 + c.val) * 1 + d.val) / 1 % 2048 = s.val
    omega
  | ⟨2, _⟩ => rfl

/-- The labels broadcast to `[2, 2048, 1]` are read at the token. -/
theorem idx_v4 (p : Fin 2) (s : Fin 2048) (c : Fin 1) : ReadP.idx_main_v4 (ix3 p s c) = ix2 p s := by
  funext a
  match a with
  | ⟨0, _⟩ => rfl
  | ⟨1, _⟩ => rfl

/-- The reshape `[2, 2048, 1] → [2, 2048]` reads the token's one entry. -/
theorem idx_v6 (p : Fin 2) (s : Fin 2048) : ReadP.idx_main_v6 (ix2 p s) = ix3 p s (0 : Fin 1) := by
  have hp : p.val < 2 := p.isLt
  have hs : s.val < 2048 := s.isLt
  funext a
  refine Fin.ext ?_
  match a with
  | ⟨0, _⟩ =>
    show (p.val * 2048 + s.val) / 2048 = p.val
    omega
  | ⟨1, _⟩ =>
    show (p.val * 2048 + s.val) / 1 % 2048 = s.val
    omega
  | ⟨2, _⟩ => rfl

section Label
variable (a0 : IVec S2x2048 32) (a1 : IVec S2x2048 1) (a2 : FVec Ideal S2x2048x1024 .f32) (a3 : FVec Ideal S50257x1024 .f32)
  (h : Cert.Pre_finite_inputs.fn (F := Ideal) a0 a1 a2 a3 = fun _ => 1#1) (p : Fin 2) (s : Fin 2048)
include h

/-- Under the precondition the label is not negative, so the start index is the label itself. -/
theorem start_eq (c d : Fin 1) : ReadP.val_main_call1_v5 (F := Ideal) a0 (ix4 p s c d) = a0 (ix2 p s) := by
  obtain ⟨hlt, _⟩ := Cert.PreFacts.label_range a0 a1 a2 a3 h (ix2 p s)
  rw [ReadP.val_main_call1_v5_apply, idx_v5, ReadP.val_main_call1_v4_apply, ReadP.val_main_call1_v1_apply,
    ReadP.val_main_v4_apply, idx_v4, ReadP.val_main_call1_v0_apply, ReadP.val_main_call1_c_apply]
  have hneg : ¬ IntOp.cmpi .slt (a0 (ix2 p s)) 0#32 = 1#1 := by
    rw [StableHlo.Predicate.slt_iff_toNat (by omega) (by decide)]
    exact Nat.not_lt_zero _
  rw [eq_zero_of_ne_one hneg, select_zero]

/-- Under the precondition the start index lies in `[0, 50256]`. -/
theorem inrange_eq (c d : Fin 1) : ReadP.val_main_call1_v11 (F := Ideal) a0 (ix4 p s c d) = 1#1 := by
  obtain ⟨hlt, _⟩ := Cert.PreFacts.label_range a0 a1 a2 a3 h (ix2 p s)
  rw [ReadP.val_main_call1_v11_apply, ReadP.val_main_call1_v7_apply, ReadP.val_main_call1_v10_apply,
    start_eq a0 a1 a2 a3 h p s c d, ReadP.val_main_call1_v6_apply, ReadP.val_main_call1_c_2_apply,
    ReadP.val_main_call1_v9_apply, ReadP.val_main_call1_v8_apply, ReadP.val_main_call1_c_1_apply, IntOp.andi_eq_one]
  constructor
  · rw [StableHlo.Predicate.sge_iff_toNat (by omega) (by decide)]
    exact Nat.zero_le _
  · rw [StableHlo.Predicate.sle_iff_toNat (by omega) (by decide)]
    show (a0 (ix2 p s)).toNat ≤ 50256
    omega

/-- So the in-range mask of the token is set. -/
theorem mask_eq : ReadP.val_main_call1_v12 (F := Ideal) a0 (ix3 p s (0 : Fin 1)) = 1#1 := by
  unfold ReadP.val_main_call1_v12
  rw [Host.reduce_eq_fold_single IntOp.andi _ _ reducesTo_S2x2048x1x1_S2x2048x1_d3 (by decide) h_S_ (ix3 p s (0 : Fin 1)),
    ReadP.val_main_call1_c_3_apply]
  refine fold_andi_one _ _ fun k => ?_
  refine Eq.trans (congrArg (ReadP.val_main_call1_v11 (F := Ideal) a0) ?_) (inrange_eq a0 a1 a2 a3 h p s (0 : Fin 1) k)
  funext a
  match a with
  | ⟨0, _⟩ => rfl
  | ⟨1, _⟩ => rfl
  | ⟨2, _⟩ => rfl
  | ⟨3, _⟩ => rfl

end Label

/-- The gathered log-softmax entry of token `(p, s)`: the label's logit minus the row's log-sum-exp. -/
theorem tok_ref (a0 : IVec S2x2048 32) (a1 : IVec S2x2048 1) (a2 : FVec Ideal S2x2048x1024 .f32) (a3 : FVec Ideal S50257x1024 .f32)
    (h : Cert.Pre_finite_inputs.fn (F := Ideal) a0 a1 a2 a3 = fun _ => 1#1) (p : Fin 2) (s : Fin 2048) :
    ReadP.val_main_v6 (F := Ideal) a0 a2 a3 (ix2 p s)
      = ((tokR (logitR a2 a3 p s) (a0 (ix2 p s)).toNat : ℝ) : EReal) := by
  obtain ⟨hlt, hint⟩ := Cert.PreFacts.label_range a0 a1 a2 a3 h (ix2 p s)
  rw [ReadP.val_main_v6_apply, idx_v6, ReadP.val_main_v5_apply, mask_eq a0 a1 a2 a3 h p s, select_one]
  unfold ReadP.val_main_call1_v13
  rw [take_apply, entry_real a0 a1 a2 a3 h p s]
  have hmin : min (ReadP.val_main_call1_v5 (F := Ideal) a0 (ix4 p s (0 : Fin 1) (0 : Fin 1))).toInt.toNat 50256
      = (a0 (ix2 p s)).toNat := by
    rw [start_eq a0 a1 a2 a3 h p s, hint, Int.toNat_natCast]
    omega
  simp only [hmin]

/-- The sum of token `(p, s)`'s log-softmax entries. -/
theorem sum_ref (a0 : IVec S2x2048 32) (a1 : IVec S2x2048 1) (a2 : FVec Ideal S2x2048x1024 .f32) (a3 : FVec Ideal S50257x1024 .f32)
    (h : Cert.Pre_finite_inputs.fn (F := Ideal) a0 a1 a2 a3 = fun _ => 1#1) (p : Fin 2) (s : Fin 2048) :
    ReadP.val_main_v11 (F := Ideal) a2 a3 (ix2 p s) = ((sumR (logitR a2 a3 p s) : ℝ) : EReal) := by
  rw [ReadP.val_main_v11_apply, ReadP.val_main_cst_1_apply, Ideal.ofBits_def, Ideal.ofBits_zero_f32]
  refine Eq.trans (congrArg (0 + ·) (Finset.sum_congr rfl fun u _ => ?_))
    (Cert.RefRow.sum_logp_eq (logitR a2 a3 p s) (fun v => ReadP.val_main_v0 (F := Ideal) a2 a3 (ix3 p s v))
      (fun v => logit_real a0 a1 a2 a3 h p s v) _ (rowmax_real a0 a1 a2 a3 h p s))
  rw [idx_v11, entry_apply]

end Cert.ReferenceIdeal.RefValue

end
-- ==== Proof.lean ====
/-
  The certificate. The kernel is a masked, label-smoothed cross-entropy over a vocabulary of 50257 columns: per token
  it needs the label's log-probability and the sum of all log-probabilities of the row `softmax (W · o)`. It never forms
  the row: it scans the vocabulary in 99 tiles of 512 columns, carrying per token a running maximum, a sum of
  exponentials rescaled to that maximum, the sum of the logits and the label's logit; the 431 columns past the
  vocabulary's end are filled with `-∞` for the maximum and the exponentials and with `0` for the plain sums. The
  reference forms the row and takes `log_softmax`. Over the extended reals, for real inputs and labels in range, both
  give per token `x_label - lse` and `∑ x - 50257 · lse`, and both then close with the same three mask-weighted sums.
  The frames of the two kernel programs are the generated ones; the reference's frame is its run with the result dropped.
-/
import proofs.«431461_j16569983828129_2_alg».proof.Defs
import proofs.«431461_j16569983828129_2_alg».proof.Proof.Gen.Kernel
import proofs.«431461_j16569983828129_2_alg».proof.Proof.Gen.Kernel.Frame
import proofs.«431461_j16569983828129_2_alg».proof.Proof.Gen.KernelIdeal
import proofs.«431461_j16569983828129_2_alg».proof.Proof.Gen.KernelIdeal.Frame
import proofs.«431461_j16569983828129_2_alg».proof.Proof.Gen.ReferenceIdeal
import proofs.«431461_j16569983828129_2_alg».proof.Proof.Gen.Pre_finite_inputs
import proofs.«431461_j16569983828129_2_alg».proof.Proof.KernelTok
import proofs.«431461_j16569983828129_2_alg».proof.Proof.KernelTail
import proofs.«431461_j16569983828129_2_alg».proof.Proof.TailBridge
import proofs.«431461_j16569983828129_2_alg».proof.Proof.RefRun
import proofs.«431461_j16569983828129_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The one rewrite of the idealization: the fill of the columns past the vocabulary's end denotes `-∞`. -/
theorem preserves : Cert.preserves_Kernel_KernelIdeal :=
  IdealRules.named_const.statement Cert.KernelIdeal.κ "neg_big" .f32 0xFF333332#32 ⊥ rfl

/-- Both programs end with the same number: the closing arithmetic of the mask and the two per-token rows, which hold,
    token by token, the label's log-probability and the row's sum of log-probabilities on both sides. -/
theorem algebraic : Cert.algebraic_KernelIdeal_ReferenceIdeal := by
  intro m ρ m' ρ' hpre hagree
  refine ⟨_, Cert.KernelIdeal.Tail.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2,
    Cert.KernelIdeal.KArr.final_tok, Cert.KernelIdeal.KArr.final_sum]
  exact (Cert.TailBridge.result_eq _ _ _ _ _ _
    (fun p s => (Cert.KernelIdeal.KTok.tok_kernel m c (hpre c) p s).trans
      (Cert.ReferenceIdeal.RefValue.tok_ref _ _ _ _ (hpre c) p s).symm)
    (fun p s => (Cert.KernelIdeal.KTok.sum_kernel m c (hpre c) p s).trans
      (Cert.ReferenceIdeal.RefValue.sum_ref _ _ _ _ (hpre c) p s).symm)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
